-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10x3 : Shape := ⟨3, ![8, 10, 3]⟩
abbrev S8x3x1024 : Shape := ⟨3, ![8, 3, 1024]⟩
abbrev S8x3x4096 : Shape := ⟨3, ![8, 3, 4096]⟩
abbrev S8x4096x3 : Shape := ⟨3, ![8, 4096, 3]⟩
abbrev S_ : Shape := ⟨0, ![]⟩

class Facts : Prop where
  bcast_S_S8x10x3 : S_.BroadcastsInDim S8x10x3 (![] : Fin 0 → Fin S8x10x3.rank)
  reducesTo_S8x10x3_S_d0_1_2 : S8x10x3.ReducesTo [0, 1, 2] S_
  h_S_ : 0 < S_.numel
  bcast_S_S8x3x1024 : S_.BroadcastsInDim S8x3x1024 (![] : Fin 0 → Fin S8x3x1024.rank)
  reducesTo_S8x3x1024_S_d0_1_2 : S8x3x1024.ReducesTo [0, 1, 2] S_
  bcast_S_S8x3x4096 : S_.BroadcastsInDim S8x3x4096 (![] : Fin 0 → Fin S8x3x4096.rank)
  reducesTo_S8x3x4096_S_d0_1_2 : S8x3x4096.ReducesTo [0, 1, 2] S_
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn_part1 {F : FTy → Type} [FloatOps F] (main_arg4 : FVec F S8x4096x3 .f32) (main_v13 : IVec S_ 1) (main_v16 : IVec S8x3x4096 1) : IVec S_ 1 :=
  let main_c_5 : IVec S_ 1 := constantI S_ 1 1#1
  let main_v17 : IVec S_ 1 := (fun x v => Host.reduce IntOp.andi x v reducesTo_S8x3x4096_S_d0_1_2 h_S_) main_v16 main_c_5
  let main_v18 : IVec S_ 1 := andi main_v13 main_v17
  let main_v19 : FVec F S8x4096x3 .f32 := Host.absf main_arg4
  let main_cst_6 : FVec F S_ .f32 := constant S_ .f32 0x7F800000#32
  let main_v20 : FVec F S8x4096x3 .f32 := broadcastInDim S8x4096x3 ![] bcast_S_S8x4096x3 main_cst_6
  let main_v21 : IVec S8x4096x3 1 := cmpf .olt main_v19 main_v20
  let main_c_7 : IVec S_ 1 := constantI S_ 1 1#1
  let main_v22 : IVec S_ 1 := (fun x v => Host.reduce IntOp.andi x v reducesTo_S8x4096x3_S_d0_1_2 h_S_) main_v21 main_c_7
  let main_v23 : IVec S_ 1 := andi main_v18 main_v22
  main_v23

def fn {F : FTy → Type} [FloatOps F] (main_arg0 : FVec F S8x10x3 .f32) (main_arg1 : FVec F S8x10x3 .f32) (main_arg2 : FVec F S8x3x1024 .f32) (main_arg3 : FVec F S8x3x4096 .f32) (main_arg4 : FVec F S8x4096x3 .f32) : IVec S_ 1 :=
  let main_v0 : FVec F S8x10x3 .f32 := Host.absf main_arg0
  let main_cst : FVec F S_ .f32 := constant S_ .f32 0x7F800000#32
  let main_v1 : FVec F S8x10x3 .f32 := broadcastInDim S8x10x3 ![] bcast_S_S8x10x3 main_cst
  let main_v2 : IVec S8x10x3 1 := cmpf .olt main_v0 main_v1
  let main_c : IVec S_ 1 := constantI S_ 1 1#1
  let main_v3 : IVec S_ 1 := (fun x v => Host.reduce IntOp.andi x v reducesTo_S8x10x3_S_d0_1_2 h_S_) main_v2 main_c
  let main_v4 : FVec F S8x10x3 .f32 := Host.absf main_arg1
  let main_cst_0 : FVec F S_ .f32 := constant S_ .f32 0x7F800000#32
  let main_v5 : FVec F S8x10x3 .f32 := broadcastInDim S8x10x3 ![] bcast_S_S8x10x3 main_cst_0
  let main_v6 : IVec S8x10x3 1 := cmpf .olt main_v4 main_v5
  let main_c_1 : IVec S_ 1 := constantI S_ 1 1#1
  let main_v7 : IVec S_ 1 := (fun x v => Host.reduce IntOp.andi x v reducesTo_S8x10x3_S_d0_1_2 h_S_) main_v6 main_c_1
  let main_v8 : IVec S_ 1 := andi main_v3 main_v7
  let main_v9 : FVec F S8x3x1024 .f32 := Host.absf main_arg2
  let main_cst_2 : FVec F S_ .f32 := constant S_ .f32 0x7F800000#32
  let main_v10 : FVec F S8x3x1024 .f32 := broadcastInDim S8x3x1024 ![] bcast_S_S8x3x1024 main_cst_2
  let main_v11 : IVec S8x3x1024 1 := cmpf .olt main_v9 main_v10
  let main_c_3 : IVec S_ 1 := constantI S_ 1 1#1
  let main_v12 : IVec S_ 1 := (fun x v => Host.reduce IntOp.andi x v reducesTo_S8x3x1024_S_d0_1_2 h_S_) main_v11 main_c_3
  let main_v13 : IVec S_ 1 := andi main_v8 main_v12
  let main_v14 : FVec F S8x3x4096 .f32 := Host.absf main_arg3
  let main_cst_4 : FVec F S_ .f32 := constant S_ .f32 0x7F800000#32
  let main_v15 : FVec F S8x3x4096 .f32 := broadcastInDim S8x3x4096 ![] bcast_S_S8x3x4096 main_cst_4
  let main_v16 : IVec S8x3x4096 1 := cmpf .olt main_v14 main_v15
  fn_part1 (F := F) main_arg4 main_v13 main_v16
-- ==== Kernel.lean ====
abbrev S8x10x3 : Shape := ⟨3, ![8, 10, 3]⟩
abbrev S8x3x1024 : Shape := ⟨3, ![8, 3, 1024]⟩
abbrev S8x3x4096 : Shape := ⟨3, ![8, 3, 4096]⟩
abbrev S8x4096x3 : Shape := ⟨3, ![8, 4096, 3]⟩
abbrev S_ : Shape := ⟨0, ![]⟩
abbrev S8x1024x3 : Shape := ⟨3, ![8, 1024, 3]⟩
abbrev S1024x8 : Shape := ⟨2, ![1024, 8]⟩
abbrev S8x4096 : Shape := ⟨2, ![8, 4096]⟩
abbrev S8x64x3 : Shape := ⟨3, ![8, 64, 3]⟩
abbrev S64x8 : Shape := ⟨2, ![64, 8]⟩
abbrev S8x64 : Shape := ⟨2, ![8, 64]⟩
abbrev S8x64x1 : Shape := ⟨3, ![8, 64, 1]⟩
abbrev S8x1x4096 : Shape := ⟨3, ![8, 1, 4096]⟩
abbrev S8x64x4096 : Shape := ⟨3, ![8, 64, 4096]⟩
abbrev S4096x8 : Shape := ⟨2, ![4096, 8]⟩

abbrev nBuf : Space → Nat
  | .hbm => 37
  | .vmem => 14
  | .smem => 0
  | _ => 0

abbrev bufTy : (tb : Table) → Fin (tcTables nBuf tb) → BufTy
  | .hbm, ⟨0, _⟩ => ⟨S8x10x3, .f32⟩
  | .hbm, ⟨1, _⟩ => ⟨S8x10x3, .f32⟩
  | .hbm, ⟨2, _⟩ => ⟨S8x3x1024, .f32⟩
  | .hbm, ⟨3, _⟩ => ⟨S8x3x4096, .f32⟩
  | .hbm, ⟨4, _⟩ => ⟨S8x4096x3, .f32⟩
  | .hbm, ⟨5, _⟩ => ⟨S8x10x3, .f32⟩
  | .hbm, ⟨6, _⟩ => ⟨S8x10x3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x1024x3, .f32⟩
  | .hbm, ⟨12, _⟩ => ⟨S8x4096x3, .f32⟩
  | .hbm, ⟨13, _⟩ => ⟨S1024x8, .f32⟩
  | .hbm, ⟨14, _⟩ => ⟨S8x4096, .f32⟩
  | .hbm, ⟨15, _⟩ => ⟨S4096x8, .f32⟩
  | .hbm, ⟨16, _⟩ => ⟨S8x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S8x64x3, .f32⟩
  | .local _ .vmem, ⟨1, _⟩ => ⟨S8x64x3, .f32⟩
  | .local _ .vmem, ⟨2, _⟩ => ⟨S8x4096x3, .f32⟩
  | .local _ .vmem, ⟨3, _⟩ => ⟨S64x8, .f32⟩
  | .local _ .vmem, ⟨4, _⟩ => ⟨S64x8, .f32⟩
  | .local _ .vmem, ⟨5, _⟩ => ⟨S8x4096, .f32⟩
  | .local _ .vmem, ⟨6, _⟩ => ⟨S8x4096, .f32⟩
  | .local _ .vmem, ⟨7, _⟩ => ⟨S8x64x3, .f32⟩
  | .local _ .vmem, ⟨8, _⟩ => ⟨S8x64x3, .f32⟩
  | .local _ .vmem, ⟨9, _⟩ => ⟨S8x4096x3, .f32⟩
  | .local _ .vmem, ⟨10, _⟩ => ⟨S64x8, .f32⟩
  | .local _ .vmem, ⟨11, _⟩ => ⟨S64x8, .f32⟩
  | .local _ .vmem, ⟨12, _⟩ => ⟨S8x4096, .f32⟩
  | .local _ .vmem, ⟨13, _⟩ => ⟨S8x4096, .f32⟩
  | _, _ => ⟨S8x10x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7_0 : Ref sig .tc := ⟨.hbm, 15, rfl⟩
abbrev main_v7_1 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_cst_8 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x64x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x4096x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  reducesTo_S8x10x3_S_d0_1_2 : S8x10x3.ReducesTo [0, 1, 2] S_
  h_S_ : 0 < S_.numel
  transposes_S8x3x1024_S8x1024x3_0_2_1 : S8x3x1024.Transposes [0, 2, 1] S8x1024x3
  transposes_S8x3x4096_S8x4096x3_0_2_1 : S8x3x4096.Transposes [0, 2, 1] S8x4096x3
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x64x3_S8x64x3_0_0_0 : ∀ a, (![0, 0, 0] : Fin 3 → Nat) a + S8x64x3.size a ≤ S8x64x3.size a
  h_S8x64x3 : 0 < S8x64x3.numel
  shapeCasts_S8x64x3_S8x64x3 : S8x64x3.ShapeCasts S8x64x3
  inb_S8x4096x3_S8x4096x3_0_0_0 : ∀ a, (![0, 0, 0] : Fin 3 → Nat) a + S8x4096x3.size a ≤ S8x4096x3.size a
  h_S8x4096x3 : 0 < S8x4096x3.numel
  reduces_S8x64x3_S8x64 : S8x64x3.Reduces [2] S8x64
  shapeCasts_S8x64_S8x64x1 : S8x64.ShapeCasts S8x64x1
  reduces_S8x4096x3_S8x4096 : S8x4096x3.Reduces [2] S8x4096
  shapeCasts_S8x4096_S8x1x4096 : S8x4096.ShapeCasts S8x1x4096
  broadcasts_S8x64x1_S8x64x4096 : S8x64x1.Broadcasts S8x64x4096
  broadcasts_S8x1x4096_S8x64x4096 : S8x1x4096.Broadcasts S8x64x4096
  reduces_S8x64x4096_S8x64 : S8x64x4096.Reduces [2] S8x64
  reduces_S8x64x4096_S8x4096 : S8x64x4096.Reduces [1] S8x4096
  transposes_S8x64_p1_0_S64x8 : S8x64.Transposes [1, 0] S64x8
  inb_S64x8_S64x8_0_0 : ∀ a, (![0, 0] : Fin 2 → Nat) a + S64x8.size a ≤ S64x8.size a
  h_S64x8 : 0 < S64x8.numel
  reducesTo_S1024x8_S_d0_1 : S1024x8.ReducesTo [0, 1] S_
  reducesTo_S8x4096_S_d0_1 : S8x4096.ReducesTo [0, 1] S_
  reducesTo_S4096x8_S_d0_1 : S4096x8.ReducesTo [0, 1] S_
  dot_S8x64x3_S8x4096x3_S8x64x4096_2_2_1_1_0_0_wf : DotDims.WF S8x64x3 S8x4096x3 S8x64x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x3.size a ≤ S8x1024x3.size a
  hwx0_0 : ∀ i : grid0.Coords, EltTy.bits .f32 = 32 ∨ (Rect.block (s := S8x1024x3) S8x64x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096x3.size a ≤ S8x4096x3.size a
  hwx0_1 : ∀ i : grid0.Coords, EltTy.bits .f32 = 32 ∨ (Rect.block (s := S8x4096x3) S8x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S1024x8.size a
  hwx0_2 : ∀ i : grid0.Coords, EltTy.bits .f32 = 32 ∨ (Rect.block (s := S1024x8) S64x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .f32 = 32 ∨ (Rect.block (s := S8x4096) S8x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x3.size a ≤ S8x4096x3.size a
  hwx1_0 : ∀ i : grid1.Coords, EltTy.bits .f32 = 32 ∨ (Rect.block (s := S8x4096x3) S8x64x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096x3.size a ≤ S8x4096x3.size a
  hwx1_1 : ∀ i : grid1.Coords, EltTy.bits .f32 = 32 ∨ (Rect.block (s := S8x4096x3) S8x4096x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8.size a ≤ S4096x8.size a
  hwx1_2 : ∀ i : grid1.Coords, EltTy.bits .f32 = 32 ∨ (Rect.block (s := S4096x8) S64x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S8x4096.size a
  hwx1_3 : ∀ i : grid1.Coords, EltTy.bits .f32 = 32 ∨ (Rect.block (s := S8x4096) S8x4096.size (cc1_transform_3 i) (hinb1_3 i)).WholeWords (EltTy.packing .f32)

variable [Facts₀]

def dot_S8x64x3_S8x4096x3_S8x64x4096_2_2_1_1_0_0 : DotDims S8x64x3 S8x4096x3 S8x64x4096 where
  lhsContracting := [2]
  rhsContracting := [2]
  lhsNonContracting := [1]
  rhsNonContracting := [1]
  lhsBatch := [0]
  rhsBatch := [0]
  wf := dot_S8x64x3_S8x4096x3_S8x64x4096_2_2_1_1_0_0_wf

abbrev win0_0 : Pipeline.Window sig grid0 :=
  Pipeline.Window.ofSpec (Memref.whole main_v4) S8x64x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S64x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S8x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S8x64x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x4096x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S64x8.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S8x4096.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x10x3 : Shape := ⟨3, ![8, 10, 3]⟩
abbrev S8x3x1024 : Shape := ⟨3, ![8, 3, 1024]⟩
abbrev S8x3x4096 : Shape := ⟨3, ![8, 3, 4096]⟩
abbrev S8x4096x3 : Shape := ⟨3, ![8, 4096, 3]⟩
abbrev S_ : Shape := ⟨0, ![]⟩
abbrev S8x1024x3 : Shape := ⟨3, ![8, 1024, 3]⟩
abbrev S8x1024 : Shape := ⟨2, ![8, 1024]⟩
abbrev S8x4096 : Shape := ⟨2, ![8, 4096]⟩
abbrev S8x1024x4096 : Shape := ⟨3, ![8, 1024, 4096]⟩
abbrev S8x1024x1 : Shape := ⟨3, ![8, 1024, 1]⟩
abbrev S8x1x4096 : Shape := ⟨3, ![8, 1, 4096]⟩
abbrev S8x4096x4096 : Shape := ⟨3, ![8, 4096, 4096]⟩
abbrev S8x4096x1 : Shape := ⟨3, ![8, 4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S8x10x3, .f32⟩
  | .hbm, ⟨1, _⟩ => ⟨S8x10x3, .f32⟩
  | .hbm, ⟨2, _⟩ => ⟨S8x3x1024, .f32⟩
  | .hbm, ⟨3, _⟩ => ⟨S8x3x4096, .f32⟩
  | .hbm, ⟨4, _⟩ => ⟨S8x4096x3, .f32⟩
  | .hbm, ⟨5, _⟩ => ⟨S8x10x3, .f32⟩
  | .hbm, ⟨6, _⟩ => ⟨S8x10x3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x1024x3, .f32⟩
  | .hbm, ⟨12, _⟩ => ⟨S8x1024x3, .f32⟩
  | .hbm, ⟨13, _⟩ => ⟨S_, .f32⟩
  | .hbm, ⟨14, _⟩ => ⟨S8x1024, .f32⟩
  | .hbm, ⟨15, _⟩ => ⟨S8x4096x3, .f32⟩
  | .hbm, ⟨16, _⟩ => ⟨S_, .f32⟩
  | .hbm, ⟨17, _⟩ => ⟨S8x4096, .f32⟩
  | .hbm, ⟨18, _⟩ => ⟨S8x1024x4096, .f32⟩
  | .hbm, ⟨19, _⟩ => ⟨S8x1024x1, .f32⟩
  | .hbm, ⟨20, _⟩ => ⟨S8x1x4096, .f32⟩
  | .hbm, ⟨21, _⟩ => ⟨S8x1024x4096, .f32⟩
  | .hbm, ⟨22, _⟩ => ⟨S8x1024x4096, .f32⟩
  | .hbm, ⟨23, _⟩ => ⟨S8x1024x4096, .f32⟩
  | .hbm, ⟨24, _⟩ => ⟨S_, .f32⟩
  | .hbm, ⟨25, _⟩ => ⟨S8x1024x4096, .f32⟩
  | .hbm, ⟨26, _⟩ => ⟨S8x1024x4096, .f32⟩
  | .hbm, ⟨27, _⟩ => ⟨S8x1024x4096, .f32⟩
  | .hbm, ⟨28, _⟩ => ⟨S_, .f32⟩
  | .hbm, ⟨29, _⟩ => ⟨S8x1024x4096, .f32⟩
  | .hbm, ⟨30, _⟩ => ⟨S8x1024x4096, .f32⟩
  | .hbm, ⟨31, _⟩ => ⟨S_, .f32⟩
  | .hbm, ⟨32, _⟩ => ⟨S8x1024, .f32⟩
  | .hbm, ⟨33, _⟩ => ⟨S_, .f32⟩
  | .hbm, ⟨34, _⟩ => ⟨S8x4096, .f32⟩
  | .hbm, ⟨35, _⟩ => ⟨S8x4096x3, .f32⟩
  | .hbm, ⟨36, _⟩ => ⟨S8x4096x3, .f32⟩
  | .hbm, ⟨37, _⟩ => ⟨S_, .f32⟩
  | .hbm, ⟨38, _⟩ => ⟨S8x4096, .f32⟩
  | .hbm, ⟨39, _⟩ => ⟨S8x4096x3, .f32⟩
  | .hbm, ⟨40, _⟩ => ⟨S_, .f32⟩
  | .hbm, ⟨41, _⟩ => ⟨S8x4096, .f32⟩
  | .hbm, ⟨42, _⟩ => ⟨S8x4096x4096, .f32⟩
  | .hbm, ⟨43, _⟩ => ⟨S8x4096x1, .f32⟩
  | .hbm, ⟨44, _⟩ => ⟨S8x1x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S8x10x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_cst_15 : Ref sig .tc := ⟨.hbm, 63, rfl⟩
abbrev main_v42 : Ref sig .tc := ⟨.hbm, 64, rfl⟩
abbrev main_cst_16 : Ref sig .tc := ⟨.hbm, 65, rfl⟩
abbrev main_v43 : Ref sig .tc := ⟨.hbm, 66, rfl⟩
abbrev main_v44 : Ref sig .tc := ⟨.hbm, 67, rfl⟩
abbrev main_cst_17 : Ref sig .tc := ⟨.hbm, 68, rfl⟩
abbrev main_v45 : Ref sig .tc := ⟨.hbm, 69, rfl⟩
abbrev main_cst_18 : Ref sig .tc := ⟨.hbm, 70, rfl⟩
abbrev main_v46 : Ref sig .tc := ⟨.hbm, 71, rfl⟩
abbrev main_cst_19 : Ref sig .tc := ⟨.hbm, 72, rfl⟩
abbrev main_v47 : Ref sig .tc := ⟨.hbm, 73, rfl⟩
abbrev main_cst_20 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  reducesTo_S8x10x3_S_d0_1_2 : S8x10x3.ReducesTo [0, 1, 2] S_
  h_S_ : 0 < S_.numel
  transposes_S8x3x1024_S8x1024x3_0_2_1 : S8x3x1024.Transposes [0, 2, 1] S8x1024x3
  reducesTo_S8x1024x3_S8x1024_d2 : S8x1024x3.ReducesTo [2] S8x1024
  reducesTo_S8x4096x3_S8x4096_d2 : S8x4096x3.ReducesTo [2] S8x4096
  bcast_S8x1024_S8x1024x1_0_1 : S8x1024.BroadcastsInDim S8x1024x1 (![0, 1] : Fin 2 → Fin S8x1024x1.rank)
  bcast_S8x4096_S8x1x4096_0_2 : S8x4096.BroadcastsInDim S8x1x4096 (![0, 2] : Fin 2 → Fin S8x1x4096.rank)
  bcast_S8x1024x1_S8x1024x4096_0_1_2 : S8x1024x1.BroadcastsInDim S8x1024x4096 (![0, 1, 2] : Fin 3 → Fin S8x1024x4096.rank)
  bcast_S8x1x4096_S8x1024x4096_0_1_2 : S8x1x4096.BroadcastsInDim S8x1024x4096 (![0, 1, 2] : Fin 3 → Fin S8x1024x4096.rank)
  bcast_S_S8x1024x4096 : S_.BroadcastsInDim S8x1024x4096 (![] : Fin 0 → Fin S8x1024x4096.rank)
  reducesTo_S8x1024x4096_S8x1024_d2 : S8x1024x4096.ReducesTo [2] S8x1024
  reducesTo_S8x1024x4096_S8x4096_d1 : S8x1024x4096.ReducesTo [1] S8x4096
  transposes_S8x3x4096_S8x4096x3_0_2_1 : S8x3x4096.Transposes [0, 2, 1] S8x4096x3
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x1024_S_d0_1 : S8x1024.ReducesTo [0, 1] S_
  reducesTo_S8x4096_S_d0_1 : S8x4096.ReducesTo [0, 1] S_
  dot_S8x1024x3_S8x4096x3_S8x1024x4096_2_2_1_1_0_0_wf : DotDims.WF S8x1024x3 S8x4096x3 S8x1024x4096 [2] [2] [1] [1] [0] [0]
  dot_S8x4096x3_S8x4096x3_S8x4096x4096_2_2_1_1_0_0_wf : DotDims.WF S8x4096x3 S8x4096x3 S8x4096x4096 [2] [2] [1] [1] [0] [0]

variable [Facts₀]

def dot_S8x1024x3_S8x4096x3_S8x1024x4096_2_2_1_1_0_0 : DotDims S8x1024x3 S8x4096x3 S8x1024x4096 where
  lhsContracting := [2]
  rhsContracting := [2]
  lhsNonContracting := [1]
  rhsNonContracting := [1]
  lhsBatch := [0]
  rhsBatch := [0]
  wf := dot_S8x1024x3_S8x4096x3_S8x1024x4096_2_2_1_1_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.WholeStores.lean ====
/-
  Stores through the whole-shape rectangle at zero offsets: whatever stores came before, a list of stores whose last
  one is such a store covers the shape, so the buffer reads as that store's payload.
-/
import Idealize.ShloMosaic.Lib.Pipeline.FrameBody
import Idealize.ShloMosaic.Lib.Pipeline.Value

namespace Cert.WholeStores

open Idealize.ShloMosaic

/-- A list of stores whose LAST store (the list's head) is through the whole-shape rectangle covers the shape. Stated
    over an abstract shape, so that applying it at a long axis unfolds no set. -/
theorem cover_head {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.Mem.head _, View.mem_set_unit_zero h inb y⟩

/-- The zero offsets of rank 2, however spelt. -/
theorem hz2 : (![0, 0] : Fin 2 → ℕ) = fun _ => 0 := by funext a; fin_cases a <;> rfl
/-- The zero offsets of rank 3. -/
theorem hz3 : (![0, 0, 0] : Fin 3 → ℕ) = fun _ => 0 := by funext a; fin_cases a <;> rfl

end Cert.WholeStores
-- ==== Proof.KernelBody0.lean ====
/-
  The kernel body of the first kernel call, run once per control case.

  The body is handed one block of a cloud (`arg1`), the whole reference cloud (`arg2`), the row-minimum window
  (`arg3`), the column-minimum window (`arg4`) and a scratch it keeps from grid point to grid point (`arg5`). At the
  grid's first point it first fills the scratch with +∞. Then, at every point: it stores into `arg3` the row minima
  of the block's clamped squared distances (`k0_pay3` of the two inputs); it replaces the scratch by the minimum of
  the scratch and the block's column minima (`k0_pay4` of the two inputs and what the scratch held); and it copies the
  scratch into `arg4`. So after the first point both `arg4` and the scratch hold `k0_pay4 x1 x2 (+∞)`, and after a
  later point, entered with the scratch at `s`, both hold `k0_pay4 x1 x2 s`. The loads of `arg3` and `arg4` the body
  makes before storing into them read values nothing uses, so those two windows may come at any contents.

  Every store is through the whole-shape rectangle at zero offsets, so each buffer's final contents are the payload
  of its last store, and a load after such a store reads that payload.
-/
import proofs.«158115_j85152021610990_1_alg».proof.Proof.Gen.Kernel.Launch
import proofs.«158115_j85152021610990_1_alg».proof.Proof.Gen.Kernel.Skeleton
import proofs.«158115_j85152021610990_1_alg».proof.Proof.Gen.Kernel.Points
import proofs.«158115_j85152021610990_1_alg».proof.Proof.WholeStores
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region

open Cert.Kernel Cert.Kernel.Gen Cert.WholeStores
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition, from the grid coordinate. -/
abbrev cond0 (i : grid0.Coords) : Prop := (Scalar.cmpi .ne (Scalar.extui (Scalar.cmpi .eq (BitVec.ofNat 32 (i 0).val) 0#32)) 0#32) = 1#1

theorem hcond0 : ∀ t : Fin cfg0.N, cond0 (grid0.coords t) ↔ t.val % 16 = 0 :=
  (by decide +kernel : ∀ t : Fin grid0.N, cond0 (grid0.coords t) ↔ t.val % 16 = 0)

set_option maxHeartbeats 1000000 in
/-- A point that is not the first (the reset not taken), entered with the scratch at `s`: the inputs are left as they
    were, the row-minimum window ends at `k0_pay3 x1 x2`, the column-minimum window and the scratch at `k0_pay4 x1 x2 s`. -/
theorem kernel0_later (c : Dev nD) (E : Set ℕ) (i : grid0.Coords)
    (arg1 : Memref sig .tc .vmem S8x64x3 .f32) (harg1 : arg1.IsWhole) (arg2 : Memref sig .tc .vmem S8x4096x3 .f32) (harg2 : arg2.IsWhole)
    (arg3 : Memref sig .tc .vmem S64x8 .f32) (harg3 : arg3.IsWhole) (arg4 : Memref sig .tc .vmem S8x4096 .f32) (harg4 : arg4.IsWhole)
    (arg5 : Memref sig .tc .vmem S8x4096 .f32) (harg5 : arg5.IsWhole) (hc : ¬cond0 i)
    (x1 : Vec F S8x64x3 .f32) (x2 : Vec F S8x4096x3 .f32) (s : Vec F S8x4096 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ owns (c : Thread nD τ) arg5 fullShare s
        ∗ (iprop(owns (c : Thread nD τ) arg1 fullShare x1 ∗ owns (c : Thread nD τ) arg2 fullShare x2
            ∗ owns (c : Thread nD τ) arg3 fullShare (k0_pay3 x1 x2)
            ∗ owns (c : Thread nD τ) arg4 fullShare (k0_pay4 x1 x2 s)
            ∗ owns (c : Thread nD τ) arg5 fullShare (k0_pay4 x1 x2 s)) -∗ K ⟨⟩))
      ⊢ wp frame (wpE (defs₀ (F := F)) Variants.none c none) E (cc0__chamfer_kernel i arg1 harg1 arg2 harg2 arg3 harg3 arg4 harg4 arg5 harg5) K := by
  simp only [cc0__chamfer_kernel_eq_skeleton]; unfold cc0__chamfer_kernel_skel
  unfold owns
  iintro ⟨⟨%f1, %hf1, H1⟩, ⟨%f2, %hf2, H2⟩, ⟨%d3, %f3, -, H3⟩, ⟨%d4, %f4, -, H4⟩, ⟨%f5, %hf5, H5⟩, Hk⟩
  obtain rfl := harg1.eq_unread hf1; obtain rfl := harg2.eq_unread hf2; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover_head (S := S64x8) hz2 inb_S64x8_S64x8_0_0 _ _)]
    rw [View.canon_unit_zero (S := S64x8) hz2]
    simp only [View.readAt_eq_ld, harg1.read_unread, harg2.read_unread, View.ld_unit_zero (S := S8x64x3) hz3, View.ld_unit_zero (S := S8x4096x3) hz3]
  isplitl [H4]
  · iexists _; isplitr
    swap; · iexact H4
    ipureintro
    sl_unfold_words
    rw [View.read_writes_eq_canon _ _ _ (cover_head (S := S8x4096) hz2 inb_S8x4096_S8x4096_0_0 _ _), View.canon_unit_zero (S := S8x4096) hz2]
    simp only [View.readCov_unit_zero (S := S8x4096) _ hz2, View.readAt_eq_ld, harg1.read_unread, harg2.read_unread, harg5.read_unread,
      View.ld_unit_zero (S := S8x64x3) hz3, View.ld_unit_zero (S := S8x4096x3) hz3, View.ld_unit_zero (S := S8x4096) hz2]
  · iexists _; isplitr
    swap; · iexact H5
    ipureintro
    sl_unfold_words
    rw [View.read_writes_eq_canon _ _ _ (cover_head (S := S8x4096) hz2 inb_S8x4096_S8x4096_0_0 _ _), View.canon_unit_zero (S := S8x4096) hz2]
    simp only [View.readCov_unit_zero (S := S8x4096) _ hz2, View.readAt_eq_ld, harg1.read_unread, harg2.read_unread, harg5.read_unread,
      View.ld_unit_zero (S := S8x64x3) hz3, View.ld_unit_zero (S := S8x4096x3) hz3, View.ld_unit_zero (S := S8x4096) hz2]

set_option maxHeartbeats 1000000 in
/-- The first point (the reset taken), the scratch at anything: the same with `s` the +∞ fill `k0_pay1`. -/
theorem kernel0_first (c : Dev nD) (E : Set ℕ) (i : grid0.Coords)
    (arg1 : Memref sig .tc .vmem S8x64x3 .f32) (harg1 : arg1.IsWhole) (arg2 : Memref sig .tc .vmem S8x4096x3 .f32) (harg2 : arg2.IsWhole)
    (arg3 : Memref sig .tc .vmem S64x8 .f32) (harg3 : arg3.IsWhole) (arg4 : Memref sig .tc .vmem S8x4096 .f32) (harg4 : arg4.IsWhole)
    (arg5 : Memref sig .tc .vmem S8x4096 .f32) (harg5 : arg5.IsWhole) (hc : cond0 i)
    (x1 : Vec F S8x64x3 .f32) (x2 : Vec F S8x4096x3 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (k0_pay3 x1 x2)
            ∗ owns (c : Thread nD τ) arg4 fullShare (k0_pay4 x1 x2 (k0_pay1 (F := F)))
            ∗ owns (c : Thread nD τ) arg5 fullShare (k0_pay4 x1 x2 (k0_pay1 (F := F)))) -∗ K ⟨⟩))
      ⊢ wp frame (wpE (defs₀ (F := F)) Variants.none c none) E (cc0__chamfer_kernel i arg1 harg1 arg2 harg2 arg3 harg3 arg4 harg4 arg5 harg5) K := by
  simp only [cc0__chamfer_kernel_eq_skeleton]; unfold cc0__chamfer_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  obtain rfl := harg1.eq_unread hf1; obtain rfl := harg2.eq_unread hf2
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover_head (S := S64x8) hz2 inb_S64x8_S64x8_0_0 _ _)]
    rw [View.canon_unit_zero (S := S64x8) hz2]
    simp only [View.readAt_eq_ld, harg1.read_unread, harg2.read_unread, View.ld_unit_zero (S := S8x64x3) hz3, View.ld_unit_zero (S := S8x4096x3) hz3]
  isplitl [H4]
  · iexists _; isplitr
    swap; · iexact H4
    ipureintro
    sl_unfold_words
    rw [View.read_writes_eq_canon _ _ _ (cover_head (S := S8x4096) hz2 inb_S8x4096_S8x4096_0_0 _ _), View.canon_unit_zero (S := S8x4096) hz2]
    rw [View.readCov_eq_canon_ld _ _ _ (cover_head (S := S8x4096) hz2 inb_S8x4096_S8x4096_0_0 _ _), View.canon_cons_unit_zero (S := S8x4096) hz2]
    simp only [View.readCov_unit_zero (S := S8x4096) _ hz2, View.readAt_eq_ld, harg1.read_unread, harg2.read_unread,
      View.ld_unit_zero (S := S8x64x3) hz3, View.ld_unit_zero (S := S8x4096x3) hz3, View.ld_unit_zero (S := S8x4096) hz2]
  · iexists _; isplitr
    swap; · iexact H5
    ipureintro
    sl_unfold_words
    rw [View.read_writes_eq_canon _ _ _ (cover_head (S := S8x4096) hz2 inb_S8x4096_S8x4096_0_0 _ _), View.canon_cons_unit_zero (S := S8x4096) hz2]
    simp only [View.readCov_unit_zero (S := S8x4096) _ hz2, View.readAt_eq_ld, harg1.read_unread, harg2.read_unread,
      View.ld_unit_zero (S := S8x64x3) hz3, View.ld_unit_zero (S := S8x4096x3) hz3, View.ld_unit_zero (S := S8x4096) hz2]

end Cert.Kernel.Region

end
-- ==== Proof.KernelData0.lean ====
/-
  Region 0 (the first kernel call: the coarse cloud, 16 grid points of 64 rows each) as a pipeline's proof data.

  At grid point `t` the body is handed block `t` of the coarse cloud (64 points of every batch) and the whole reference
  cloud. It leaves: in the row-minimum window, for each of the 64 points its least clamped squared distance to the
  reference cloud (`k0_pay3` of the two blocks); in the column-minimum window and in the scratch it carries from point
  to point, the running minimum `scr0 t` — at the first point the minimum of +∞ and this block's column minima, at
  every later point the minimum of what the point before left and this block's column minima. The region invariant
  before point `t + 1` therefore holds the scratch at exactly `scr0 t`; before the first point it holds it at anything,
  since the first point overwrites it before reading it.
-/
import proofs.«158115_j85152021610990_1_alg».proof.Proof.KernelBody0

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when region 0 is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Block `t` of the coarse cloud: 64 points of each of the 8 batches. -/
abbrev pblk0 (c : Dev nD) (t : Fin cfg0.N) : Vec F S8x64x3 .f32 := iblk0 V c 0 t
/-- The reference cloud, whole, at every point. -/
abbrev qblk0 (c : Dev nD) (t : Fin cfg0.N) : Vec F S8x4096x3 .f32 := iblk0 V c 1 t

/-- The running column minimum after point `n`: from +∞ at the first point, then from what the point before left. -/
def scr0 (c : Dev nD) : (n : ℕ) → n < cfg0.N → Vec F S8x4096 .f32
  | 0, h => k0_pay4 (pblk0 V c ⟨0, h⟩) (qblk0 V c ⟨0, h⟩) (k0_pay1 (F := F))
  | n + 1, h => k0_pay4 (pblk0 V c ⟨n + 1, h⟩) (qblk0 V c ⟨n + 1, h⟩) (scr0 c n (Nat.lt_of_succ_lt h))

theorem scr0_zero (c : Dev nD) (h : 0 < cfg0.N) :
    scr0 V c 0 h = k0_pay4 (pblk0 V c ⟨0, h⟩) (qblk0 V c ⟨0, h⟩) (k0_pay1 (F := F)) := rfl

theorem scr0_succ (c : Dev nD) (n : ℕ) (h : n + 1 < cfg0.N) :
    scr0 V c (n + 1) h = k0_pay4 (pblk0 V c ⟨n + 1, h⟩) (qblk0 V c ⟨n + 1, h⟩) (scr0 V c n (Nat.lt_of_succ_lt h)) := rfl

/-- At a point that is not the first: this block's update of what the point before left. -/
theorem scr0_pos (c : Dev nD) (t : Fin cfg0.N) (hz : t.val ≠ 0) :
    scr0 V c t.val t.isLt = k0_pay4 (pblk0 V c t) (qblk0 V c t) (scr0 V c (t.val - 1) (Nat.lt_of_le_of_lt (Nat.sub_le _ _) t.isLt)) := by
  obtain ⟨n, hn⟩ := t
  cases n with
  | zero => exact absurd rfl hz
  | succ n => rfl

/-- The kernel's scratch operand: a whole scoped buffer of its own. -/
abbrev scM0 : Memref sig .tc .vmem S8x4096 .f32 := Memref.whole cc0_scratch0

/-- The core's other scoped buffers that are no staging buffer of this call (the second call's staging buffers and
    scratch), each whole at some contents, unopened: the body never touches them. -/
def restOther0 (c : Dev nD) : sProp 𝕄 :=
  Pipeline.scopedRestBut (Ix := Unit) (Name := ℕ) (U := UR sig nD τ) (Lvl := ℕ) (Val := Elt F) spec0 c [cc0_scratch0]

/-- The class's invariant with the scratch as a memref owned at some contents, the other scoped buffers apart. -/
theorem PhiA0_eq (c : Dev nD) :
    (Pipeline.ΦA spec0 c : sProp 𝕄)
      = iprop(((∃ d, owns (c : Thread nD τ) scM0 fullShare d) ∗ restOther0 (F := F) c) ∗ (∃ r, prngReg c r)) := by
  unfold Pipeline.ΦA restOther0
  rw [Pipeline.scopedRest_split_of_list spec0 c [cc0_scratch0] (by decide) (by decide)]
  simp only [scM0, owns_whole, bigSepL]
  rfl

/-- The region invariant before position `n`: before the first point the class's (the scratch at anything); afterwards
    the scratch at what the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (scr0 V c n hn) ∗ restOther0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (scr0 V c n hn) ∗ restOther0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare (scr0 V c (n - 1) (by omega)) ∗ restOther0 (F := F) c) ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (pblk0 V c t) (qblk0 V c t)
    | ⟨3, _⟩ => scr0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (pblk0 V c t) (qblk0 V c t) := by dsimp only [dat0]
theorem after0_3 (c : Dev nD) (t : Fin cfg0.N) : (dat0 V c).after 3 t = scr0 V c t.val t.isLt := by dsimp only [dat0]

/-- The coarse cloud's current staging buffer holds block `t` at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The reference cloud's staging buffer holds the whole cloud at every point: fetched at the first, its block index
    never moves, and the body leaves it in place. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: at the first point the reset branch is taken and the invariant hands the scratch over at
    anything; at a later point it is not, and the scratch comes at what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  have hN : t.val < 16 := lt_of_lt_of_eq t.isLt (show cfg0.N = 16 from N_0)
  by_cases h0 : t.val % 16 = 0
  · have hz : t.val = 0 := by omega
    rw [PhiS0_castSucc V c t, PhiS0_zero V c _ _ hz, PhiA0_eq]
    rw [show scr0 V c t.val t.isLt = k0_pay4 (pblk0 V c t) (qblk0 V c t) (k0_pay1 (F := F)) from by
      obtain ⟨n, hn⟩ := t; cases n with
      | zero => rfl
      | succ n => exact absurd hz (Nat.succ_ne_zero n)]
    iintro ⟨⟨⟨⟨%d5, HS⟩, Hr⟩, Hg⟩, Ho, ⟨%d0, H0⟩, ⟨%d1, H1⟩, ⟨%d2, H2⟩, ⟨%d3, H3⟩⟩
    iapply (kernel0_first c Set.univ (grid0.coords t) _ _ _ _ _ _ _ _ _ _ ((hcond0 t).mpr h0) (pblk0 V c t) (qblk0 V c t) _)
    isplitl [H0]; · iexact H0
    isplitl [H1]; · iexact H1
    isplitl [H2]; · iexists _; iexact H2
    isplitl [H3]; · iexists _; iexact H3
    isplitl [HS]; · iexists _; iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hz : t.val ≠ 0 := by omega
    rw [PhiS0_castSucc V c t, PhiS0_pos V c _ _ hz, scr0_pos V c t hz]
    iintro ⟨⟨⟨HS, Hr⟩, Hg⟩, Ho, ⟨%d0, H0⟩, ⟨%d1, H1⟩, ⟨%d2, H2⟩, ⟨%d3, H3⟩⟩
    iapply (kernel0_later c Set.univ (grid0.coords t) _ _ _ _ _ _ _ _ _ _ (fun h => h0 ((hcond0 t).mp h)) (pblk0 V c t) (qblk0 V c t) _ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, Hr⟩, Hg⟩
  isplitl [HS Hr]
  · isplitl [HS]
    · iexists _; iexact HS
    iexact Hr
  iexact Hg

end Region0

end Cert.Kernel.Region

end
-- ==== Proof.KernelBody1.lean ====
/-
  The kernel body of the second kernel call, run once per control case.

  The body is handed one block of a cloud (`arg1`), the whole reference cloud (`arg2`), the row-minimum window
  (`arg3`), the column-minimum window (`arg4`) and a scratch it keeps from grid point to grid point (`arg5`). At the
  grid's first point it first fills the scratch with +∞. Then, at every point: it stores into `arg3` the row minima
  of the block's clamped squared distances (`k1_pay3` of the two inputs); it replaces the scratch by the minimum of
  the scratch and the block's column minima (`k1_pay4` of the two inputs and what the scratch held); and it copies the
  scratch into `arg4`. So after the first point both `arg4` and the scratch hold `k1_pay4 x1 x2 (+∞)`, and after a
  later point, entered with the scratch at `s`, both hold `k1_pay4 x1 x2 s`. The loads of `arg3` and `arg4` the body
  makes before storing into them read values nothing uses, so those two windows may come at any contents.

  Every store is through the whole-shape rectangle at zero offsets, so each buffer's final contents are the payload
  of its last store, and a load after such a store reads that payload.
-/
import proofs.«158115_j85152021610990_1_alg».proof.Proof.Gen.Kernel.Launch
import proofs.«158115_j85152021610990_1_alg».proof.Proof.Gen.Kernel.Skeleton
import proofs.«158115_j85152021610990_1_alg».proof.Proof.Gen.Kernel.Points
import proofs.«158115_j85152021610990_1_alg».proof.Proof.WholeStores
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region

open Cert.Kernel Cert.Kernel.Gen Cert.WholeStores
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition, from the grid coordinate. -/
abbrev cond1 (i : grid1.Coords) : Prop := (Scalar.cmpi .ne (Scalar.extui (Scalar.cmpi .eq (BitVec.ofNat 32 (i 0).val) 0#32)) 0#32) = 1#1

theorem hcond1 : ∀ t : Fin cfg1.N, cond1 (grid1.coords t) ↔ t.val % 64 = 0 :=
  (by decide +kernel : ∀ t : Fin grid1.N, cond1 (grid1.coords t) ↔ t.val % 64 = 0)

set_option maxHeartbeats 1000000 in
/-- A point that is not the first (the reset not taken), entered with the scratch at `s`: the inputs are left as they
    were, the row-minimum window ends at `k1_pay3 x1 x2`, the column-minimum window and the scratch at `k1_pay4 x1 x2 s`. -/
theorem kernel1_later (c : Dev nD) (E : Set ℕ) (i : grid1.Coords)
    (arg1 : Memref sig .tc .vmem S8x64x3 .f32) (harg1 : arg1.IsWhole) (arg2 : Memref sig .tc .vmem S8x4096x3 .f32) (harg2 : arg2.IsWhole)
    (arg3 : Memref sig .tc .vmem S64x8 .f32) (harg3 : arg3.IsWhole) (arg4 : Memref sig .tc .vmem S8x4096 .f32) (harg4 : arg4.IsWhole)
    (arg5 : Memref sig .tc .vmem S8x4096 .f32) (harg5 : arg5.IsWhole) (hc : ¬cond1 i)
    (x1 : Vec F S8x64x3 .f32) (x2 : Vec F S8x4096x3 .f32) (s : Vec F S8x4096 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ owns (c : Thread nD τ) arg5 fullShare s
        ∗ (iprop(owns (c : Thread nD τ) arg1 fullShare x1 ∗ owns (c : Thread nD τ) arg2 fullShare x2
            ∗ owns (c : Thread nD τ) arg3 fullShare (k1_pay3 x1 x2)
            ∗ owns (c : Thread nD τ) arg4 fullShare (k1_pay4 x1 x2 s)
            ∗ owns (c : Thread nD τ) arg5 fullShare (k1_pay4 x1 x2 s)) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f1, %hf1, H1⟩, ⟨%f2, %hf2, H2⟩, ⟨%d3, %f3, -, H3⟩, ⟨%d4, %f4, -, H4⟩, ⟨%f5, %hf5, H5⟩, Hk⟩
  obtain rfl := harg1.eq_unread hf1; obtain rfl := harg2.eq_unread hf2; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover_head (S := S64x8) hz2 inb_S64x8_S64x8_0_0 _ _)]
    rw [View.canon_unit_zero (S := S64x8) hz2]
    simp only [View.readAt_eq_ld, harg1.read_unread, harg2.read_unread, View.ld_unit_zero (S := S8x64x3) hz3, View.ld_unit_zero (S := S8x4096x3) hz3]
  isplitl [H4]
  · iexists _; isplitr
    swap; · iexact H4
    ipureintro
    sl_unfold_words
    rw [View.read_writes_eq_canon _ _ _ (cover_head (S := S8x4096) hz2 inb_S8x4096_S8x4096_0_0 _ _), View.canon_unit_zero (S := S8x4096) hz2]
    simp only [View.readCov_unit_zero (S := S8x4096) _ hz2, View.readAt_eq_ld, harg1.read_unread, harg2.read_unread, harg5.read_unread,
      View.ld_unit_zero (S := S8x64x3) hz3, View.ld_unit_zero (S := S8x4096x3) hz3, View.ld_unit_zero (S := S8x4096) hz2]
  · iexists _; isplitr
    swap; · iexact H5
    ipureintro
    sl_unfold_words
    rw [View.read_writes_eq_canon _ _ _ (cover_head (S := S8x4096) hz2 inb_S8x4096_S8x4096_0_0 _ _), View.canon_unit_zero (S := S8x4096) hz2]
    simp only [View.readCov_unit_zero (S := S8x4096) _ hz2, View.readAt_eq_ld, harg1.read_unread, harg2.read_unread, harg5.read_unread,
      View.ld_unit_zero (S := S8x64x3) hz3, View.ld_unit_zero (S := S8x4096x3) hz3, View.ld_unit_zero (S := S8x4096) hz2]

set_option maxHeartbeats 1000000 in
/-- The first point (the reset taken), the scratch at anything: the same with `s` the +∞ fill `k1_pay1`. -/
theorem kernel1_first (c : Dev nD) (E : Set ℕ) (i : grid1.Coords)
    (arg1 : Memref sig .tc .vmem S8x64x3 .f32) (harg1 : arg1.IsWhole) (arg2 : Memref sig .tc .vmem S8x4096x3 .f32) (harg2 : arg2.IsWhole)
    (arg3 : Memref sig .tc .vmem S64x8 .f32) (harg3 : arg3.IsWhole) (arg4 : Memref sig .tc .vmem S8x4096 .f32) (harg4 : arg4.IsWhole)
    (arg5 : Memref sig .tc .vmem S8x4096 .f32) (harg5 : arg5.IsWhole) (hc : cond1 i)
    (x1 : Vec F S8x64x3 .f32) (x2 : Vec F S8x4096x3 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (k1_pay3 x1 x2)
            ∗ owns (c : Thread nD τ) arg4 fullShare (k1_pay4 x1 x2 (k1_pay1 (F := F)))
            ∗ owns (c : Thread nD τ) arg5 fullShare (k1_pay4 x1 x2 (k1_pay1 (F := F)))) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  obtain rfl := harg1.eq_unread hf1; obtain rfl := harg2.eq_unread hf2
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover_head (S := S64x8) hz2 inb_S64x8_S64x8_0_0 _ _)]
    rw [View.canon_unit_zero (S := S64x8) hz2]
    simp only [View.readAt_eq_ld, harg1.read_unread, harg2.read_unread, View.ld_unit_zero (S := S8x64x3) hz3, View.ld_unit_zero (S := S8x4096x3) hz3]
  isplitl [H4]
  · iexists _; isplitr
    swap; · iexact H4
    ipureintro
    sl_unfold_words
    rw [View.read_writes_eq_canon _ _ _ (cover_head (S := S8x4096) hz2 inb_S8x4096_S8x4096_0_0 _ _), View.canon_unit_zero (S := S8x4096) hz2]
    rw [View.readCov_eq_canon_ld _ _ _ (cover_head (S := S8x4096) hz2 inb_S8x4096_S8x4096_0_0 _ _), View.canon_cons_unit_zero (S := S8x4096) hz2]
    simp only [View.readCov_unit_zero (S := S8x4096) _ hz2, View.readAt_eq_ld, harg1.read_unread, harg2.read_unread,
      View.ld_unit_zero (S := S8x64x3) hz3, View.ld_unit_zero (S := S8x4096x3) hz3, View.ld_unit_zero (S := S8x4096) hz2]
  · iexists _; isplitr
    swap; · iexact H5
    ipureintro
    sl_unfold_words
    rw [View.read_writes_eq_canon _ _ _ (cover_head (S := S8x4096) hz2 inb_S8x4096_S8x4096_0_0 _ _), View.canon_cons_unit_zero (S := S8x4096) hz2]
    simp only [View.readCov_unit_zero (S := S8x4096) _ hz2, View.readAt_eq_ld, harg1.read_unread, harg2.read_unread,
      View.ld_unit_zero (S := S8x64x3) hz3, View.ld_unit_zero (S := S8x4096x3) hz3, View.ld_unit_zero (S := S8x4096) hz2]

end Cert.Kernel.Region

end
-- ==== Proof.KernelData1.lean ====
/-
  Region 1 (the second kernel call: the fine cloud, 64 grid points of 64 rows each) as a pipeline's proof data.

  At grid point `t` the body is handed block `t` of the fine cloud (64 points of every batch) and the whole reference
  cloud. It leaves: in the row-minimum window, for each of the 64 points its least clamped squared distance to the
  reference cloud (`k1_pay3` of the two blocks); in the column-minimum window and in the scratch it carries from point
  to point, the running minimum `scr1 t` — at the first point the minimum of +∞ and this block's column minima, at
  every later point the minimum of what the point before left and this block's column minima. The region invariant
  before point `t + 1` therefore holds the scratch at exactly `scr1 t`; before the first point it holds it at anything,
  since the first point overwrites it before reading it.
-/
import proofs.«158115_j85152021610990_1_alg».proof.Proof.KernelBody1

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when region 1 is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Block `t` of the fine cloud: 64 points of each of the 8 batches. -/
abbrev pblk1 (c : Dev nD) (t : Fin cfg1.N) : Vec F S8x64x3 .f32 := iblk1 V c 0 t
/-- The reference cloud, whole, at every point. -/
abbrev qblk1 (c : Dev nD) (t : Fin cfg1.N) : Vec F S8x4096x3 .f32 := iblk1 V c 1 t

/-- The running column minimum after point `n`: from +∞ at the first point, then from what the point before left. -/
def scr1 (c : Dev nD) : (n : ℕ) → n < cfg1.N → Vec F S8x4096 .f32
  | 0, h => k1_pay4 (pblk1 V c ⟨0, h⟩) (qblk1 V c ⟨0, h⟩) (k1_pay1 (F := F))
  | n + 1, h => k1_pay4 (pblk1 V c ⟨n + 1, h⟩) (qblk1 V c ⟨n + 1, h⟩) (scr1 c n (Nat.lt_of_succ_lt h))

theorem scr1_zero (c : Dev nD) (h : 0 < cfg1.N) :
    scr1 V c 0 h = k1_pay4 (pblk1 V c ⟨0, h⟩) (qblk1 V c ⟨0, h⟩) (k1_pay1 (F := F)) := rfl

theorem scr1_succ (c : Dev nD) (n : ℕ) (h : n + 1 < cfg1.N) :
    scr1 V c (n + 1) h = k1_pay4 (pblk1 V c ⟨n + 1, h⟩) (qblk1 V c ⟨n + 1, h⟩) (scr1 V c n (Nat.lt_of_succ_lt h)) := rfl

/-- At a point that is not the first: this block's update of what the point before left. -/
theorem scr1_pos (c : Dev nD) (t : Fin cfg1.N) (hz : t.val ≠ 0) :
    scr1 V c t.val t.isLt = k1_pay4 (pblk1 V c t) (qblk1 V c t) (scr1 V c (t.val - 1) (Nat.lt_of_le_of_lt (Nat.sub_le _ _) t.isLt)) := by
  obtain ⟨n, hn⟩ := t
  cases n with
  | zero => exact absurd rfl hz
  | succ n => rfl

/-- The kernel's scratch operand: a whole scoped buffer of its own. -/
abbrev scM1 : Memref sig .tc .vmem S8x4096 .f32 := Memref.whole cc1_scratch0

/-- The core's other scoped buffers that are no staging buffer of this call (the second call's staging buffers and
    scratch), each whole at some contents, unopened: the body never touches them. -/
def restOther1 (c : Dev nD) : sProp 𝕄 :=
  Pipeline.scopedRestBut (Ix := Unit) (Name := ℕ) (U := UR sig nD τ) (Lvl := ℕ) (Val := Elt F) spec1 c [cc1_scratch0]

/-- The class's invariant with the scratch as a memref owned at some contents, the other scoped buffers apart. -/
theorem PhiA1_eq (c : Dev nD) :
    (Pipeline.ΦA spec1 c : sProp 𝕄)
      = iprop(((∃ d, owns (c : Thread nD τ) scM1 fullShare d) ∗ restOther1 (F := F) c) ∗ (∃ r, prngReg c r)) := by
  unfold Pipeline.ΦA restOther1
  rw [Pipeline.scopedRest_split_of_list spec1 c [cc1_scratch0] (by decide) (by decide)]
  simp only [scM1, owns_whole, bigSepL]
  rfl

/-- The region invariant before position `n`: before the first point the class's (the scratch at anything); afterwards
    the scratch at what the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (scr1 V c n hn) ∗ restOther1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (scr1 V c n hn) ∗ restOther1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (scr1 V c (n - 1) (by omega)) ∗ restOther1 (F := F) c) ∗ (∃ r, prngReg c r)) := by
  cases n with
  | zero => exact absurd rfl hz
  | succ n => rfl

/-- The proof data of pipeline 0 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (pblk1 V c t) (qblk1 V c t)
    | ⟨3, _⟩ => scr1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (pblk1 V c t) (qblk1 V c t) := by dsimp only [dat1]
theorem after1_3 (c : Dev nD) (t : Fin cfg1.N) : (dat1 V c).after 3 t = scr1 V c t.val t.isLt := by dsimp only [dat1]

/-- The fine cloud's current staging buffer holds block `t` at every point (it is fetched at every point). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- The reference cloud's staging buffer holds the whole cloud at every point: fetched at the first, its block index
    never moves, and the body leaves it in place. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: at the first point the reset branch is taken and the invariant hands the scratch over at
    anything; at a later point it is not, and the scratch comes at what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  have hN : t.val < 64 := lt_of_lt_of_eq t.isLt (show cfg1.N = 64 from N_1)
  by_cases h0 : t.val % 64 = 0
  · have hz : t.val = 0 := by omega
    rw [PhiS1_castSucc V c t, PhiS1_zero V c _ _ hz, PhiA1_eq]
    rw [show scr1 V c t.val t.isLt = k1_pay4 (pblk1 V c t) (qblk1 V c t) (k1_pay1 (F := F)) from by
      obtain ⟨n, hn⟩ := t; cases n with
      | zero => rfl
      | succ n => exact absurd hz (Nat.succ_ne_zero n)]
    iintro ⟨⟨⟨⟨%d5, HS⟩, Hr⟩, Hg⟩, Ho, ⟨%d0, H0⟩, ⟨%d1, H1⟩, ⟨%d2, H2⟩, ⟨%d3, H3⟩⟩
    iapply (kernel1_first c Set.univ (grid1.coords t) _ _ _ _ _ _ _ _ _ _ ((hcond1 t).mpr h0) (pblk1 V c t) (qblk1 V c t) _)
    isplitl [H0]; · iexact H0
    isplitl [H1]; · iexact H1
    isplitl [H2]; · iexists _; iexact H2
    isplitl [H3]; · iexists _; iexact H3
    isplitl [HS]; · iexists _; iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hz : t.val ≠ 0 := by omega
    rw [PhiS1_castSucc V c t, PhiS1_pos V c _ _ hz, scr1_pos V c t hz]
    iintro ⟨⟨⟨HS, Hr⟩, Hg⟩, Ho, ⟨%d0, H0⟩, ⟨%d1, H1⟩, ⟨%d2, H2⟩, ⟨%d3, H3⟩⟩
    iapply (kernel1_later c Set.univ (grid1.coords t) _ _ _ _ _ _ _ _ _ _ (fun h => h0 ((hcond1 t).mp h)) (pblk1 V c t) (qblk1 V c t) _ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hr⟩, Hg⟩
  isplitl [HS Hr]
  · isplitl [HS]
    · iexists _; iexact HS
    iexact Hr
  iexact Hg

end Region1

end Cert.Kernel.Region

end
-- ==== Proof.KernelLaunch.lean ====
/-
  The whole program's run: host operations, the first kernel call, the second, host operations.

  Between two items every unscoped buffer of a core is held at a known valuation: the launch memory, then the host
  operations before the calls applied to it, then the first call's two result arrays replaced by what its proof
  data computes (`rows0`, `cols0`: the arrays after the last write-back), then likewise the second call's
  (`rows1`, `cols1`), then the host operations after the calls applied to that. Each call is entered from the
  valuation before it and left at the one after it; its own scratch and the other call's scoped buffers go into its
  invariant and come back; nothing is owed to any other core at any time. The run's post reads the result and the five
  arguments off the last valuation: no item writes an argument, so each ends as launched.
-/
import proofs.«158115_j85152021610990_1_alg».proof.Proof.KernelData0
import proofs.«158115_j85152021610990_1_alg».proof.Proof.KernelData1
import proofs.«158115_j85152021610990_1_alg».proof.Proof.Gen.Kernel.Regions
import Idealize.ShloMosaic.Lib.Pipeline.RegionsLoop
import Idealize.ShloMosaic.Lib.Pipeline.FrameSuffix

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ)

/-! ## The valuations between items, and what the calls leave -/

/-- Core `c`'s buffers when the first call is entered: the launch memory after the host operations before the calls. -/
abbrev VR1 (c : Dev nD) (b : Ref sig .tc) : Buf (Elt F) ((c : Thread nD τ).loc b) := Gen.V1 m c b

/-- What the first call leaves in its row-minimum array (point-major, 1024 × 8) -/
def rows0 (c : Dev nD) : Buf (Elt F) ((c : Thread nD τ).loc main_v6_0) := (dat0 (VR1 m) c).arrAt 2 cfg0.N
/-- and in its column-minimum array (8 × 4096): the arrays after the last write-back. -/
def cols0 (c : Dev nD) : Buf (Elt F) ((c : Thread nD τ).loc main_v6_1) := (dat0 (VR1 m) c).arrAt 3 cfg0.N

/-- The first call's results as the unknowns the valuations are written over (read only at those two arrays). -/
def outsA : Gen.Outs (F := F) := fun _ r c =>
  Function.update (Function.update (fun r : Ref sig .tc => (Gen.V1 m c r : Buf (Elt F) ((c : Thread nD τ).loc r))) main_v6_0 (rows0 m c)) main_v6_1 (cols0 m c) r

/-- Core `c`'s buffers when the second call is entered. -/
abbrev VR2 (c : Dev nD) (b : Ref sig .tc) : Buf (Elt F) ((c : Thread nD τ).loc b) := Gen.V2 m (outsA m) c b

/-- What the second call leaves in its row-minimum array (4096 × 8) -/
def rows1 (c : Dev nD) : Buf (Elt F) ((c : Thread nD τ).loc main_v7_0) := (dat1 (VR2 m) c).arrAt 2 cfg1.N
/-- and in its column-minimum array (8 × 4096). -/
def cols1 (c : Dev nD) : Buf (Elt F) ((c : Thread nD τ).loc main_v7_1) := (dat1 (VR2 m) c).arrAt 3 cfg1.N

/-- Both calls' results as the unknowns: the first call's after item 1, the second call's after item 2. -/
def outs : Gen.Outs (F := F) := fun J r c =>
  if J = 2 then outsA m J r c
  else Function.update (Function.update (fun r : Ref sig .tc => (Gen.V2 m (outsA m) c r : Buf (Elt F) ((c : Thread nD τ).loc r))) main_v7_0 (rows1 m c)) main_v7_1 (cols1 m c) r

theorem outs_v6_0 (c : Dev nD) : outs m 2 main_v6_0 c = rows0 m c := by
  unfold outs outsA
  rw [if_pos rfl, Function.update_of_ne (by decide), Function.update_self]
theorem outs_v6_1 (c : Dev nD) : outs m 2 main_v6_1 c = cols0 m c := by
  unfold outs outsA
  rw [if_pos rfl, Function.update_self]
theorem outs_v7_0 (c : Dev nD) : outs m 3 main_v7_0 c = rows1 m c := by
  unfold outs
  rw [if_neg (by decide), Function.update_of_ne (by decide), Function.update_self]
theorem outs_v7_1 (c : Dev nD) : outs m 3 main_v7_1 c = cols1 m c := by
  unfold outs
  rw [if_neg (by decide), Function.update_self]

/-- The second call is entered from the valuation the first one is left at. -/
theorem V2_outs (c : Dev nD) : Gen.V2 m (outs m) c = Gen.V2 m (outsA m) c := by
  have h0 : outs m 2 main_v6_0 c = outsA m 2 main_v6_0 c := by unfold outs; rw [if_pos rfl]
  have h1 : outs m 2 main_v6_1 c = outsA m 2 main_v6_1 c := by unfold outs; rw [if_pos rfl]
  unfold Gen.V2
  rw [h0, h1]

/-! ## The proof data family -/

/-- Every pipeline's proof data, each at its call's entry contents. -/
def pdats : (p : Fin 2) → (c : Dev nD) → Dat τ (Elt F) Unit ℕ (UR sig nD τ) ℕ (Pipeline.pin (pcfgs (F := F)) Gen.adm p) c
  | ⟨0, _⟩ => fun c => dat0 (VR1 m) c
  | ⟨1, _⟩ => fun c => dat1 (VR2 m) c

/-! ## What a call leaves in the buffers -/

/-- Core `c`'s buffers when the first call is left, read at the core's own references. -/
abbrev VQ2 (c : Dev nD) (b : Ref sig .tc) : Buf (Elt F) ((c : Thread nD τ).loc b) := Gen.V2 m (outs m) c b
/-- Core `c`'s buffers when the second call is left. -/
abbrev VQ3 (c : Dev nD) (b : Ref sig .tc) : Buf (Elt F) ((c : Thread nD τ).loc b) := Gen.V3 m (outs m) c b

/-- After the first call each of its arrays holds what the proof data leaves there: an input array is never written,
    so it holds what it held at entry; a result array holds the fold of its write-backs. -/
theorem exit0_arr (c : Dev nD) : ∀ w : Fin cfg0.W, (dat0 (VR1 m) c).arrAt w cfg0.N = VQ2 m c (Pipeline.arrRef spec0 w)
  | ⟨0, _⟩ => ((dat0 (VR1 m) c).arrAt_in 0 rfl _).trans (Gen.V2_of m (outs m) c main_v4 (by decide)).symm
  | ⟨1, _⟩ => ((dat0 (VR1 m) c).arrAt_in 1 rfl _).trans (Gen.V2_of m (outs m) c main_arg4 (by decide)).symm
  | ⟨2, _⟩ => by
    show _ = Gen.V2 m (outs m) c main_v6_0
    simp only [Gen.V2]
    rw [Function.update_of_ne (StableHlo.devRef_ne_of_ne (by decide)), Function.update_self, outs_v6_0]
    rfl
  | ⟨3, _⟩ => by
    show _ = Gen.V2 m (outs m) c main_v6_1
    simp only [Gen.V2]
    rw [Function.update_self, outs_v6_1]
    rfl

/-- The first call changes no buffer but its arrays. -/
theorem exit0_rest (c : Dev nD) : ∀ b : Ref sig .tc, b ∉ Finset.univ.image (Pipeline.arrRef spec0) → VQ2 m c b = VR1 m c b :=
  fun b hb => Gen.V2_of m (outs m) c b (by
    intro h
    rcases List.mem_cons.mp h with rfl | h
    · exact hb (Finset.mem_image.mpr ⟨2, Finset.mem_univ _, rfl⟩)
    rcases List.mem_cons.mp h with rfl | h
    · exact hb (Finset.mem_image.mpr ⟨3, Finset.mem_univ _, rfl⟩)
    · exact absurd h List.not_mem_nil)

/-- After the second call each of its arrays holds what the proof data leaves there. -/
theorem exit1_arr (c : Dev nD) : ∀ w : Fin cfg1.W, (dat1 (VR2 m) c).arrAt w cfg1.N = VQ3 m c (Pipeline.arrRef spec1 w)
  | ⟨0, _⟩ => ((dat1 (VR2 m) c).arrAt_in 0 rfl _).trans
      ((Gen.V3_of m (outs m) c main_v5 (by decide)).trans (congrFun (V2_outs m c) _)).symm
  | ⟨1, _⟩ => ((dat1 (VR2 m) c).arrAt_in 1 rfl _).trans
      ((Gen.V3_of m (outs m) c main_arg4 (by decide)).trans (congrFun (V2_outs m c) _)).symm
  | ⟨2, _⟩ => by
    show _ = Gen.V3 m (outs m) c main_v7_0
    simp only [Gen.V3]
    rw [Function.update_of_ne (StableHlo.devRef_ne_of_ne (by decide)), Function.update_self, outs_v7_0]
    rfl
  | ⟨3, _⟩ => by
    show _ = Gen.V3 m (outs m) c main_v7_1
    simp only [Gen.V3]
    rw [Function.update_self, outs_v7_1]
    rfl

/-- The second call changes no buffer but its arrays. -/
theorem exit1_rest (c : Dev nD) : ∀ b : Ref sig .tc, b ∉ Finset.univ.image (Pipeline.arrRef spec1) → VQ3 m c b = VR2 m c b :=
  fun b hb => (Gen.V3_of m (outs m) c b (by
    intro h
    rcases List.mem_cons.mp h with rfl | h
    · exact hb (Finset.mem_image.mpr ⟨2, Finset.mem_univ _, rfl⟩)
    rcases List.mem_cons.mp h with rfl | h
    · exact hb (Finset.mem_image.mpr ⟨3, Finset.mem_univ _, rfl⟩)
    · exact absurd h List.not_mem_nil)).trans (congrFun (V2_outs m c) _)

/-! ## The calls as segments of the run -/

/-- No label has a variant of its own. -/
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers between two items: its generator register at some state, and that it owes
    nothing. -/
abbrev restR (c : Dev nD) : sProp 𝕄 := iprop((∃ r, prngReg c r) ∗ ∃ W, owes (c : Thread nD τ) (0 : CellTallies nD τ sig Unit) W)
/-- The same at each of the three boundaries the calls sit between. -/
abbrev restE : Fin 3 → Dev nD → sProp 𝕄 := fun _ c => restR (F := F) c

set_option backward.isDefEq.respectTransparency.types false in
/-- The first call over the held buffers: entered from every unscoped buffer at the valuation before it, left at the one
    after it. Its arrays are split out of the unscoped buffers and put back at what the proof data leaves; the generator
    register and the scoped buffers no window stages go into the invariant before the first point and come back after
    the last; nothing is owed; the call has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ restR c)
  post c := iprop(StableHlo.held (c : Thread nD τ) (Pipeline.ucRefs τ sig) (Gen.V2 m (outs m) c) ∗ restR c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VR1 m) c).Φ 0 from rfl]
    refine BIBase.Entails.trans ?_ (hin0 (VR1 m) c)
    unfold Pipeline.ΦA
    iintro ⟨Hp, -, Hr⟩
    isplitl [Hr]; · iexact Hr
    iexact Hp
  hout c := by
    rw [Pipeline.ownSems0_none, show (pdats m 0 c).Φ (Fin.last _) = (dat0 (VR1 m) c).Φ (Fin.last cfg0.N) from rfl]
    refine BIBase.Entails.trans (hout0 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR1 m c) (VQ2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the held buffers: entered from every unscoped buffer at the valuation before it, left at the one
    after it. Its arrays are split out of the unscoped buffers and put back at what the proof data leaves; the generator
    register and the scoped buffers no window stages go into the invariant before the first point and come back after
    the last; nothing is owed; the call has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR2 m) c).loose
  hwaits := Pipeline.hwaits_of_owed_zero _ _ _ _ L lv 1 fun _ _ => rfl
  pre c := iprop(StableHlo.held (c : Thread nD τ) (Pipeline.ucRefs τ sig) (Gen.V2 m (outs m) c) ∗ restR c)
  post c := iprop(StableHlo.held (c : Thread nD τ) (Pipeline.ucRefs τ sig) (Gen.V3 m (outs m) c) ∗ restR c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR2 m c) fun _ => rfl
    rw [Pipeline.unscopedBufs_held] at hsplit
    rw [V2_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VR2 m) c).Φ 0 from rfl]
    refine BIBase.Entails.trans ?_ (hin1 (VR2 m) c)
    unfold Pipeline.ΦA
    iintro ⟨Hp, -, Hr⟩
    isplitl [Hr]; · iexact Hr
    iexact Hp
  hout c := by
    rw [Pipeline.ownSems0_none, show (pdats m 1 c).Φ (Fin.last _) = (dat1 (VR2 m) c).Φ (Fin.last cfg1.N) from rfl]
    refine BIBase.Entails.trans (hout1 (VR2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR2 m c) (VQ3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates, without a fault, in a
    state whose result buffer holds the last valuation's value and whose five argument arrays are as launched. -/
theorem run_main (ρ : Dev nD → PrngReg) :
    θ_run defs (onTc (τ := τ) (main (F := F))) ⟨m, fun _ => 0, ρ⟩ (fun r => ∀ c : Dev nD,
      r.2.mem ((c.tc : Thread nD τ).loc main_v19) = Gen.V4 m (outs m) c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ 𝒱₀ L lv m ρ main
    (Gen.segs m (outs m) 𝒱₀ L lv (restE (F := F)) () (pdats m) (reg0 m) (reg1 m))
    (fun c Q => by
      rewrite [main_chain c, Seg.run_eq_chain,
        show (Gen.segs m (outs m) 𝒱₀ L lv (restE (F := F)) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ restR c))
    (Tₙ := fun c => StableHlo.held (c : Thread nD τ) (Pipeline.ucRefs τ sig) (Gen.V4 m (outs m) c))
    (hch := fun c => ⟨.rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v19) = Gen.V4 m (outs m) c main_v19
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  -- the end: the result's and each argument's buffer read off the last valuation
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨h (Proc.devRef .tc main_v19) (Finset.mem_filter.mpr ⟨StableHlo.devRef_mem_tcRefs main_v19, by decide⟩),
      (h (Proc.devRef .tc main_arg0) (Finset.mem_filter.mpr ⟨StableHlo.devRef_mem_tcRefs main_arg0, by decide⟩)).trans (Gen.V4_main_arg0 m (outs m) c),
      (h (Proc.devRef .tc main_arg1) (Finset.mem_filter.mpr ⟨StableHlo.devRef_mem_tcRefs main_arg1, by decide⟩)).trans (Gen.V4_main_arg1 m (outs m) c),
      (h (Proc.devRef .tc main_arg2) (Finset.mem_filter.mpr ⟨StableHlo.devRef_mem_tcRefs main_arg2, by decide⟩)).trans (Gen.V4_main_arg2 m (outs m) c),
      (h (Proc.devRef .tc main_arg3) (Finset.mem_filter.mpr ⟨StableHlo.devRef_mem_tcRefs main_arg3, by decide⟩)).trans (Gen.V4_main_arg3 m (outs m) c),
      (h (Proc.devRef .tc main_arg4) (Finset.mem_filter.mpr ⟨StableHlo.devRef_mem_tcRefs main_arg4, by decide⟩)).trans (Gen.V4_main_arg4 m (outs m) c)⟩
  · iexact HSI

end Cert.Kernel.Region

end
-- ==== Proof.KernelIdealBody0.lean ====
/-
  The kernel body of the first kernel call, run once per control case.

  The body is handed one block of a cloud (`arg1`), the whole reference cloud (`arg2`), the row-minimum window
  (`arg3`), the column-minimum window (`arg4`) and a scratch it keeps from grid point to grid point (`arg5`). At the
  grid's first point it first fills the scratch with +∞. Then, at every point: it stores into `arg3` the row minima
  of the block's clamped squared distances (`k0_pay3` of the two inputs); it replaces the scratch by the minimum of
  the scratch and the block's column minima (`k0_pay4` of the two inputs and what the scratch held); and it copies the
  scratch into `arg4`. So after the first point both `arg4` and the scratch hold `k0_pay4 x1 x2 (+∞)`, and after a
  later point, entered with the scratch at `s`, both hold `k0_pay4 x1 x2 s`. The loads of `arg3` and `arg4` the body
  makes before storing into them read values nothing uses, so those two windows may come at any contents.

  Every store is through the whole-shape rectangle at zero offsets, so each buffer's final contents are the payload
  of its last store, and a load after such a store reads that payload.
-/
import proofs.«158115_j85152021610990_1_alg».proof.Proof.Gen.KernelIdeal.Launch
import proofs.«158115_j85152021610990_1_alg».proof.Proof.Gen.KernelIdeal.Skeleton
import proofs.«158115_j85152021610990_1_alg».proof.Proof.Gen.KernelIdeal.Points
import proofs.«158115_j85152021610990_1_alg».proof.Proof.WholeStores
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region

open Cert.KernelIdeal Cert.KernelIdeal.Gen Cert.WholeStores
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition, from the grid coordinate. -/
abbrev cond0 (i : grid0.Coords) : Prop := (Scalar.cmpi .ne (Scalar.extui (Scalar.cmpi .eq (BitVec.ofNat 32 (i 0).val) 0#32)) 0#32) = 1#1

theorem hcond0 : ∀ t : Fin cfg0.N, cond0 (grid0.coords t) ↔ t.val % 16 = 0 :=
  (by decide +kernel : ∀ t : Fin grid0.N, cond0 (grid0.coords t) ↔ t.val % 16 = 0)

set_option maxHeartbeats 1000000 in
/-- A point that is not the first (the reset not taken), entered with the scratch at `s`: the inputs are left as they
    were, the row-minimum window ends at `k0_pay3 x1 x2`, the column-minimum window and the scratch at `k0_pay4 x1 x2 s`. -/
theorem kernel0_later (c : Dev nD) (E : Set ℕ) (i : grid0.Coords)
    (arg1 : Memref sig .tc .vmem S8x64x3 .f32) (harg1 : arg1.IsWhole) (arg2 : Memref sig .tc .vmem S8x4096x3 .f32) (harg2 : arg2.IsWhole)
    (arg3 : Memref sig .tc .vmem S64x8 .f32) (harg3 : arg3.IsWhole) (arg4 : Memref sig .tc .vmem S8x4096 .f32) (harg4 : arg4.IsWhole)
    (arg5 : Memref sig .tc .vmem S8x4096 .f32) (harg5 : arg5.IsWhole) (hc : ¬cond0 i)
    (x1 : Vec F S8x64x3 .f32) (x2 : Vec F S8x4096x3 .f32) (s : Vec F S8x4096 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ owns (c : Thread nD τ) arg5 fullShare s
        ∗ (iprop(owns (c : Thread nD τ) arg1 fullShare x1 ∗ owns (c : Thread nD τ) arg2 fullShare x2
            ∗ owns (c : Thread nD τ) arg3 fullShare (k0_pay3 x1 x2)
            ∗ owns (c : Thread nD τ) arg4 fullShare (k0_pay4 x1 x2 s)
            ∗ owns (c : Thread nD τ) arg5 fullShare (k0_pay4 x1 x2 s)) -∗ K ⟨⟩))
      ⊢ wp frame (wpE (defs₀ (F := F)) Variants.none c none) E (cc0__chamfer_kernel i arg1 harg1 arg2 harg2 arg3 harg3 arg4 harg4 arg5 harg5) K := by
  simp only [cc0__chamfer_kernel_eq_skeleton]; unfold cc0__chamfer_kernel_skel
  unfold owns
  iintro ⟨⟨%f1, %hf1, H1⟩, ⟨%f2, %hf2, H2⟩, ⟨%d3, %f3, -, H3⟩, ⟨%d4, %f4, -, H4⟩, ⟨%f5, %hf5, H5⟩, Hk⟩
  obtain rfl := harg1.eq_unread hf1; obtain rfl := harg2.eq_unread hf2; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover_head (S := S64x8) hz2 inb_S64x8_S64x8_0_0 _ _)]
    rw [View.canon_unit_zero (S := S64x8) hz2]
    simp only [View.readAt_eq_ld, harg1.read_unread, harg2.read_unread, View.ld_unit_zero (S := S8x64x3) hz3, View.ld_unit_zero (S := S8x4096x3) hz3]
  isplitl [H4]
  · iexists _; isplitr
    swap; · iexact H4
    ipureintro
    sl_unfold_words
    rw [View.read_writes_eq_canon _ _ _ (cover_head (S := S8x4096) hz2 inb_S8x4096_S8x4096_0_0 _ _), View.canon_unit_zero (S := S8x4096) hz2]
    simp only [View.readCov_unit_zero (S := S8x4096) _ hz2, View.readAt_eq_ld, harg1.read_unread, harg2.read_unread, harg5.read_unread,
      View.ld_unit_zero (S := S8x64x3) hz3, View.ld_unit_zero (S := S8x4096x3) hz3, View.ld_unit_zero (S := S8x4096) hz2]
  · iexists _; isplitr
    swap; · iexact H5
    ipureintro
    sl_unfold_words
    rw [View.read_writes_eq_canon _ _ _ (cover_head (S := S8x4096) hz2 inb_S8x4096_S8x4096_0_0 _ _), View.canon_unit_zero (S := S8x4096) hz2]
    simp only [View.readCov_unit_zero (S := S8x4096) _ hz2, View.readAt_eq_ld, harg1.read_unread, harg2.read_unread, harg5.read_unread,
      View.ld_unit_zero (S := S8x64x3) hz3, View.ld_unit_zero (S := S8x4096x3) hz3, View.ld_unit_zero (S := S8x4096) hz2]

set_option maxHeartbeats 1000000 in
/-- The first point (the reset taken), the scratch at anything: the same with `s` the +∞ fill `k0_pay1`. -/
theorem kernel0_first (c : Dev nD) (E : Set ℕ) (i : grid0.Coords)
    (arg1 : Memref sig .tc .vmem S8x64x3 .f32) (harg1 : arg1.IsWhole) (arg2 : Memref sig .tc .vmem S8x4096x3 .f32) (harg2 : arg2.IsWhole)
    (arg3 : Memref sig .tc .vmem S64x8 .f32) (harg3 : arg3.IsWhole) (arg4 : Memref sig .tc .vmem S8x4096 .f32) (harg4 : arg4.IsWhole)
    (arg5 : Memref sig .tc .vmem S8x4096 .f32) (harg5 : arg5.IsWhole) (hc : cond0 i)
    (x1 : Vec F S8x64x3 .f32) (x2 : Vec F S8x4096x3 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (k0_pay3 x1 x2)
            ∗ owns (c : Thread nD τ) arg4 fullShare (k0_pay4 x1 x2 (k0_pay1 (F := F)))
            ∗ owns (c : Thread nD τ) arg5 fullShare (k0_pay4 x1 x2 (k0_pay1 (F := F)))) -∗ K ⟨⟩))
      ⊢ wp frame (wpE (defs₀ (F := F)) Variants.none c none) E (cc0__chamfer_kernel i arg1 harg1 arg2 harg2 arg3 harg3 arg4 harg4 arg5 harg5) K := by
  simp only [cc0__chamfer_kernel_eq_skeleton]; unfold cc0__chamfer_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  obtain rfl := harg1.eq_unread hf1; obtain rfl := harg2.eq_unread hf2
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover_head (S := S64x8) hz2 inb_S64x8_S64x8_0_0 _ _)]
    rw [View.canon_unit_zero (S := S64x8) hz2]
    simp only [View.readAt_eq_ld, harg1.read_unread, harg2.read_unread, View.ld_unit_zero (S := S8x64x3) hz3, View.ld_unit_zero (S := S8x4096x3) hz3]
  isplitl [H4]
  · iexists _; isplitr
    swap; · iexact H4
    ipureintro
    sl_unfold_words
    rw [View.read_writes_eq_canon _ _ _ (cover_head (S := S8x4096) hz2 inb_S8x4096_S8x4096_0_0 _ _), View.canon_unit_zero (S := S8x4096) hz2]
    rw [View.readCov_eq_canon_ld _ _ _ (cover_head (S := S8x4096) hz2 inb_S8x4096_S8x4096_0_0 _ _), View.canon_cons_unit_zero (S := S8x4096) hz2]
    simp only [View.readCov_unit_zero (S := S8x4096) _ hz2, View.readAt_eq_ld, harg1.read_unread, harg2.read_unread,
      View.ld_unit_zero (S := S8x64x3) hz3, View.ld_unit_zero (S := S8x4096x3) hz3, View.ld_unit_zero (S := S8x4096) hz2]
  · iexists _; isplitr
    swap; · iexact H5
    ipureintro
    sl_unfold_words
    rw [View.read_writes_eq_canon _ _ _ (cover_head (S := S8x4096) hz2 inb_S8x4096_S8x4096_0_0 _ _), View.canon_cons_unit_zero (S := S8x4096) hz2]
    simp only [View.readCov_unit_zero (S := S8x4096) _ hz2, View.readAt_eq_ld, harg1.read_unread, harg2.read_unread,
      View.ld_unit_zero (S := S8x64x3) hz3, View.ld_unit_zero (S := S8x4096x3) hz3, View.ld_unit_zero (S := S8x4096) hz2]

end Cert.KernelIdeal.Region

end
-- ==== Proof.KernelIdealData0.lean ====
/-
  Region 0 (the first kernel call: the coarse cloud, 16 grid points of 64 rows each) as a pipeline's proof data.

  At grid point `t` the body is handed block `t` of the coarse cloud (64 points of every batch) and the whole reference
  cloud. It leaves: in the row-minimum window, for each of the 64 points its least clamped squared distance to the
  reference cloud (`k0_pay3` of the two blocks); in the column-minimum window and in the scratch it carries from point
  to point, the running minimum `scr0 t` — at the first point the minimum of +∞ and this block's column minima, at
  every later point the minimum of what the point before left and this block's column minima. The region invariant
  before point `t + 1` therefore holds the scratch at exactly `scr0 t`; before the first point it holds it at anything,
  since the first point overwrites it before reading it.
-/
import proofs.«158115_j85152021610990_1_alg».proof.Proof.KernelIdealBody0

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when region 0 is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Block `t` of the coarse cloud: 64 points of each of the 8 batches. -/
abbrev pblk0 (c : Dev nD) (t : Fin cfg0.N) : Vec F S8x64x3 .f32 := iblk0 V c 0 t
/-- The reference cloud, whole, at every point. -/
abbrev qblk0 (c : Dev nD) (t : Fin cfg0.N) : Vec F S8x4096x3 .f32 := iblk0 V c 1 t

/-- The running column minimum after point `n`: from +∞ at the first point, then from what the point before left. -/
def scr0 (c : Dev nD) : (n : ℕ) → n < cfg0.N → Vec F S8x4096 .f32
  | 0, h => k0_pay4 (pblk0 V c ⟨0, h⟩) (qblk0 V c ⟨0, h⟩) (k0_pay1 (F := F))
  | n + 1, h => k0_pay4 (pblk0 V c ⟨n + 1, h⟩) (qblk0 V c ⟨n + 1, h⟩) (scr0 c n (Nat.lt_of_succ_lt h))

theorem scr0_zero (c : Dev nD) (h : 0 < cfg0.N) :
    scr0 V c 0 h = k0_pay4 (pblk0 V c ⟨0, h⟩) (qblk0 V c ⟨0, h⟩) (k0_pay1 (F := F)) := rfl

theorem scr0_succ (c : Dev nD) (n : ℕ) (h : n + 1 < cfg0.N) :
    scr0 V c (n + 1) h = k0_pay4 (pblk0 V c ⟨n + 1, h⟩) (qblk0 V c ⟨n + 1, h⟩) (scr0 V c n (Nat.lt_of_succ_lt h)) := rfl

/-- At a point that is not the first: this block's update of what the point before left. -/
theorem scr0_pos (c : Dev nD) (t : Fin cfg0.N) (hz : t.val ≠ 0) :
    scr0 V c t.val t.isLt = k0_pay4 (pblk0 V c t) (qblk0 V c t) (scr0 V c (t.val - 1) (Nat.lt_of_le_of_lt (Nat.sub_le _ _) t.isLt)) := by
  obtain ⟨n, hn⟩ := t
  cases n with
  | zero => exact absurd rfl hz
  | succ n => rfl

/-- The kernel's scratch operand: a whole scoped buffer of its own. -/
abbrev scM0 : Memref sig .tc .vmem S8x4096 .f32 := Memref.whole cc0_scratch0

/-- The core's other scoped buffers that are no staging buffer of this call (the second call's staging buffers and
    scratch), each whole at some contents, unopened: the body never touches them. -/
def restOther0 (c : Dev nD) : sProp 𝕄 :=
  Pipeline.scopedRestBut (Ix := Unit) (Name := ℕ) (U := UR sig nD τ) (Lvl := ℕ) (Val := Elt F) spec0 c [cc0_scratch0]

/-- The class's invariant with the scratch as a memref owned at some contents, the other scoped buffers apart. -/
theorem PhiA0_eq (c : Dev nD) :
    (Pipeline.ΦA spec0 c : sProp 𝕄)
      = iprop(((∃ d, owns (c : Thread nD τ) scM0 fullShare d) ∗ restOther0 (F := F) c) ∗ (∃ r, prngReg c r)) := by
  unfold Pipeline.ΦA restOther0
  rw [Pipeline.scopedRest_split_of_list spec0 c [cc0_scratch0] (by decide) (by decide)]
  simp only [scM0, owns_whole, bigSepL]
  rfl

/-- The region invariant before position `n`: before the first point the class's (the scratch at anything); afterwards
    the scratch at what the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (scr0 V c n hn) ∗ restOther0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (scr0 V c n hn) ∗ restOther0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare (scr0 V c (n - 1) (by omega)) ∗ restOther0 (F := F) c) ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (pblk0 V c t) (qblk0 V c t)
    | ⟨3, _⟩ => scr0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (pblk0 V c t) (qblk0 V c t) := by dsimp only [dat0]
theorem after0_3 (c : Dev nD) (t : Fin cfg0.N) : (dat0 V c).after 3 t = scr0 V c t.val t.isLt := by dsimp only [dat0]

/-- The coarse cloud's current staging buffer holds block `t` at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The reference cloud's staging buffer holds the whole cloud at every point: fetched at the first, its block index
    never moves, and the body leaves it in place. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: at the first point the reset branch is taken and the invariant hands the scratch over at
    anything; at a later point it is not, and the scratch comes at what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  have hN : t.val < 16 := lt_of_lt_of_eq t.isLt (show cfg0.N = 16 from N_0)
  by_cases h0 : t.val % 16 = 0
  · have hz : t.val = 0 := by omega
    rw [PhiS0_castSucc V c t, PhiS0_zero V c _ _ hz, PhiA0_eq]
    rw [show scr0 V c t.val t.isLt = k0_pay4 (pblk0 V c t) (qblk0 V c t) (k0_pay1 (F := F)) from by
      obtain ⟨n, hn⟩ := t; cases n with
      | zero => rfl
      | succ n => exact absurd hz (Nat.succ_ne_zero n)]
    iintro ⟨⟨⟨⟨%d5, HS⟩, Hr⟩, Hg⟩, Ho, ⟨%d0, H0⟩, ⟨%d1, H1⟩, ⟨%d2, H2⟩, ⟨%d3, H3⟩⟩
    iapply (kernel0_first c Set.univ (grid0.coords t) _ _ _ _ _ _ _ _ _ _ ((hcond0 t).mpr h0) (pblk0 V c t) (qblk0 V c t) _)
    isplitl [H0]; · iexact H0
    isplitl [H1]; · iexact H1
    isplitl [H2]; · iexists _; iexact H2
    isplitl [H3]; · iexists _; iexact H3
    isplitl [HS]; · iexists _; iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hz : t.val ≠ 0 := by omega
    rw [PhiS0_castSucc V c t, PhiS0_pos V c _ _ hz, scr0_pos V c t hz]
    iintro ⟨⟨⟨HS, Hr⟩, Hg⟩, Ho, ⟨%d0, H0⟩, ⟨%d1, H1⟩, ⟨%d2, H2⟩, ⟨%d3, H3⟩⟩
    iapply (kernel0_later c Set.univ (grid0.coords t) _ _ _ _ _ _ _ _ _ _ (fun h => h0 ((hcond0 t).mp h)) (pblk0 V c t) (qblk0 V c t) _ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, Hr⟩, Hg⟩
  isplitl [HS Hr]
  · isplitl [HS]
    · iexists _; iexact HS
    iexact Hr
  iexact Hg

end Region0

end Cert.KernelIdeal.Region

end
-- ==== Proof.KernelIdealBody1.lean ====
/-
  The kernel body of the second kernel call, run once per control case.

  The body is handed one block of a cloud (`arg1`), the whole reference cloud (`arg2`), the row-minimum window
  (`arg3`), the column-minimum window (`arg4`) and a scratch it keeps from grid point to grid point (`arg5`). At the
  grid's first point it first fills the scratch with +∞. Then, at every point: it stores into `arg3` the row minima
  of the block's clamped squared distances (`k1_pay3` of the two inputs); it replaces the scratch by the minimum of
  the scratch and the block's column minima (`k1_pay4` of the two inputs and what the scratch held); and it copies the
  scratch into `arg4`. So after the first point both `arg4` and the scratch hold `k1_pay4 x1 x2 (+∞)`, and after a
  later point, entered with the scratch at `s`, both hold `k1_pay4 x1 x2 s`. The loads of `arg3` and `arg4` the body
  makes before storing into them read values nothing uses, so those two windows may come at any contents.

  Every store is through the whole-shape rectangle at zero offsets, so each buffer's final contents are the payload
  of its last store, and a load after such a store reads that payload.
-/
import proofs.«158115_j85152021610990_1_alg».proof.Proof.Gen.KernelIdeal.Launch
import proofs.«158115_j85152021610990_1_alg».proof.Proof.Gen.KernelIdeal.Skeleton
import proofs.«158115_j85152021610990_1_alg».proof.Proof.Gen.KernelIdeal.Points
import proofs.«158115_j85152021610990_1_alg».proof.Proof.WholeStores
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region

open Cert.KernelIdeal Cert.KernelIdeal.Gen Cert.WholeStores
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition, from the grid coordinate. -/
abbrev cond1 (i : grid1.Coords) : Prop := (Scalar.cmpi .ne (Scalar.extui (Scalar.cmpi .eq (BitVec.ofNat 32 (i 0).val) 0#32)) 0#32) = 1#1

theorem hcond1 : ∀ t : Fin cfg1.N, cond1 (grid1.coords t) ↔ t.val % 64 = 0 :=
  (by decide +kernel : ∀ t : Fin grid1.N, cond1 (grid1.coords t) ↔ t.val % 64 = 0)

set_option maxHeartbeats 1000000 in
/-- A point that is not the first (the reset not taken), entered with the scratch at `s`: the inputs are left as they
    were, the row-minimum window ends at `k1_pay3 x1 x2`, the column-minimum window and the scratch at `k1_pay4 x1 x2 s`. -/
theorem kernel1_later (c : Dev nD) (E : Set ℕ) (i : grid1.Coords)
    (arg1 : Memref sig .tc .vmem S8x64x3 .f32) (harg1 : arg1.IsWhole) (arg2 : Memref sig .tc .vmem S8x4096x3 .f32) (harg2 : arg2.IsWhole)
    (arg3 : Memref sig .tc .vmem S64x8 .f32) (harg3 : arg3.IsWhole) (arg4 : Memref sig .tc .vmem S8x4096 .f32) (harg4 : arg4.IsWhole)
    (arg5 : Memref sig .tc .vmem S8x4096 .f32) (harg5 : arg5.IsWhole) (hc : ¬cond1 i)
    (x1 : Vec F S8x64x3 .f32) (x2 : Vec F S8x4096x3 .f32) (s : Vec F S8x4096 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ owns (c : Thread nD τ) arg5 fullShare s
        ∗ (iprop(owns (c : Thread nD τ) arg1 fullShare x1 ∗ owns (c : Thread nD τ) arg2 fullShare x2
            ∗ owns (c : Thread nD τ) arg3 fullShare (k1_pay3 x1 x2)
            ∗ owns (c : Thread nD τ) arg4 fullShare (k1_pay4 x1 x2 s)
            ∗ owns (c : Thread nD τ) arg5 fullShare (k1_pay4 x1 x2 s)) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f1, %hf1, H1⟩, ⟨%f2, %hf2, H2⟩, ⟨%d3, %f3, -, H3⟩, ⟨%d4, %f4, -, H4⟩, ⟨%f5, %hf5, H5⟩, Hk⟩
  obtain rfl := harg1.eq_unread hf1; obtain rfl := harg2.eq_unread hf2; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover_head (S := S64x8) hz2 inb_S64x8_S64x8_0_0 _ _)]
    rw [View.canon_unit_zero (S := S64x8) hz2]
    simp only [View.readAt_eq_ld, harg1.read_unread, harg2.read_unread, View.ld_unit_zero (S := S8x64x3) hz3, View.ld_unit_zero (S := S8x4096x3) hz3]
  isplitl [H4]
  · iexists _; isplitr
    swap; · iexact H4
    ipureintro
    sl_unfold_words
    rw [View.read_writes_eq_canon _ _ _ (cover_head (S := S8x4096) hz2 inb_S8x4096_S8x4096_0_0 _ _), View.canon_unit_zero (S := S8x4096) hz2]
    simp only [View.readCov_unit_zero (S := S8x4096) _ hz2, View.readAt_eq_ld, harg1.read_unread, harg2.read_unread, harg5.read_unread,
      View.ld_unit_zero (S := S8x64x3) hz3, View.ld_unit_zero (S := S8x4096x3) hz3, View.ld_unit_zero (S := S8x4096) hz2]
  · iexists _; isplitr
    swap; · iexact H5
    ipureintro
    sl_unfold_words
    rw [View.read_writes_eq_canon _ _ _ (cover_head (S := S8x4096) hz2 inb_S8x4096_S8x4096_0_0 _ _), View.canon_unit_zero (S := S8x4096) hz2]
    simp only [View.readCov_unit_zero (S := S8x4096) _ hz2, View.readAt_eq_ld, harg1.read_unread, harg2.read_unread, harg5.read_unread,
      View.ld_unit_zero (S := S8x64x3) hz3, View.ld_unit_zero (S := S8x4096x3) hz3, View.ld_unit_zero (S := S8x4096) hz2]

set_option maxHeartbeats 1000000 in
/-- The first point (the reset taken), the scratch at anything: the same with `s` the +∞ fill `k1_pay1`. -/
theorem kernel1_first (c : Dev nD) (E : Set ℕ) (i : grid1.Coords)
    (arg1 : Memref sig .tc .vmem S8x64x3 .f32) (harg1 : arg1.IsWhole) (arg2 : Memref sig .tc .vmem S8x4096x3 .f32) (harg2 : arg2.IsWhole)
    (arg3 : Memref sig .tc .vmem S64x8 .f32) (harg3 : arg3.IsWhole) (arg4 : Memref sig .tc .vmem S8x4096 .f32) (harg4 : arg4.IsWhole)
    (arg5 : Memref sig .tc .vmem S8x4096 .f32) (harg5 : arg5.IsWhole) (hc : cond1 i)
    (x1 : Vec F S8x64x3 .f32) (x2 : Vec F S8x4096x3 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (k1_pay3 x1 x2)
            ∗ owns (c : Thread nD τ) arg4 fullShare (k1_pay4 x1 x2 (k1_pay1 (F := F)))
            ∗ owns (c : Thread nD τ) arg5 fullShare (k1_pay4 x1 x2 (k1_pay1 (F := F)))) -∗ K ⟨⟩))
      ⊢ wp frame (wpE (defs₀ (F := F)) Variants.none c none) E (cc1__chamfer_kernel i arg1 harg1 arg2 harg2 arg3 harg3 arg4 harg4 arg5 harg5) K := by
  simp only [cc1__chamfer_kernel_eq_skeleton]; unfold cc1__chamfer_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  obtain rfl := harg1.eq_unread hf1; obtain rfl := harg2.eq_unread hf2
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover_head (S := S64x8) hz2 inb_S64x8_S64x8_0_0 _ _)]
    rw [View.canon_unit_zero (S := S64x8) hz2]
    simp only [View.readAt_eq_ld, harg1.read_unread, harg2.read_unread, View.ld_unit_zero (S := S8x64x3) hz3, View.ld_unit_zero (S := S8x4096x3) hz3]
  isplitl [H4]
  · iexists _; isplitr
    swap; · iexact H4
    ipureintro
    sl_unfold_words
    rw [View.read_writes_eq_canon _ _ _ (cover_head (S := S8x4096) hz2 inb_S8x4096_S8x4096_0_0 _ _), View.canon_unit_zero (S := S8x4096) hz2]
    rw [View.readCov_eq_canon_ld _ _ _ (cover_head (S := S8x4096) hz2 inb_S8x4096_S8x4096_0_0 _ _), View.canon_cons_unit_zero (S := S8x4096) hz2]
    simp only [View.readCov_unit_zero (S := S8x4096) _ hz2, View.readAt_eq_ld, harg1.read_unread, harg2.read_unread,
      View.ld_unit_zero (S := S8x64x3) hz3, View.ld_unit_zero (S := S8x4096x3) hz3, View.ld_unit_zero (S := S8x4096) hz2]
  · iexists _; isplitr
    swap; · iexact H5
    ipureintro
    sl_unfold_words
    rw [View.read_writes_eq_canon _ _ _ (cover_head (S := S8x4096) hz2 inb_S8x4096_S8x4096_0_0 _ _), View.canon_cons_unit_zero (S := S8x4096) hz2]
    simp only [View.readCov_unit_zero (S := S8x4096) _ hz2, View.readAt_eq_ld, harg1.read_unread, harg2.read_unread,
      View.ld_unit_zero (S := S8x64x3) hz3, View.ld_unit_zero (S := S8x4096x3) hz3, View.ld_unit_zero (S := S8x4096) hz2]

end Cert.KernelIdeal.Region

end
-- ==== Proof.KernelIdealData1.lean ====
/-
  Region 1 (the second kernel call: the fine cloud, 64 grid points of 64 rows each) as a pipeline's proof data.

  At grid point `t` the body is handed block `t` of the fine cloud (64 points of every batch) and the whole reference
  cloud. It leaves: in the row-minimum window, for each of the 64 points its least clamped squared distance to the
  reference cloud (`k1_pay3` of the two blocks); in the column-minimum window and in the scratch it carries from point
  to point, the running minimum `scr1 t` — at the first point the minimum of +∞ and this block's column minima, at
  every later point the minimum of what the point before left and this block's column minima. The region invariant
  before point `t + 1` therefore holds the scratch at exactly `scr1 t`; before the first point it holds it at anything,
  since the first point overwrites it before reading it.
-/
import proofs.«158115_j85152021610990_1_alg».proof.Proof.KernelIdealBody1

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when region 1 is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Block `t` of the fine cloud: 64 points of each of the 8 batches. -/
abbrev pblk1 (c : Dev nD) (t : Fin cfg1.N) : Vec F S8x64x3 .f32 := iblk1 V c 0 t
/-- The reference cloud, whole, at every point. -/
abbrev qblk1 (c : Dev nD) (t : Fin cfg1.N) : Vec F S8x4096x3 .f32 := iblk1 V c 1 t

/-- The running column minimum after point `n`: from +∞ at the first point, then from what the point before left. -/
def scr1 (c : Dev nD) : (n : ℕ) → n < cfg1.N → Vec F S8x4096 .f32
  | 0, h => k1_pay4 (pblk1 V c ⟨0, h⟩) (qblk1 V c ⟨0, h⟩) (k1_pay1 (F := F))
  | n + 1, h => k1_pay4 (pblk1 V c ⟨n + 1, h⟩) (qblk1 V c ⟨n + 1, h⟩) (scr1 c n (Nat.lt_of_succ_lt h))

theorem scr1_zero (c : Dev nD) (h : 0 < cfg1.N) :
    scr1 V c 0 h = k1_pay4 (pblk1 V c ⟨0, h⟩) (qblk1 V c ⟨0, h⟩) (k1_pay1 (F := F)) := rfl

theorem scr1_succ (c : Dev nD) (n : ℕ) (h : n + 1 < cfg1.N) :
    scr1 V c (n + 1) h = k1_pay4 (pblk1 V c ⟨n + 1, h⟩) (qblk1 V c ⟨n + 1, h⟩) (scr1 V c n (Nat.lt_of_succ_lt h)) := rfl

/-- At a point that is not the first: this block's update of what the point before left. -/
theorem scr1_pos (c : Dev nD) (t : Fin cfg1.N) (hz : t.val ≠ 0) :
    scr1 V c t.val t.isLt = k1_pay4 (pblk1 V c t) (qblk1 V c t) (scr1 V c (t.val - 1) (Nat.lt_of_le_of_lt (Nat.sub_le _ _) t.isLt)) := by
  obtain ⟨n, hn⟩ := t
  cases n with
  | zero => exact absurd rfl hz
  | succ n => rfl

/-- The kernel's scratch operand: a whole scoped buffer of its own. -/
abbrev scM1 : Memref sig .tc .vmem S8x4096 .f32 := Memref.whole cc1_scratch0

/-- The core's other scoped buffers that are no staging buffer of this call (the second call's staging buffers and
    scratch), each whole at some contents, unopened: the body never touches them. -/
def restOther1 (c : Dev nD) : sProp 𝕄 :=
  Pipeline.scopedRestBut (Ix := Unit) (Name := ℕ) (U := UR sig nD τ) (Lvl := ℕ) (Val := Elt F) spec1 c [cc1_scratch0]

/-- The class's invariant with the scratch as a memref owned at some contents, the other scoped buffers apart. -/
theorem PhiA1_eq (c : Dev nD) :
    (Pipeline.ΦA spec1 c : sProp 𝕄)
      = iprop(((∃ d, owns (c : Thread nD τ) scM1 fullShare d) ∗ restOther1 (F := F) c) ∗ (∃ r, prngReg c r)) := by
  unfold Pipeline.ΦA restOther1
  rw [Pipeline.scopedRest_split_of_list spec1 c [cc1_scratch0] (by decide) (by decide)]
  simp only [scM1, owns_whole, bigSepL]
  rfl

/-- The region invariant before position `n`: before the first point the class's (the scratch at anything); afterwards
    the scratch at what the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (scr1 V c n hn) ∗ restOther1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (scr1 V c n hn) ∗ restOther1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (scr1 V c (n - 1) (by omega)) ∗ restOther1 (F := F) c) ∗ (∃ r, prngReg c r)) := by
  cases n with
  | zero => exact absurd rfl hz
  | succ n => rfl

/-- The proof data of pipeline 0 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (pblk1 V c t) (qblk1 V c t)
    | ⟨3, _⟩ => scr1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (pblk1 V c t) (qblk1 V c t) := by dsimp only [dat1]
theorem after1_3 (c : Dev nD) (t : Fin cfg1.N) : (dat1 V c).after 3 t = scr1 V c t.val t.isLt := by dsimp only [dat1]

/-- The fine cloud's current staging buffer holds block `t` at every point (it is fetched at every point). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- The reference cloud's staging buffer holds the whole cloud at every point: fetched at the first, its block index
    never moves, and the body leaves it in place. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: at the first point the reset branch is taken and the invariant hands the scratch over at
    anything; at a later point it is not, and the scratch comes at what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  have hN : t.val < 64 := lt_of_lt_of_eq t.isLt (show cfg1.N = 64 from N_1)
  by_cases h0 : t.val % 64 = 0
  · have hz : t.val = 0 := by omega
    rw [PhiS1_castSucc V c t, PhiS1_zero V c _ _ hz, PhiA1_eq]
    rw [show scr1 V c t.val t.isLt = k1_pay4 (pblk1 V c t) (qblk1 V c t) (k1_pay1 (F := F)) from by
      obtain ⟨n, hn⟩ := t; cases n with
      | zero => rfl
      | succ n => exact absurd hz (Nat.succ_ne_zero n)]
    iintro ⟨⟨⟨⟨%d5, HS⟩, Hr⟩, Hg⟩, Ho, ⟨%d0, H0⟩, ⟨%d1, H1⟩, ⟨%d2, H2⟩, ⟨%d3, H3⟩⟩
    iapply (kernel1_first c Set.univ (grid1.coords t) _ _ _ _ _ _ _ _ _ _ ((hcond1 t).mpr h0) (pblk1 V c t) (qblk1 V c t) _)
    isplitl [H0]; · iexact H0
    isplitl [H1]; · iexact H1
    isplitl [H2]; · iexists _; iexact H2
    isplitl [H3]; · iexists _; iexact H3
    isplitl [HS]; · iexists _; iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hz : t.val ≠ 0 := by omega
    rw [PhiS1_castSucc V c t, PhiS1_pos V c _ _ hz, scr1_pos V c t hz]
    iintro ⟨⟨⟨HS, Hr⟩, Hg⟩, Ho, ⟨%d0, H0⟩, ⟨%d1, H1⟩, ⟨%d2, H2⟩, ⟨%d3, H3⟩⟩
    iapply (kernel1_later c Set.univ (grid1.coords t) _ _ _ _ _ _ _ _ _ _ (fun h => h0 ((hcond1 t).mp h)) (pblk1 V c t) (qblk1 V c t) _ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hr⟩, Hg⟩
  isplitl [HS Hr]
  · isplitl [HS]
    · iexists _; iexact HS
    iexact Hr
  iexact Hg

end Region1

end Cert.KernelIdeal.Region

end
-- ==== Proof.KernelIdealLaunch.lean ====
/-
  The whole program's run: host operations, the first kernel call, the second, host operations.

  Between two items every unscoped buffer of a core is held at a known valuation: the launch memory, then the host
  operations before the calls applied to it, then the first call's two result arrays replaced by what its proof
  data computes (`rows0`, `cols0`: the arrays after the last write-back), then likewise the second call's
  (`rows1`, `cols1`), then the host operations after the calls applied to that. Each call is entered from the
  valuation before it and left at the one after it; its own scratch and the other call's scoped buffers go into its
  invariant and come back; nothing is owed to any other core at any time. The run's post reads the result and the five
  arguments off the last valuation: no item writes an argument, so each ends as launched.
-/
import proofs.«158115_j85152021610990_1_alg».proof.Proof.KernelIdealData0
import proofs.«158115_j85152021610990_1_alg».proof.Proof.KernelIdealData1
import proofs.«158115_j85152021610990_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ)

/-! ## The valuations between items, and what the calls leave -/

/-- Core `c`'s buffers when the first call is entered: the launch memory after the host operations before the calls. -/
abbrev VR1 (c : Dev nD) (b : Ref sig .tc) : Buf (Elt F) ((c : Thread nD τ).loc b) := Gen.V1 m c b

/-- What the first call leaves in its row-minimum array (point-major, 1024 × 8) -/
def rows0 (c : Dev nD) : Buf (Elt F) ((c : Thread nD τ).loc main_v6_0) := (dat0 (VR1 m) c).arrAt 2 cfg0.N
/-- and in its column-minimum array (8 × 4096): the arrays after the last write-back. -/
def cols0 (c : Dev nD) : Buf (Elt F) ((c : Thread nD τ).loc main_v6_1) := (dat0 (VR1 m) c).arrAt 3 cfg0.N

/-- The first call's results as the unknowns the valuations are written over (read only at those two arrays). -/
def outsA : Gen.Outs (F := F) := fun _ r c =>
  Function.update (Function.update (fun r : Ref sig .tc => (Gen.V1 m c r : Buf (Elt F) ((c : Thread nD τ).loc r))) main_v6_0 (rows0 m c)) main_v6_1 (cols0 m c) r

/-- Core `c`'s buffers when the second call is entered. -/
abbrev VR2 (c : Dev nD) (b : Ref sig .tc) : Buf (Elt F) ((c : Thread nD τ).loc b) := Gen.V2 m (outsA m) c b

/-- What the second call leaves in its row-minimum array (4096 × 8) -/
def rows1 (c : Dev nD) : Buf (Elt F) ((c : Thread nD τ).loc main_v7_0) := (dat1 (VR2 m) c).arrAt 2 cfg1.N
/-- and in its column-minimum array (8 × 4096). -/
def cols1 (c : Dev nD) : Buf (Elt F) ((c : Thread nD τ).loc main_v7_1) := (dat1 (VR2 m) c).arrAt 3 cfg1.N

/-- Both calls' results as the unknowns: the first call's after item 1, the second call's after item 2. -/
def outs : Gen.Outs (F := F) := fun J r c =>
  if J = 2 then outsA m J r c
  else Function.update (Function.update (fun r : Ref sig .tc => (Gen.V2 m (outsA m) c r : Buf (Elt F) ((c : Thread nD τ).loc r))) main_v7_0 (rows1 m c)) main_v7_1 (cols1 m c) r

theorem outs_v6_0 (c : Dev nD) : outs m 2 main_v6_0 c = rows0 m c := by
  unfold outs outsA
  rw [if_pos rfl, Function.update_of_ne (by decide), Function.update_self]
theorem outs_v6_1 (c : Dev nD) : outs m 2 main_v6_1 c = cols0 m c := by
  unfold outs outsA
  rw [if_pos rfl, Function.update_self]
theorem outs_v7_0 (c : Dev nD) : outs m 3 main_v7_0 c = rows1 m c := by
  unfold outs
  rw [if_neg (by decide), Function.update_of_ne (by decide), Function.update_self]
theorem outs_v7_1 (c : Dev nD) : outs m 3 main_v7_1 c = cols1 m c := by
  unfold outs
  rw [if_neg (by decide), Function.update_self]

/-- The second call is entered from the valuation the first one is left at. -/
theorem V2_outs (c : Dev nD) : Gen.V2 m (outs m) c = Gen.V2 m (outsA m) c := by
  have h0 : outs m 2 main_v6_0 c = outsA m 2 main_v6_0 c := by unfold outs; rw [if_pos rfl]
  have h1 : outs m 2 main_v6_1 c = outsA m 2 main_v6_1 c := by unfold outs; rw [if_pos rfl]
  unfold Gen.V2
  rw [h0, h1]

/-! ## The proof data family -/

/-- Every pipeline's proof data, each at its call's entry contents. -/
def pdats : (p : Fin 2) → (c : Dev nD) → Dat τ (Elt F) Unit ℕ (UR sig nD τ) ℕ (Pipeline.pin (pcfgs (F := F)) Gen.adm p) c
  | ⟨0, _⟩ => fun c => dat0 (VR1 m) c
  | ⟨1, _⟩ => fun c => dat1 (VR2 m) c

/-! ## What a call leaves in the buffers -/

/-- Core `c`'s buffers when the first call is left, read at the core's own references. -/
abbrev VQ2 (c : Dev nD) (b : Ref sig .tc) : Buf (Elt F) ((c : Thread nD τ).loc b) := Gen.V2 m (outs m) c b
/-- Core `c`'s buffers when the second call is left. -/
abbrev VQ3 (c : Dev nD) (b : Ref sig .tc) : Buf (Elt F) ((c : Thread nD τ).loc b) := Gen.V3 m (outs m) c b

/-- After the first call each of its arrays holds what the proof data leaves there: an input array is never written,
    so it holds what it held at entry; a result array holds the fold of its write-backs. -/
theorem exit0_arr (c : Dev nD) : ∀ w : Fin cfg0.W, (dat0 (VR1 m) c).arrAt w cfg0.N = VQ2 m c (Pipeline.arrRef spec0 w)
  | ⟨0, _⟩ => ((dat0 (VR1 m) c).arrAt_in 0 rfl _).trans (Gen.V2_of m (outs m) c main_v4 (by decide)).symm
  | ⟨1, _⟩ => ((dat0 (VR1 m) c).arrAt_in 1 rfl _).trans (Gen.V2_of m (outs m) c main_arg4 (by decide)).symm
  | ⟨2, _⟩ => by
    show _ = Gen.V2 m (outs m) c main_v6_0
    simp only [Gen.V2]
    rw [Function.update_of_ne (StableHlo.devRef_ne_of_ne (by decide)), Function.update_self, outs_v6_0]
    rfl
  | ⟨3, _⟩ => by
    show _ = Gen.V2 m (outs m) c main_v6_1
    simp only [Gen.V2]
    rw [Function.update_self, outs_v6_1]
    rfl

/-- The first call changes no buffer but its arrays. -/
theorem exit0_rest (c : Dev nD) : ∀ b : Ref sig .tc, b ∉ Finset.univ.image (Pipeline.arrRef spec0) → VQ2 m c b = VR1 m c b :=
  fun b hb => Gen.V2_of m (outs m) c b (by
    intro h
    rcases List.mem_cons.mp h with rfl | h
    · exact hb (Finset.mem_image.mpr ⟨2, Finset.mem_univ _, rfl⟩)
    rcases List.mem_cons.mp h with rfl | h
    · exact hb (Finset.mem_image.mpr ⟨3, Finset.mem_univ _, rfl⟩)
    · exact absurd h List.not_mem_nil)

/-- After the second call each of its arrays holds what the proof data leaves there. -/
theorem exit1_arr (c : Dev nD) : ∀ w : Fin cfg1.W, (dat1 (VR2 m) c).arrAt w cfg1.N = VQ3 m c (Pipeline.arrRef spec1 w)
  | ⟨0, _⟩ => ((dat1 (VR2 m) c).arrAt_in 0 rfl _).trans
      ((Gen.V3_of m (outs m) c main_v5 (by decide)).trans (congrFun (V2_outs m c) _)).symm
  | ⟨1, _⟩ => ((dat1 (VR2 m) c).arrAt_in 1 rfl _).trans
      ((Gen.V3_of m (outs m) c main_arg4 (by decide)).trans (congrFun (V2_outs m c) _)).symm
  | ⟨2, _⟩ => by
    show _ = Gen.V3 m (outs m) c main_v7_0
    simp only [Gen.V3]
    rw [Function.update_of_ne (StableHlo.devRef_ne_of_ne (by decide)), Function.update_self, outs_v7_0]
    rfl
  | ⟨3, _⟩ => by
    show _ = Gen.V3 m (outs m) c main_v7_1
    simp only [Gen.V3]
    rw [Function.update_self, outs_v7_1]
    rfl

/-- The second call changes no buffer but its arrays. -/
theorem exit1_rest (c : Dev nD) : ∀ b : Ref sig .tc, b ∉ Finset.univ.image (Pipeline.arrRef spec1) → VQ3 m c b = VR2 m c b :=
  fun b hb => (Gen.V3_of m (outs m) c b (by
    intro h
    rcases List.mem_cons.mp h with rfl | h
    · exact hb (Finset.mem_image.mpr ⟨2, Finset.mem_univ _, rfl⟩)
    rcases List.mem_cons.mp h with rfl | h
    · exact hb (Finset.mem_image.mpr ⟨3, Finset.mem_univ _, rfl⟩)
    · exact absurd h List.not_mem_nil)).trans (congrFun (V2_outs m c) _)

/-! ## The calls as segments of the run -/

/-- No label has a variant of its own. -/
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers between two items: its generator register at some state, and that it owes
    nothing. -/
abbrev restR (c : Dev nD) : sProp 𝕄 := iprop((∃ r, prngReg c r) ∗ ∃ W, owes (c : Thread nD τ) (0 : CellTallies nD τ sig Unit) W)
/-- The same at each of the three boundaries the calls sit between. -/
abbrev restE : Fin 3 → Dev nD → sProp 𝕄 := fun _ c => restR (F := F) c

set_option backward.isDefEq.respectTransparency.types false in
/-- The first call over the held buffers: entered from every unscoped buffer at the valuation before it, left at the one
    after it. Its arrays are split out of the unscoped buffers and put back at what the proof data leaves; the generator
    register and the scoped buffers no window stages go into the invariant before the first point and come back after
    the last; nothing is owed; the call has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ restR c)
  post c := iprop(StableHlo.held (c : Thread nD τ) (Pipeline.ucRefs τ sig) (Gen.V2 m (outs m) c) ∗ restR c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VR1 m) c).Φ 0 from rfl]
    refine BIBase.Entails.trans ?_ (hin0 (VR1 m) c)
    unfold Pipeline.ΦA
    iintro ⟨Hp, -, Hr⟩
    isplitl [Hr]; · iexact Hr
    iexact Hp
  hout c := by
    rw [Pipeline.ownSems0_none, show (pdats m 0 c).Φ (Fin.last _) = (dat0 (VR1 m) c).Φ (Fin.last cfg0.N) from rfl]
    refine BIBase.Entails.trans (hout0 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR1 m c) (VQ2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the held buffers: entered from every unscoped buffer at the valuation before it, left at the one
    after it. Its arrays are split out of the unscoped buffers and put back at what the proof data leaves; the generator
    register and the scoped buffers no window stages go into the invariant before the first point and come back after
    the last; nothing is owed; the call has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR2 m) c).loose
  hwaits := Pipeline.hwaits_of_owed_zero _ _ _ _ L lv 1 fun _ _ => rfl
  pre c := iprop(StableHlo.held (c : Thread nD τ) (Pipeline.ucRefs τ sig) (Gen.V2 m (outs m) c) ∗ restR c)
  post c := iprop(StableHlo.held (c : Thread nD τ) (Pipeline.ucRefs τ sig) (Gen.V3 m (outs m) c) ∗ restR c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR2 m c) fun _ => rfl
    rw [Pipeline.unscopedBufs_held] at hsplit
    rw [V2_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VR2 m) c).Φ 0 from rfl]
    refine BIBase.Entails.trans ?_ (hin1 (VR2 m) c)
    unfold Pipeline.ΦA
    iintro ⟨Hp, -, Hr⟩
    isplitl [Hr]; · iexact Hr
    iexact Hp
  hout c := by
    rw [Pipeline.ownSems0_none, show (pdats m 1 c).Φ (Fin.last _) = (dat1 (VR2 m) c).Φ (Fin.last cfg1.N) from rfl]
    refine BIBase.Entails.trans (hout1 (VR2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR2 m c) (VQ3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates, without a fault, in a
    state whose result buffer holds the last valuation's value and whose five argument arrays are as launched. -/
theorem run_main (ρ : Dev nD → PrngReg) :
    θ_run defs (onTc (τ := τ) (main (F := F))) ⟨m, fun _ => 0, ρ⟩ (fun r => ∀ c : Dev nD,
      r.2.mem ((c.tc : Thread nD τ).loc main_v19) = Gen.V4 m (outs m) c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ 𝒱₀ L lv m ρ main
    (Gen.segs m (outs m) 𝒱₀ L lv (restE (F := F)) () (pdats m) (reg0 m) (reg1 m))
    (fun c Q => by
      rewrite [main_chain c, Seg.run_eq_chain,
        show (Gen.segs m (outs m) 𝒱₀ L lv (restE (F := F)) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ restR c))
    (Tₙ := fun c => StableHlo.held (c : Thread nD τ) (Pipeline.ucRefs τ sig) (Gen.V4 m (outs m) c))
    (hch := fun c => ⟨.rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v19) = Gen.V4 m (outs m) c main_v19
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  -- the end: the result's and each argument's buffer read off the last valuation
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨h (Proc.devRef .tc main_v19) (Finset.mem_filter.mpr ⟨StableHlo.devRef_mem_tcRefs main_v19, by decide⟩),
      (h (Proc.devRef .tc main_arg0) (Finset.mem_filter.mpr ⟨StableHlo.devRef_mem_tcRefs main_arg0, by decide⟩)).trans (Gen.V4_main_arg0 m (outs m) c),
      (h (Proc.devRef .tc main_arg1) (Finset.mem_filter.mpr ⟨StableHlo.devRef_mem_tcRefs main_arg1, by decide⟩)).trans (Gen.V4_main_arg1 m (outs m) c),
      (h (Proc.devRef .tc main_arg2) (Finset.mem_filter.mpr ⟨StableHlo.devRef_mem_tcRefs main_arg2, by decide⟩)).trans (Gen.V4_main_arg2 m (outs m) c),
      (h (Proc.devRef .tc main_arg3) (Finset.mem_filter.mpr ⟨StableHlo.devRef_mem_tcRefs main_arg3, by decide⟩)).trans (Gen.V4_main_arg3 m (outs m) c),
      (h (Proc.devRef .tc main_arg4) (Finset.mem_filter.mpr ⟨StableHlo.devRef_mem_tcRefs main_arg4, by decide⟩)).trans (Gen.V4_main_arg4 m (outs m) c)⟩
  · iexact HSI

end Cert.KernelIdeal.Region

end
-- ==== Proof.Spec.lean ====
/-
  The mathematics both programs compute, stated once over the extended reals and over no program.

  A point cloud is a function `p b n k` (batch `b`, point `n`, coordinate `k` of three). For two clouds `p` (`N` points)
  and `q` (4096 points) the clamped squared distance of point `n` of `p` to point `j` of `q` in batch `b` is

      dist p q b n j = max ((|p b n|² + |q b j|²) − 2 · ⟨p b n, q b j⟩) 0,

  written with the three-term sums and the association both programs use, its literals kept as the words the programs
  print (2.0, 0.0, and +∞ as the seed of a minimum). `rowMin` is the least such distance from a point of `p` to the
  cloud `q`, `colMin` the least from a point of `q` to the cloud `p`; a minimum over a finite index set is the fold
  of `min` from +∞, so its value does not depend on the order or the grouping in which the set is visited.
-/
import Idealize.ShloMosaic.PureOps.Ideal
import Idealize.ShloMosaic.PureOps.Ideal.Laws
import Idealize.ShloMosaic.Lib.ValueIdx

noncomputable section

namespace Cert.Spec

open Idealize.ShloMosaic

/-- The word of +∞, the seed of every minimum here. -/
abbrev top : EReal := Ideal.ofBits .f32 0x7F800000#32
/-- The word of 2.0. -/
abbrev two : EReal := Ideal.ofBits .f32 0x40000000#32
/-- The word of 0.0 the distance is clamped at. -/
abbrev floor0 : EReal := Ideal.ofBits .f32 0x00000000#32

variable {N M : ℕ}

/-- |p b n|²: the sum of the three squared coordinates. -/
def sqNorm (p : Fin 8 → Fin N → Fin 3 → EReal) (b : Fin 8) (n : Fin N) : EReal :=
  ∑ k : Fin 3, p b n k * p b n k

/-- ⟨p b n, q b j⟩: the sum of the three products of coordinates. -/
def inner (p : Fin 8 → Fin N → Fin 3 → EReal) (q : Fin 8 → Fin M → Fin 3 → EReal) (b : Fin 8) (n : Fin N) (j : Fin M) : EReal :=
  ∑ k : Fin 3, p b n k * q b j k

/-- The clamped squared distance, in the association `(|p|² + |q|²) − 2·⟨p, q⟩`. -/
def dist (p : Fin 8 → Fin N → Fin 3 → EReal) (q : Fin 8 → Fin M → Fin 3 → EReal) (b : Fin 8) (n : Fin N) (j : Fin M) : EReal :=
  max ((sqNorm p b n + sqNorm q b j) - two * inner p q b n j) floor0

/-- The least distance from point `n` of `p` to the cloud `q`. -/
def rowMin (p : Fin 8 → Fin N → Fin 3 → EReal) (q : Fin 8 → Fin M → Fin 3 → EReal) (b : Fin 8) (n : Fin N) : EReal :=
  (Finset.univ : Finset (Fin M)).fold min top (fun j => dist p q b n j)

/-- The least distance from point `j` of `q` to the cloud `p`. -/
def colMin (p : Fin 8 → Fin N → Fin 3 → EReal) (q : Fin 8 → Fin M → Fin 3 → EReal) (b : Fin 8) (j : Fin M) : EReal :=
  (Finset.univ : Finset (Fin N)).fold min top (fun n => dist p q b n j)

end Cert.Spec

end
-- ==== Proof.KernelIdealPayload.lean ====
/-
  What the kernel body computes from one block of a cloud and the whole reference cloud, read index by index over
  the extended reals: its clamped squared distances are `Spec.dist` of the two blocks as clouds, the row-minimum
  payload is `Spec.rowMin` (stored transposed: point-major), and the scratch update is the minimum of what the
  scratch held and `Spec.colMin` over the block's 64 points. The second call's kernel is the same function.
-/
import proofs.«158115_j85152021610990_1_alg».proof.Proof.Gen.KernelIdeal.Skeleton
import proofs.«158115_j85152021610990_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.Spec
open Idealize.ShloMosaic Idealize.ShloMosaic.ValueIdx

/-- A block of points as a cloud: batch, point, coordinate. -/
abbrev cloud {n : ℕ} (x : (⟨3, ![8, n, 3]⟩ : Shape).Idx → EReal) : Fin 8 → Fin n → Fin 3 → EReal :=
  fun b i k => x (ix3 b i k)

/-- The sum of squares over the three coordinates of a block of 64 points. -/
private theorem sumsq64 (x : FVec Ideal S8x64x3 .f32) (b : Fin 8) (r : Fin 64) :
    multiReduction (F := Ideal) .add [2] S8x64 (mulf x x) 0x00000000#32 reduces_S8x64x3_S8x64 (.inl rfl) rfl (ix2 b r)
      = ∑ k : Fin 3, x (ix3 b r k) * x (ix3 b r k) := by
  refine (Ideal.multiReduction_add_single (mulf x x) 0x00000000#32 reduces_S8x64x3_S8x64 (.inl rfl) rfl (ix2 b r)).trans ?_
  refine Finset.sum_congr rfl fun k _ => ?_
  have e : reduces_S8x64x3_S8x64.lift (ix2 b r) k = ix3 b r k :=
    funext fun a => Fin.ext (by match a with | ⟨0, _⟩ => rfl | ⟨1, _⟩ => rfl | ⟨2, _⟩ => rfl)
  rw [e]; rfl

/-- The same over the 4096 points of the reference cloud. -/
private theorem sumsq4096 (x : FVec Ideal S8x4096x3 .f32) (b : Fin 8) (j : Fin 4096) :
    multiReduction (F := Ideal) .add [2] S8x4096 (mulf x x) 0x00000000#32 reduces_S8x4096x3_S8x4096 (.inl rfl) rfl (ix2 b j)
      = ∑ k : Fin 3, x (ix3 b j k) * x (ix3 b j k) := by
  refine (Ideal.multiReduction_add_single (mulf x x) 0x00000000#32 reduces_S8x4096x3_S8x4096 (.inl rfl) rfl (ix2 b j)).trans ?_
  refine Finset.sum_congr rfl fun k _ => ?_
  have e : reduces_S8x4096x3_S8x4096.lift (ix2 b j) k = ix3 b j k :=
    funext fun a => Fin.ext (by match a with | ⟨0, _⟩ => rfl | ⟨1, _⟩ => rfl | ⟨2, _⟩ => rfl)
  rw [e]; rfl

/-- A trailing unit axis added: [8, 64] read as [8, 64, 1]. -/
private theorem cast_col {α : Type} (v : S8x64.Idx → α) (b : Fin 8) (r : Fin 64) (u : Fin 1) :
    shapeCast S8x64x1 v shapeCasts_S8x64_S8x64x1 (ix3 b r u) = v (ix2 b r) :=
  shapeCast_apply v shapeCasts_S8x64_S8x64x1 _ _ (by
    have hu : u.val = 0 := by omega
    rw [Shape.rowMajor_val_three, Shape.rowMajor_val_two]
    show b.val * 64 + r.val = (b.val * 64 + r.val) * 1 + u.val
    omega)

/-- A middle unit axis added: [8, 4096] read as [8, 1, 4096]. -/
private theorem cast_row {α : Type} (v : S8x4096.Idx → α) (b : Fin 8) (u : Fin 1) (j : Fin 4096) :
    shapeCast S8x1x4096 v shapeCasts_S8x4096_S8x1x4096 (ix3 b u j) = v (ix2 b j) :=
  shapeCast_apply v shapeCasts_S8x4096_S8x1x4096 _ _ (by
    have hu : u.val = 0 := by omega
    rw [Shape.rowMajor_val_three, Shape.rowMajor_val_two]
    show b.val * 4096 + j.val = (b.val * 1 + u.val) * 4096 + j.val
    omega)

/-- A column [8, 64, 1] spread along the last axis. -/
private theorem bcast_col {α : Type} (v : S8x64x1.Idx → α) (b : Fin 8) (r : Fin 64) (j : Fin 4096) :
    broadcastTo S8x64x4096 v broadcasts_S8x64x1_S8x64x4096 (ix3 b r j) = v (ix3 b r (0 : Fin 1)) := by
  refine broadcastTo_apply v broadcasts_S8x64x1_S8x64x4096 (ix3 b r j) (ix3 b r (0 : Fin 1)) fun ax => ?_
  match ax with
  | ⟨0, _⟩ => rfl
  | ⟨1, _⟩ => rfl
  | ⟨2, _⟩ => rfl

/-- A row [8, 1, 4096] spread along the middle axis. -/
private theorem bcast_row {α : Type} (v : S8x1x4096.Idx → α) (b : Fin 8) (r : Fin 64) (j : Fin 4096) :
    broadcastTo S8x64x4096 v broadcasts_S8x1x4096_S8x64x4096 (ix3 b r j) = v (ix3 b (0 : Fin 1) j) := by
  refine broadcastTo_apply v broadcasts_S8x1x4096_S8x64x4096 (ix3 b r j) (ix3 b (0 : Fin 1) j) fun ax => ?_
  match ax with
  | ⟨0, _⟩ => rfl
  | ⟨1, _⟩ => rfl
  | ⟨2, _⟩ => rfl

/-! The batched matrix product's operand indices, axis by axis: the batch axis and the free axis of each operand come
from the output index, the contracted axis from the contraction index. -/
private theorem lhs_ax0 (i : S8x64x4096.Idx) (q : dot_S8x64x3_S8x4096x3_S8x64x4096_2_2_1_1_0_0.contr.Idx) :
    (dot_S8x64x3_S8x4096x3_S8x64x4096_2_2_1_1_0_0.lhsIdx i q 0).val = (i 0).val := by
  unfold DotDims.lhsIdx
  rw [dif_pos (show (0 : Fin S8x64x3.rank) ∈ dot_S8x64x3_S8x4096x3_S8x64x4096_2_2_1_1_0_0.lhsBatch by decide)]
  rfl
private theorem lhs_ax1 (i : S8x64x4096.Idx) (q : dot_S8x64x3_S8x4096x3_S8x64x4096_2_2_1_1_0_0.contr.Idx) :
    (dot_S8x64x3_S8x4096x3_S8x64x4096_2_2_1_1_0_0.lhsIdx i q 1).val = (i 1).val := by
  unfold DotDims.lhsIdx
  rw [dif_neg (show ¬(1 : Fin S8x64x3.rank) ∈ dot_S8x64x3_S8x4096x3_S8x64x4096_2_2_1_1_0_0.lhsBatch by decide), dif_pos (show (1 : Fin S8x64x3.rank) ∈ dot_S8x64x3_S8x4096x3_S8x64x4096_2_2_1_1_0_0.lhsNonContracting by decide)]
  rfl
private theorem lhs_ax2 (i : S8x64x4096.Idx) (q : dot_S8x64x3_S8x4096x3_S8x64x4096_2_2_1_1_0_0.contr.Idx) :
    (dot_S8x64x3_S8x4096x3_S8x64x4096_2_2_1_1_0_0.lhsIdx i q 2).val = (q ⟨0, by decide⟩).val :=
  dot_S8x64x3_S8x4096x3_S8x64x4096_2_2_1_1_0_0.lhsIdx_val_of_single rfl i q
private theorem rhs_ax0 (i : S8x64x4096.Idx) (q : dot_S8x64x3_S8x4096x3_S8x64x4096_2_2_1_1_0_0.contr.Idx) :
    (dot_S8x64x3_S8x4096x3_S8x64x4096_2_2_1_1_0_0.rhsIdx i q 0).val = (i 0).val := by
  unfold DotDims.rhsIdx
  rw [dif_pos (show (0 : Fin S8x4096x3.rank) ∈ dot_S8x64x3_S8x4096x3_S8x64x4096_2_2_1_1_0_0.rhsBatch by decide)]
  rfl
private theorem rhs_ax1 (i : S8x64x4096.Idx) (q : dot_S8x64x3_S8x4096x3_S8x64x4096_2_2_1_1_0_0.contr.Idx) :
    (dot_S8x64x3_S8x4096x3_S8x64x4096_2_2_1_1_0_0.rhsIdx i q 1).val = (i 2).val := by
  unfold DotDims.rhsIdx
  rw [dif_neg (show ¬(1 : Fin S8x4096x3.rank) ∈ dot_S8x64x3_S8x4096x3_S8x64x4096_2_2_1_1_0_0.rhsBatch by decide), dif_pos (show (1 : Fin S8x4096x3.rank) ∈ dot_S8x64x3_S8x4096x3_S8x64x4096_2_2_1_1_0_0.rhsNonContracting by decide)]
  rfl
private theorem rhs_ax2 (i : S8x64x4096.Idx) (q : dot_S8x64x3_S8x4096x3_S8x64x4096_2_2_1_1_0_0.contr.Idx) :
    (dot_S8x64x3_S8x4096x3_S8x64x4096_2_2_1_1_0_0.rhsIdx i q 2).val = (q ⟨0, by decide⟩).val :=
  dot_S8x64x3_S8x4096x3_S8x64x4096_2_2_1_1_0_0.rhsIdx_val_of_single rfl i q

/-- The batched matrix product into the zero accumulator, read at (b, r, j): the inner product of point r of the block and point j of the
reference cloud, over their three coordinates. -/
private theorem dot_apply (x1 : FVec Ideal S8x64x3 .f32) (x2 : FVec Ideal S8x4096x3 .f32) (b : Fin 8) (r : Fin 64) (j : Fin 4096) :
    matmul dot_S8x64x3_S8x4096x3_S8x64x4096_2_2_1_1_0_0 (some .fp32) x1 x2 (constant (F := Ideal) S8x64x4096 .f32 0x00000000#32) (ix3 b r j)
      = ∑ k : Fin 3, x1 (ix3 b r k) * x2 (ix3 b j k) := by
  simp only [matmul]
  rw [Ideal.matmul_constant_zero_apply, ← Equiv.sum_comp (contrEquiv1 dot_S8x64x3_S8x4096x3_S8x64x4096_2_2_1_1_0_0 3 rfl rfl).symm]
  refine Finset.sum_congr rfl fun k _ => ?_
  have hk := contrEquiv1_symm_val dot_S8x64x3_S8x4096x3_S8x64x4096_2_2_1_1_0_0 3 rfl rfl k
  have el : dot_S8x64x3_S8x4096x3_S8x64x4096_2_2_1_1_0_0.lhsIdx (ix3 b r j) ((contrEquiv1 dot_S8x64x3_S8x4096x3_S8x64x4096_2_2_1_1_0_0 3 rfl rfl).symm k) = ix3 b r k := funext fun a => Fin.ext (by
    match a with
    | ⟨0, _⟩ => exact lhs_ax0 _ _
    | ⟨1, _⟩ => exact lhs_ax1 _ _
    | ⟨2, _⟩ => exact (lhs_ax2 _ _).trans hk)
  have er : dot_S8x64x3_S8x4096x3_S8x64x4096_2_2_1_1_0_0.rhsIdx (ix3 b r j) ((contrEquiv1 dot_S8x64x3_S8x4096x3_S8x64x4096_2_2_1_1_0_0 3 rfl rfl).symm k) = ix3 b j k := funext fun a => Fin.ext (by
    match a with
    | ⟨0, _⟩ => exact rhs_ax0 _ _
    | ⟨1, _⟩ => exact rhs_ax1 _ _
    | ⟨2, _⟩ => exact (rhs_ax2 _ _).trans hk)
  rw [el, er]

/-- A minimum over the last axis, seeded with +∞, read at (b, r): the fold of min over the 4096 entries of that row. -/
private theorem min_last (v : FVec Ideal S8x64x4096 .f32) (b : Fin 8) (r : Fin 64) :
    multiReduction (F := Ideal) .minimumf [2] S8x64 v 0x7F800000#32 reduces_S8x64x4096_S8x64 (.inl rfl) rfl (ix2 b r)
      = (Finset.univ : Finset (Fin 4096)).fold min top (fun j => v (ix3 b r j)) := by
  refine (multiReduction_minimumf_eq_fold v 0x7F800000#32 reduces_S8x64x4096_S8x64 (.inl rfl) rfl (ix2 b r)).trans ?_
  refine (reduces_S8x64x4096_S8x64.fold_filter_drop_single _ _ v (ix2 b r)).trans ?_
  have e : (v ∘ reduces_S8x64x4096_S8x64.lift (ix2 b r)) = fun j : Fin 4096 => v (ix3 b r j) :=
    funext fun j => congrArg v (funext fun a => Fin.ext (by match a with | ⟨0, _⟩ => rfl | ⟨1, _⟩ => rfl | ⟨2, _⟩ => rfl))
  rw [e]; rfl

/-- A minimum over the middle axis, seeded with +∞, read at (b, j): the fold of min over the 64 entries of that column. -/
private theorem min_mid (v : FVec Ideal S8x64x4096 .f32) (b : Fin 8) (j : Fin 4096) :
    multiReduction (F := Ideal) .minimumf [1] S8x4096 v 0x7F800000#32 reduces_S8x64x4096_S8x4096 (.inl rfl) rfl (ix2 b j)
      = (Finset.univ : Finset (Fin 64)).fold min top (fun r => v (ix3 b r j)) := by
  refine (multiReduction_minimumf_eq_fold v 0x7F800000#32 reduces_S8x64x4096_S8x4096 (.inl rfl) rfl (ix2 b j)).trans ?_
  refine (reduces_S8x64x4096_S8x4096.fold_filter_drop_single _ _ v (ix2 b j)).trans ?_
  have e : (v ∘ reduces_S8x64x4096_S8x4096.lift (ix2 b j)) = fun r : Fin 64 => v (ix3 b r j) :=
    funext fun r => congrArg v (funext fun a => Fin.ext (by match a with | ⟨0, _⟩ => rfl | ⟨1, _⟩ => rfl | ⟨2, _⟩ => rfl))
  rw [e]; rfl

/-- The clamped squared distances of the block's points to the reference cloud's. -/
theorem pay2_apply (x1 : Vec Ideal S8x64x3 .f32) (x2 : Vec Ideal S8x4096x3 .f32) (b : Fin 8) (r : Fin 64) (j : Fin 4096) :
    k0_pay2 (F := Ideal) x1 x2 (ix3 b r j) = dist (cloud x1) (cloud x2) b r j := by
  unfold k0_pay2
  simp only [shapeCast_self]
  rw [maximumf_apply, subf_apply, addf_apply, mulf_apply, broadcast_apply, broadcast_apply,
    bcast_col, bcast_row, cast_col, cast_row, sumsq64, sumsq4096, dot_apply]
  rfl

/-- The row-minimum payload, point-major: entry (r, b) is the least distance from point r of batch b. -/
theorem pay3_apply (x1 : Vec Ideal S8x64x3 .f32) (x2 : Vec Ideal S8x4096x3 .f32) (r : Fin 64) (b : Fin 8) :
    k0_pay3 (F := Ideal) x1 x2 (ix2 r b) = rowMin (cloud x1) (cloud x2) b r := by
  unfold k0_pay3
  refine (transpose_ix2_apply _ transposes_S8x64_p1_0_S64x8 r b).trans ?_
  refine (min_last _ b r).trans ?_
  unfold rowMin
  exact congrArg (fun f => Finset.fold min top f Finset.univ) (funext fun j => pay2_apply x1 x2 b r j)

/-- The scratch update: the minimum of what the scratch held and the block's column minimum. -/
theorem pay4_apply (x1 : Vec Ideal S8x64x3 .f32) (x2 : Vec Ideal S8x4096x3 .f32) (s : Vec Ideal S8x4096 .f32) (b : Fin 8) (j : Fin 4096) :
    k0_pay4 (F := Ideal) x1 x2 s (ix2 b j) = min (s (ix2 b j)) (colMin (cloud x1) (cloud x2) b j) := by
  unfold k0_pay4
  simp only [shapeCast_self]
  rw [minimumf_apply, min_mid]
  unfold colMin
  exact congrArg (fun f => min (s (ix2 b j)) (Finset.fold min top f Finset.univ)) (funext fun r => pay2_apply x1 x2 b r j)

/-- The reset value: +∞ everywhere. -/
theorem pay1_apply (b : Fin 8) (j : Fin 4096) : k0_pay1 (F := Ideal) (ix2 b j) = top := by
  unfold k0_pay1
  simp only [shapeCast_self]
  rfl

/-- The second call's kernel is the same function of its blocks. -/
theorem k1_pay1_eq : k1_pay1 (F := Ideal) = k0_pay1 (F := Ideal) := rfl
theorem k1_pay3_eq : k1_pay3 (F := Ideal) = k0_pay3 (F := Ideal) := rfl
theorem k1_pay4_eq : k1_pay4 (F := Ideal) = k0_pay4 (F := Ideal) := rfl

end Cert.KernelIdeal.Payload

end
-- ==== Proof.KernelIdealArrays0.lean ====
/-
  What the first kernel call leaves in its two result arrays, index by index over the extended reals.

  The row-minimum array is written back block by block: block `t` holds, for the 64 points `64·t … 64·t + 63` of the
  cloud and each batch, the point's least clamped squared distance to the reference cloud; the blocks tile the array,
  so entry (n, b) of the array is `Spec.rowMin` of the whole cloud at point n of batch b. The column-minimum array is
  written back once, after the last grid point, with the running minimum the scratch carries: the minimum over the
  grid's blocks of each block's column minima, from +∞ — the minimum over all the cloud's points, since a fold of
  `min` does not depend on how the index set is cut into blocks: `Spec.colMin`.
-/
import proofs.«158115_j85152021610990_1_alg».proof.Proof.KernelIdealData0
import proofs.«158115_j85152021610990_1_alg».proof.Proof.KernelIdealPayload
import proofs.«158115_j85152021610990_1_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Region Cert.KernelIdeal.Payload Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Region0

-- the TensorCore's buffer contents when the call is entered
variable (V : (c : Dev nD) → (b : Ref sig .tc) → Buf (Elt Ideal) ((c : Thread nD τ).loc b))

/-- The index maps over the grid: the cloud's block moves along the points with the grid point, the row-minimum array's
    block along its rows with it; the reference cloud and the column-minimum array stay whole. -/
private theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Block t of the cloud holds its points 64·t … 64·t + 63. -/
private theorem pblk0_apply (c : Dev nD) (t : Fin cfg0.N) (b : Fin 8) (r : Fin 64) (k : Fin 3) (n : Fin 1024)
    (hn : n.val = 64 * t.val + r.val) :
    pblk0 (F := Ideal) V c t (ix3 b r k) = (V c main_v4 : S8x1024x3.Idx → EReal) (ix3 b n k) := by
  obtain ⟨e0, e1, e2, -⟩ := idx_facts0 t
  unfold pblk0 iblk0
  rw [View.read_apply]
  show (V c main_v4 : S8x1024x3.Idx → EReal) _ = (V c main_v4 : S8x1024x3.Idx → EReal) _
  congr 1
  funext a
  apply Fin.ext
  match a with
  | ⟨0, _⟩ => show win0_0.index t (0 : Fin 3) * 8 + 1 * b.val = b.val; omega
  | ⟨1, _⟩ => show win0_0.index t (1 : Fin 3) * 64 + 1 * r.val = n.val; omega
  | ⟨2, _⟩ => show win0_0.index t (2 : Fin 3) * 3 + 1 * k.val = k.val; omega

/-- The reference cloud's block is the whole cloud. -/
private theorem qblk0_apply (c : Dev nD) (t : Fin cfg0.N) (b : Fin 8) (j : Fin 4096) (k : Fin 3) :
    qblk0 (F := Ideal) V c t (ix3 b j k) = (V c main_arg4 : S8x4096x3.Idx → EReal) (ix3 b j k) := by
  obtain ⟨-, -, -, e0, e1, e2, -⟩ := idx_facts0 t
  unfold qblk0 iblk0
  rw [View.read_apply]
  show (V c main_arg4 : S8x4096x3.Idx → EReal) _ = (V c main_arg4 : S8x4096x3.Idx → EReal) _
  congr 1
  funext a
  apply Fin.ext
  match a with
  | ⟨0, _⟩ => show win0_1.index t (0 : Fin 3) * 8 + 1 * b.val = b.val; omega
  | ⟨1, _⟩ => show win0_1.index t (1 : Fin 3) * 4096 + 1 * j.val = j.val; omega
  | ⟨2, _⟩ => show win0_1.index t (2 : Fin 3) * 3 + 1 * k.val = k.val; omega

/-- The clamped distance reads the first cloud at one point and the second cloud at one point. -/
private theorem dist_congr {N N' M M' : ℕ} (p : Fin 8 → Fin N → Fin 3 → EReal) (p' : Fin 8 → Fin N' → Fin 3 → EReal)
    (q : Fin 8 → Fin M → Fin 3 → EReal) (q' : Fin 8 → Fin M' → Fin 3 → EReal) (b : Fin 8) (n : Fin N) (n' : Fin N')
    (j : Fin M) (j' : Fin M') (hp : ∀ k, p b n k = p' b n' k) (hq : ∀ k, q b j k = q' b j' k) :
    Spec.dist p q b n j = Spec.dist p' q' b n' j' := by
  unfold Spec.dist Spec.sqNorm Spec.inner
  simp only [hp, hq]

/-- The lower bounds of a running minimum over blocks of 64: below what was held and below the next 64 entries is below
    the seed and below every entry met so far. -/
private theorem le_min_block (D : Fin 1024 → EReal) (g : Fin 64 → EReal) (s : EReal) (m : ℕ) (hm : 64 * (m + 1) ≤ 1024)
    (hg : ∀ (r : Fin 64) (i : Fin 1024), i.val = 64 * m + r.val → g r = D i)
    (hs : ∀ x : EReal, x ≤ s ↔ x ≤ top ∧ ∀ i : Fin 1024, i.val < 64 * m → x ≤ D i) (x : EReal) :
    x ≤ min s ((Finset.univ : Finset (Fin 64)).fold min top g)
      ↔ x ≤ top ∧ ∀ i : Fin 1024, i.val < 64 * (m + 1) → x ≤ D i := by
  rw [le_min_iff, Finset.le_fold_min, hs]
  constructor
  · rintro ⟨⟨ht, h1⟩, -, h2⟩
    refine ⟨ht, fun i hi => ?_⟩
    by_cases h : i.val < 64 * m
    · exact h1 i h
    · have e := hg ⟨i.val - 64 * m, by omega⟩ i (by show i.val = 64 * m + (i.val - 64 * m); omega)
      rw [← e]
      exact h2 _ (Finset.mem_univ _)
  · rintro ⟨ht, h⟩
    refine ⟨⟨ht, fun i hi => h i (by omega)⟩, ht, fun r _ => ?_⟩
    have hr := r.isLt
    rw [hg r ⟨64 * m + r.val, by omega⟩ rfl]
    exact h _ (by show 64 * m + r.val < 64 * (m + 1); omega)

/-- The distances from point r of block t are the distances from point 64·t + r of the cloud. -/
private theorem dist_blk0 (c : Dev nD) (t : Fin cfg0.N) (b : Fin 8) (r : Fin 64) (n : Fin 1024)
    (hn : n.val = 64 * t.val + r.val) (j : Fin 4096) :
    Spec.dist (cloud (pblk0 (F := Ideal) V c t)) (cloud (qblk0 (F := Ideal) V c t)) b r j
      = Spec.dist (cloud (V c main_v4 : S8x1024x3.Idx → EReal)) (cloud (V c main_arg4 : S8x4096x3.Idx → EReal)) b n j :=
  dist_congr _ _ _ _ b r n j j (fun k => pblk0_apply V c t b r k n hn) (fun k => qblk0_apply V c t b j k)

/-- So is the least of them. -/
private theorem rowMin_blk0 (c : Dev nD) (t : Fin cfg0.N) (b : Fin 8) (r : Fin 64) (n : Fin 1024)
    (hn : n.val = 64 * t.val + r.val) :
    rowMin (cloud (pblk0 (F := Ideal) V c t)) (cloud (qblk0 (F := Ideal) V c t)) b r
      = rowMin (cloud (V c main_v4 : S8x1024x3.Idx → EReal)) (cloud (V c main_arg4 : S8x4096x3.Idx → EReal)) b n := by
  unfold rowMin
  exact congrArg (fun f => Finset.fold min top f Finset.univ) (funext fun j => dist_blk0 V c t b r n hn j)

/-- The row-minimum array the call leaves: entry (n, b) is the least distance from point n of batch b. -/
private abbrev rowsG0 (c : Dev nD) : S1024x8.Idx → EReal := fun i =>
  rowMin (cloud (V c main_v4 : S8x1024x3.Idx → EReal)) (cloud (V c main_arg4 : S8x4096x3.Idx → EReal))
    ⟨(i 1).val, (i 1).isLt⟩ ⟨(i 0).val, (i 0).isLt⟩

/-- What point t writes back into the row-minimum array is block t of that array. -/
private theorem flushed0_2 (c : Dev nD) (t : Fin cfg0.N) :
    (dat0 (F := Ideal) V c).flushed 2 t = ((cfg0.win 2).blk t).view.read (Elt Ideal) (rowsG0 V c) := by
  obtain ⟨-, -, -, -, -, -, e0, e1, -⟩ := idx_facts0 t
  have hN : cfg0.N = 16 := N_0
  have ht := t.isLt
  show (cfg0.win 2).cut (grid0.coords t) ((dat0 (F := Ideal) V c).after 2 t) = _
  rw [after0_2]
  funext y
  obtain ⟨r, b, rfl⟩ : ∃ (r : Fin 64) (b : Fin 8), y = ix2 r b := ⟨y 0, y 1, eq_ix2 y⟩
  have hr := r.isLt
  show k0_pay3 (F := Ideal) (pblk0 V c t) (qblk0 V c t) (ix2 r b) = rowsG0 V c (((cfg0.win 2).blk t).view.emb (ix2 r b))
  have hemb : ((cfg0.win 2).blk t).view.emb (ix2 r b) = (ix2 (⟨64 * t.val + r.val, by omega⟩ : Fin 1024) b : S1024x8.Idx) := by
    funext a
    apply Fin.ext
    match a with
    | ⟨0, _⟩ => show win0_2.index t (0 : Fin 2) * 64 + 1 * r.val = 64 * t.val + r.val; omega
    | ⟨1, _⟩ => show win0_2.index t (1 : Fin 2) * 8 + 1 * b.val = b.val; omega
  rw [hemb]
  exact (pay3_apply (pblk0 (F := Ideal) V c t) (qblk0 (F := Ideal) V c t) r b).trans (rowMin_blk0 V c t b r _ rfl)

/-- An index of the row-minimum array is in point t's block iff its row is one of the block's 64. -/
private theorem mem_blk0_2 (t : Fin cfg0.N) (i : S1024x8.Idx) :
    i ∈ ((cfg0.win 2).blk t).view.set
      ↔ ∀ a : Fin 2, win0_2.index t a * S64x8.size a ≤ (i a).val ∧ (i a).val < win0_2.index t a * S64x8.size a + S64x8.size a := by
  show i ∈ ((View.whole (Pipeline.arrRef spec0 2)).slice (win0_2.rect t)).set ↔ _
  rw [View.set_slice_whole, Rect.mem_set_unit]
  exact Iff.rfl

/-- The blocks tile the array: row n is in the block of point n / 64. -/
private theorem cover0_2 (i : S1024x8.Idx) :
    ∃ t : Fin cfg0.N, (cfg0.win 2).flush t = true ∧ i ∈ ((cfg0.win 2).blk t).view.set := by
  have hN : cfg0.N = 16 := N_0
  have hi0 : (i 0).val < 1024 := (i 0).isLt
  have hi1 : (i 1).val < 8 := (i 1).isLt
  let t : Fin cfg0.N := ⟨(i 0).val / 64, by omega⟩
  obtain ⟨-, -, -, -, -, -, e0, e1, -⟩ := idx_facts0 t
  have e0' : win0_2.index t (0 : Fin 2) = (i 0).val / 64 := e0
  refine ⟨t, flush0_2 t, ?_⟩
  rw [mem_blk0_2]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 8 ≤ (i 1).val ∧ (i 1).val < win0_2.index t (1 : Fin 2) * 8 + 8; omega

/-- The distances to point j of the reference cloud from the points of the cloud, in batch b. -/
private abbrev colD0 (c : Dev nD) (b : Fin 8) (j : Fin 4096) : Fin 1024 → EReal := fun n =>
  Spec.dist (cloud (V c main_v4 : S8x1024x3.Idx → EReal)) (cloud (V c main_arg4 : S8x4096x3.Idx → EReal)) b n j

/-- The running minimum after point n, at (b, j): its lower bounds are the lower bounds of +∞ and of the distances from
    the cloud's points below 64·(n + 1). -/
private theorem le_scr0 (c : Dev nD) (b : Fin 8) (j : Fin 4096) : ∀ (n : ℕ) (h : n < cfg0.N) (x : EReal),
    x ≤ scr0 (F := Ideal) V c n h (ix2 b j) ↔ x ≤ top ∧ ∀ i : Fin 1024, i.val < 64 * (n + 1) → x ≤ colD0 V c b j i
  | 0, h, x => by
    have e : scr0 (F := Ideal) V c 0 h (ix2 b j)
        = min top (colMin (cloud (pblk0 (F := Ideal) V c ⟨0, h⟩)) (cloud (qblk0 (F := Ideal) V c ⟨0, h⟩)) b j) :=
      (pay4_apply (pblk0 (F := Ideal) V c ⟨0, h⟩) (qblk0 (F := Ideal) V c ⟨0, h⟩) (k0_pay1 (F := Ideal)) b j).trans
        (congrArg (fun z => min z (colMin (cloud (pblk0 (F := Ideal) V c ⟨0, h⟩)) (cloud (qblk0 (F := Ideal) V c ⟨0, h⟩)) b j))
          (pay1_apply b j))
    rw [e]
    unfold colMin
    refine le_min_block (colD0 V c b j)
      (fun r => Spec.dist (cloud (pblk0 (F := Ideal) V c ⟨0, h⟩)) (cloud (qblk0 (F := Ideal) V c ⟨0, h⟩)) b r j) top 0 (by omega)
      (fun r i hi => dist_blk0 V c ⟨0, h⟩ b r i hi j) (fun y => ?_) x
    exact ⟨fun hy => ⟨hy, fun i hi => absurd hi (by omega)⟩, fun hy => hy.1⟩
  | n + 1, h, x => by
    have hN : cfg0.N = 16 := N_0
    have e : scr0 (F := Ideal) V c (n + 1) h (ix2 b j)
        = min (scr0 (F := Ideal) V c n (Nat.lt_of_succ_lt h) (ix2 b j))
            (colMin (cloud (pblk0 (F := Ideal) V c ⟨n + 1, h⟩)) (cloud (qblk0 (F := Ideal) V c ⟨n + 1, h⟩)) b j) :=
      pay4_apply (pblk0 (F := Ideal) V c ⟨n + 1, h⟩) (qblk0 (F := Ideal) V c ⟨n + 1, h⟩)
        (scr0 (F := Ideal) V c n (Nat.lt_of_succ_lt h)) b j
    rw [e]
    unfold colMin
    exact le_min_block (colD0 V c b j)
      (fun r => Spec.dist (cloud (pblk0 (F := Ideal) V c ⟨n + 1, h⟩)) (cloud (qblk0 (F := Ideal) V c ⟨n + 1, h⟩)) b r j)
      (scr0 (F := Ideal) V c n (Nat.lt_of_succ_lt h) (ix2 b j)) (n + 1) (by omega)
      (fun r i hi => dist_blk0 V c ⟨n + 1, h⟩ b r i hi j) (le_scr0 c b j n (Nat.lt_of_succ_lt h)) x

/-- After the last point the running minimum is the minimum over the whole cloud. -/
private theorem scr0_last (c : Dev nD) (t : Fin cfg0.N) (ht : t.val = 15) (b : Fin 8) (j : Fin 4096) :
    scr0 (F := Ideal) V c t.val t.isLt (ix2 b j)
      = colMin (cloud (V c main_v4 : S8x1024x3.Idx → EReal)) (cloud (V c main_arg4 : S8x4096x3.Idx → EReal)) b j := by
  refine eq_of_forall_le_iff fun x => ?_
  rw [le_scr0 V c b j t.val t.isLt x]
  unfold colMin
  rw [Finset.le_fold_min]
  exact and_congr_right fun _ =>
    ⟨fun h i _ => h i (by have := i.isLt; omega), fun h i _ => h i (Finset.mem_univ _)⟩

/-- The column-minimum array the call leaves: entry (b, j) is the least distance from point j of the reference cloud. -/
private abbrev colsG0 (c : Dev nD) : S8x4096.Idx → EReal := fun i =>
  colMin (cloud (V c main_v4 : S8x1024x3.Idx → EReal)) (cloud (V c main_arg4 : S8x4096x3.Idx → EReal))
    ⟨(i 0).val, (i 0).isLt⟩ ⟨(i 1).val, (i 1).isLt⟩

/-- The one write-back into the column-minimum array, after the last point, writes that array whole. -/
private theorem flushed0_3 (c : Dev nD) (t : Fin cfg0.N) (hf : (cfg0.win 3).flush t = true) :
    (dat0 (F := Ideal) V c).flushed 3 t = ((cfg0.win 3).blk t).view.read (Elt Ideal) (colsG0 V c) := by
  obtain ⟨-, -, -, -, -, -, -, -, e0, e1⟩ := idx_facts0 t
  have hN : cfg0.N = 16 := N_0
  have ht : t.val = 15 := by have := (flush0_3 t).mp hf; have := t.isLt; omega
  show (cfg0.win 3).cut (grid0.coords t) ((dat0 (F := Ideal) V c).after 3 t) = _
  rw [after0_3]
  funext y
  obtain ⟨b, j, rfl⟩ : ∃ (b : Fin 8) (j : Fin 4096), y = ix2 b j := ⟨y 0, y 1, eq_ix2 y⟩
  show scr0 (F := Ideal) V c t.val t.isLt (ix2 b j) = colsG0 V c (((cfg0.win 3).blk t).view.emb (ix2 b j))
  have hemb : ((cfg0.win 3).blk t).view.emb (ix2 b j) = (ix2 b j : S8x4096.Idx) := by
    funext a
    apply Fin.ext
    match a with
    | ⟨0, _⟩ => show win0_3.index t (0 : Fin 2) * 8 + 1 * b.val = b.val; omega
    | ⟨1, _⟩ => show win0_3.index t (1 : Fin 2) * 4096 + 1 * j.val = j.val; omega
  rw [hemb]
  exact scr0_last V c t ht b j

/-- An index of the column-minimum array is in point t's block iff each coordinate is in the block's range. -/
private theorem mem_blk0_3 (t : Fin cfg0.N) (i : S8x4096.Idx) :
    i ∈ ((cfg0.win 3).blk t).view.set
      ↔ ∀ a : Fin 2, win0_3.index t a * S8x4096.size a ≤ (i a).val ∧ (i a).val < win0_3.index t a * S8x4096.size a + S8x4096.size a := by
  show i ∈ ((View.whole (Pipeline.arrRef spec0 3)).slice (win0_3.rect t)).set ↔ _
  rw [View.set_slice_whole, Rect.mem_set_unit]
  exact Iff.rfl

/-- The last point's block is the whole array. -/
private theorem cover0_3 (i : S8x4096.Idx) :
    ∃ t : Fin cfg0.N, (cfg0.win 3).flush t = true ∧ i ∈ ((cfg0.win 3).blk t).view.set := by
  have hN : cfg0.N = 16 := N_0
  have hi0 : (i 0).val < 8 := (i 0).isLt
  have hi1 : (i 1).val < 4096 := (i 1).isLt
  let t : Fin cfg0.N := ⟨15, by omega⟩
  obtain ⟨-, -, -, -, -, -, -, -, e0, e1⟩ := idx_facts0 t
  refine ⟨t, (flush0_3 t).mpr (by show 15 % 16 = 15; omega), ?_⟩
  rw [mem_blk0_3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 4096 ≤ (i 1).val ∧ (i 1).val < win0_3.index t (1 : Fin 2) * 4096 + 4096; omega

/-- Entry (n, b) of the row-minimum array after the call: the least distance from point n of batch b to the
    reference cloud. -/
theorem rows0_apply (c : Dev nD) (n : Fin 1024) (b : Fin 8) :
    ((dat0 (F := Ideal) V c).arrAt 2 cfg0.N : S1024x8.Idx → EReal) (ix2 n b)
      = rowMin (cloud (V c main_v4 : S8x1024x3.Idx → EReal)) (cloud (V c main_arg4 : S8x4096x3.Idx → EReal)) b n := by
  refine (congrFun ((dat0 (F := Ideal) V c).arrAt_eq_of_cover 2 (rowsG0 V c) (fun t _ => flushed0_2 V c t) cover0_2) (ix2 n b)).trans ?_
  rfl

/-- Entry (b, j) of the column-minimum array after the call: the least distance from point j of the reference cloud
    to the cloud, in batch b. -/
theorem cols0_apply (c : Dev nD) (b : Fin 8) (j : Fin 4096) :
    ((dat0 (F := Ideal) V c).arrAt 3 cfg0.N : S8x4096.Idx → EReal) (ix2 b j)
      = colMin (cloud (V c main_v4 : S8x1024x3.Idx → EReal)) (cloud (V c main_arg4 : S8x4096x3.Idx → EReal)) b j := by
  refine (congrFun ((dat0 (F := Ideal) V c).arrAt_eq_of_cover 3 (colsG0 V c) (fun t hf => flushed0_3 V c t hf) cover0_3) (ix2 b j)).trans ?_
  rfl

end Region0

end Cert.KernelIdeal.Arrays

end
-- ==== Proof.KernelIdealArrays1.lean ====
/-
  What the second kernel call leaves in its two result arrays, index by index over the extended reals.

  The row-minimum array is written back block by block: block `t` holds, for the 64 points `64·t … 64·t + 63` of the
  cloud and each batch, the point's least clamped squared distance to the reference cloud; the blocks tile the array,
  so entry (n, b) of the array is `Spec.rowMin` of the whole cloud at point n of batch b. The column-minimum array is
  written back once, after the last grid point, with the running minimum the scratch carries: the minimum over the
  grid's blocks of each block's column minima, from +∞ — the minimum over all the cloud's points, since a fold of
  `min` does not depend on how the index set is cut into blocks: `Spec.colMin`.
-/
import proofs.«158115_j85152021610990_1_alg».proof.Proof.KernelIdealData1
import proofs.«158115_j85152021610990_1_alg».proof.Proof.KernelIdealPayload
import proofs.«158115_j85152021610990_1_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Region Cert.KernelIdeal.Payload Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Region1

-- the TensorCore's buffer contents when the call is entered
variable (V : (c : Dev nD) → (b : Ref sig .tc) → Buf (Elt Ideal) ((c : Thread nD τ).loc b))

/-- The index maps over the grid: the cloud's block moves along the points with the grid point, the row-minimum array's
    block along its rows with it; the reference cloud and the column-minimum array stay whole. -/
private theorem idx_facts0 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- Block t of the cloud holds its points 64·t … 64·t + 63. -/
private theorem pblk1_apply (c : Dev nD) (t : Fin cfg1.N) (b : Fin 8) (r : Fin 64) (k : Fin 3) (n : Fin 4096)
    (hn : n.val = 64 * t.val + r.val) :
    pblk1 (F := Ideal) V c t (ix3 b r k) = (V c main_v5 : S8x4096x3.Idx → EReal) (ix3 b n k) := by
  obtain ⟨e0, e1, e2, -⟩ := idx_facts0 t
  unfold pblk1 iblk1
  rw [View.read_apply]
  show (V c main_v5 : S8x4096x3.Idx → EReal) _ = (V c main_v5 : S8x4096x3.Idx → EReal) _
  congr 1
  funext a
  apply Fin.ext
  match a with
  | ⟨0, _⟩ => show win1_0.index t (0 : Fin 3) * 8 + 1 * b.val = b.val; omega
  | ⟨1, _⟩ => show win1_0.index t (1 : Fin 3) * 64 + 1 * r.val = n.val; omega
  | ⟨2, _⟩ => show win1_0.index t (2 : Fin 3) * 3 + 1 * k.val = k.val; omega

/-- The reference cloud's block is the whole cloud. -/
private theorem qblk1_apply (c : Dev nD) (t : Fin cfg1.N) (b : Fin 8) (j : Fin 4096) (k : Fin 3) :
    qblk1 (F := Ideal) V c t (ix3 b j k) = (V c main_arg4 : S8x4096x3.Idx → EReal) (ix3 b j k) := by
  obtain ⟨-, -, -, e0, e1, e2, -⟩ := idx_facts0 t
  unfold qblk1 iblk1
  rw [View.read_apply]
  show (V c main_arg4 : S8x4096x3.Idx → EReal) _ = (V c main_arg4 : S8x4096x3.Idx → EReal) _
  congr 1
  funext a
  apply Fin.ext
  match a with
  | ⟨0, _⟩ => show win1_1.index t (0 : Fin 3) * 8 + 1 * b.val = b.val; omega
  | ⟨1, _⟩ => show win1_1.index t (1 : Fin 3) * 4096 + 1 * j.val = j.val; omega
  | ⟨2, _⟩ => show win1_1.index t (2 : Fin 3) * 3 + 1 * k.val = k.val; omega

/-- The clamped distance reads the first cloud at one point and the second cloud at one point. -/
private theorem dist_congr {N N' M M' : ℕ} (p : Fin 8 → Fin N → Fin 3 → EReal) (p' : Fin 8 → Fin N' → Fin 3 → EReal)
    (q : Fin 8 → Fin M → Fin 3 → EReal) (q' : Fin 8 → Fin M' → Fin 3 → EReal) (b : Fin 8) (n : Fin N) (n' : Fin N')
    (j : Fin M) (j' : Fin M') (hp : ∀ k, p b n k = p' b n' k) (hq : ∀ k, q b j k = q' b j' k) :
    Spec.dist p q b n j = Spec.dist p' q' b n' j' := by
  unfold Spec.dist Spec.sqNorm Spec.inner
  simp only [hp, hq]

/-- The lower bounds of a running minimum over blocks of 64: below what was held and below the next 64 entries is below
    the seed and below every entry met so far. -/
private theorem le_min_block (D : Fin 4096 → EReal) (g : Fin 64 → EReal) (s : EReal) (m : ℕ) (hm : 64 * (m + 1) ≤ 4096)
    (hg : ∀ (r : Fin 64) (i : Fin 4096), i.val = 64 * m + r.val → g r = D i)
    (hs : ∀ x : EReal, x ≤ s ↔ x ≤ top ∧ ∀ i : Fin 4096, i.val < 64 * m → x ≤ D i) (x : EReal) :
    x ≤ min s ((Finset.univ : Finset (Fin 64)).fold min top g)
      ↔ x ≤ top ∧ ∀ i : Fin 4096, i.val < 64 * (m + 1) → x ≤ D i := by
  rw [le_min_iff, Finset.le_fold_min, hs]
  constructor
  · rintro ⟨⟨ht, h1⟩, -, h2⟩
    refine ⟨ht, fun i hi => ?_⟩
    by_cases h : i.val < 64 * m
    · exact h1 i h
    · have e := hg ⟨i.val - 64 * m, by omega⟩ i (by show i.val = 64 * m + (i.val - 64 * m); omega)
      rw [← e]
      exact h2 _ (Finset.mem_univ _)
  · rintro ⟨ht, h⟩
    refine ⟨⟨ht, fun i hi => h i (by omega)⟩, ht, fun r _ => ?_⟩
    have hr := r.isLt
    rw [hg r ⟨64 * m + r.val, by omega⟩ rfl]
    exact h _ (by show 64 * m + r.val < 64 * (m + 1); omega)

/-- The distances from point r of block t are the distances from point 64·t + r of the cloud. -/
private theorem dist_blk0 (c : Dev nD) (t : Fin cfg1.N) (b : Fin 8) (r : Fin 64) (n : Fin 4096)
    (hn : n.val = 64 * t.val + r.val) (j : Fin 4096) :
    Spec.dist (cloud (pblk1 (F := Ideal) V c t)) (cloud (qblk1 (F := Ideal) V c t)) b r j
      = Spec.dist (cloud (V c main_v5 : S8x4096x3.Idx → EReal)) (cloud (V c main_arg4 : S8x4096x3.Idx → EReal)) b n j :=
  dist_congr _ _ _ _ b r n j j (fun k => pblk1_apply V c t b r k n hn) (fun k => qblk1_apply V c t b j k)

/-- So is the least of them. -/
private theorem rowMin_blk0 (c : Dev nD) (t : Fin cfg1.N) (b : Fin 8) (r : Fin 64) (n : Fin 4096)
    (hn : n.val = 64 * t.val + r.val) :
    rowMin (cloud (pblk1 (F := Ideal) V c t)) (cloud (qblk1 (F := Ideal) V c t)) b r
      = rowMin (cloud (V c main_v5 : S8x4096x3.Idx → EReal)) (cloud (V c main_arg4 : S8x4096x3.Idx → EReal)) b n := by
  unfold rowMin
  exact congrArg (fun f => Finset.fold min top f Finset.univ) (funext fun j => dist_blk0 V c t b r n hn j)

/-- The row-minimum array the call leaves: entry (n, b) is the least distance from point n of batch b. -/
private abbrev rowsG0 (c : Dev nD) : S4096x8.Idx → EReal := fun i =>
  rowMin (cloud (V c main_v5 : S8x4096x3.Idx → EReal)) (cloud (V c main_arg4 : S8x4096x3.Idx → EReal))
    ⟨(i 1).val, (i 1).isLt⟩ ⟨(i 0).val, (i 0).isLt⟩

/-- What point t writes back into the row-minimum array is block t of that array. -/
private theorem flushed0_2 (c : Dev nD) (t : Fin cfg1.N) :
    (dat1 (F := Ideal) V c).flushed 2 t = ((cfg1.win 2).blk t).view.read (Elt Ideal) (rowsG0 V c) := by
  obtain ⟨-, -, -, -, -, -, e0, e1, -⟩ := idx_facts0 t
  have hN : cfg1.N = 64 := N_1
  have ht := t.isLt
  show (cfg1.win 2).cut (grid1.coords t) ((dat1 (F := Ideal) V c).after 2 t) = _
  rw [after1_2]
  funext y
  obtain ⟨r, b, rfl⟩ : ∃ (r : Fin 64) (b : Fin 8), y = ix2 r b := ⟨y 0, y 1, eq_ix2 y⟩
  have hr := r.isLt
  show k1_pay3 (F := Ideal) (pblk1 V c t) (qblk1 V c t) (ix2 r b) = rowsG0 V c (((cfg1.win 2).blk t).view.emb (ix2 r b))
  have hemb : ((cfg1.win 2).blk t).view.emb (ix2 r b) = (ix2 (⟨64 * t.val + r.val, by omega⟩ : Fin 4096) b : S4096x8.Idx) := by
    funext a
    apply Fin.ext
    match a with
    | ⟨0, _⟩ => show win1_2.index t (0 : Fin 2) * 64 + 1 * r.val = 64 * t.val + r.val; omega
    | ⟨1, _⟩ => show win1_2.index t (1 : Fin 2) * 8 + 1 * b.val = b.val; omega
  rw [hemb]
  exact (pay3_apply (pblk1 (F := Ideal) V c t) (qblk1 (F := Ideal) V c t) r b).trans (rowMin_blk0 V c t b r _ rfl)

/-- An index of the row-minimum array is in point t's block iff its row is one of the block's 64. -/
private theorem mem_blk1_2 (t : Fin cfg1.N) (i : S4096x8.Idx) :
    i ∈ ((cfg1.win 2).blk t).view.set
      ↔ ∀ a : Fin 2, win1_2.index t a * S64x8.size a ≤ (i a).val ∧ (i a).val < win1_2.index t a * S64x8.size a + S64x8.size a := by
  show i ∈ ((View.whole (Pipeline.arrRef spec1 2)).slice (win1_2.rect t)).set ↔ _
  rw [View.set_slice_whole, Rect.mem_set_unit]
  exact Iff.rfl

/-- The blocks tile the array: row n is in the block of point n / 64. -/
private theorem cover0_2 (i : S4096x8.Idx) :
    ∃ t : Fin cfg1.N, (cfg1.win 2).flush t = true ∧ i ∈ ((cfg1.win 2).blk t).view.set := by
  have hN : cfg1.N = 64 := N_1
  have hi0 : (i 0).val < 4096 := (i 0).isLt
  have hi1 : (i 1).val < 8 := (i 1).isLt
  let t : Fin cfg1.N := ⟨(i 0).val / 64, by omega⟩
  obtain ⟨-, -, -, -, -, -, e0, e1, -⟩ := idx_facts0 t
  have e0' : win1_2.index t (0 : Fin 2) = (i 0).val / 64 := e0
  refine ⟨t, flush1_2 t, ?_⟩
  rw [mem_blk1_2]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 8 ≤ (i 1).val ∧ (i 1).val < win1_2.index t (1 : Fin 2) * 8 + 8; omega

/-- The distances to point j of the reference cloud from the points of the cloud, in batch b. -/
private abbrev colD0 (c : Dev nD) (b : Fin 8) (j : Fin 4096) : Fin 4096 → EReal := fun n =>
  Spec.dist (cloud (V c main_v5 : S8x4096x3.Idx → EReal)) (cloud (V c main_arg4 : S8x4096x3.Idx → EReal)) b n j

/-- The running minimum after point n, at (b, j): its lower bounds are the lower bounds of +∞ and of the distances from
    the cloud's points below 64·(n + 1). -/
private theorem le_scr1 (c : Dev nD) (b : Fin 8) (j : Fin 4096) : ∀ (n : ℕ) (h : n < cfg1.N) (x : EReal),
    x ≤ scr1 (F := Ideal) V c n h (ix2 b j) ↔ x ≤ top ∧ ∀ i : Fin 4096, i.val < 64 * (n + 1) → x ≤ colD0 V c b j i
  | 0, h, x => by
    have e : scr1 (F := Ideal) V c 0 h (ix2 b j)
        = min top (colMin (cloud (pblk1 (F := Ideal) V c ⟨0, h⟩)) (cloud (qblk1 (F := Ideal) V c ⟨0, h⟩)) b j) :=
      (pay4_apply (pblk1 (F := Ideal) V c ⟨0, h⟩) (qblk1 (F := Ideal) V c ⟨0, h⟩) (k1_pay1 (F := Ideal)) b j).trans
        (congrArg (fun z => min z (colMin (cloud (pblk1 (F := Ideal) V c ⟨0, h⟩)) (cloud (qblk1 (F := Ideal) V c ⟨0, h⟩)) b j))
          (pay1_apply b j))
    rw [e]
    unfold colMin
    refine le_min_block (colD0 V c b j)
      (fun r => Spec.dist (cloud (pblk1 (F := Ideal) V c ⟨0, h⟩)) (cloud (qblk1 (F := Ideal) V c ⟨0, h⟩)) b r j) top 0 (by omega)
      (fun r i hi => dist_blk0 V c ⟨0, h⟩ b r i hi j) (fun y => ?_) x
    exact ⟨fun hy => ⟨hy, fun i hi => absurd hi (by omega)⟩, fun hy => hy.1⟩
  | n + 1, h, x => by
    have hN : cfg1.N = 64 := N_1
    have e : scr1 (F := Ideal) V c (n + 1) h (ix2 b j)
        = min (scr1 (F := Ideal) V c n (Nat.lt_of_succ_lt h) (ix2 b j))
            (colMin (cloud (pblk1 (F := Ideal) V c ⟨n + 1, h⟩)) (cloud (qblk1 (F := Ideal) V c ⟨n + 1, h⟩)) b j) :=
      pay4_apply (pblk1 (F := Ideal) V c ⟨n + 1, h⟩) (qblk1 (F := Ideal) V c ⟨n + 1, h⟩)
        (scr1 (F := Ideal) V c n (Nat.lt_of_succ_lt h)) b j
    rw [e]
    unfold colMin
    exact le_min_block (colD0 V c b j)
      (fun r => Spec.dist (cloud (pblk1 (F := Ideal) V c ⟨n + 1, h⟩)) (cloud (qblk1 (F := Ideal) V c ⟨n + 1, h⟩)) b r j)
      (scr1 (F := Ideal) V c n (Nat.lt_of_succ_lt h) (ix2 b j)) (n + 1) (by omega)
      (fun r i hi => dist_blk0 V c ⟨n + 1, h⟩ b r i hi j) (le_scr1 c b j n (Nat.lt_of_succ_lt h)) x

/-- After the last point the running minimum is the minimum over the whole cloud. -/
private theorem scr1_last (c : Dev nD) (t : Fin cfg1.N) (ht : t.val = 63) (b : Fin 8) (j : Fin 4096) :
    scr1 (F := Ideal) V c t.val t.isLt (ix2 b j)
      = colMin (cloud (V c main_v5 : S8x4096x3.Idx → EReal)) (cloud (V c main_arg4 : S8x4096x3.Idx → EReal)) b j := by
  refine eq_of_forall_le_iff fun x => ?_
  rw [le_scr1 V c b j t.val t.isLt x]
  unfold colMin
  rw [Finset.le_fold_min]
  exact and_congr_right fun _ =>
    ⟨fun h i _ => h i (by have := i.isLt; omega), fun h i _ => h i (Finset.mem_univ _)⟩

/-- The column-minimum array the call leaves: entry (b, j) is the least distance from point j of the reference cloud. -/
private abbrev colsG0 (c : Dev nD) : S8x4096.Idx → EReal := fun i =>
  colMin (cloud (V c main_v5 : S8x4096x3.Idx → EReal)) (cloud (V c main_arg4 : S8x4096x3.Idx → EReal))
    ⟨(i 0).val, (i 0).isLt⟩ ⟨(i 1).val, (i 1).isLt⟩

/-- The one write-back into the column-minimum array, after the last point, writes that array whole. -/
private theorem flushed0_3 (c : Dev nD) (t : Fin cfg1.N) (hf : (cfg1.win 3).flush t = true) :
    (dat1 (F := Ideal) V c).flushed 3 t = ((cfg1.win 3).blk t).view.read (Elt Ideal) (colsG0 V c) := by
  obtain ⟨-, -, -, -, -, -, -, -, e0, e1⟩ := idx_facts0 t
  have hN : cfg1.N = 64 := N_1
  have ht : t.val = 63 := by have := (flush1_3 t).mp hf; have := t.isLt; omega
  show (cfg1.win 3).cut (grid1.coords t) ((dat1 (F := Ideal) V c).after 3 t) = _
  rw [after1_3]
  funext y
  obtain ⟨b, j, rfl⟩ : ∃ (b : Fin 8) (j : Fin 4096), y = ix2 b j := ⟨y 0, y 1, eq_ix2 y⟩
  show scr1 (F := Ideal) V c t.val t.isLt (ix2 b j) = colsG0 V c (((cfg1.win 3).blk t).view.emb (ix2 b j))
  have hemb : ((cfg1.win 3).blk t).view.emb (ix2 b j) = (ix2 b j : S8x4096.Idx) := by
    funext a
    apply Fin.ext
    match a with
    | ⟨0, _⟩ => show win1_3.index t (0 : Fin 2) * 8 + 1 * b.val = b.val; omega
    | ⟨1, _⟩ => show win1_3.index t (1 : Fin 2) * 4096 + 1 * j.val = j.val; omega
  rw [hemb]
  exact scr1_last V c t ht b j

/-- An index of the column-minimum array is in point t's block iff each coordinate is in the block's range. -/
private theorem mem_blk1_3 (t : Fin cfg1.N) (i : S8x4096.Idx) :
    i ∈ ((cfg1.win 3).blk t).view.set
      ↔ ∀ a : Fin 2, win1_3.index t a * S8x4096.size a ≤ (i a).val ∧ (i a).val < win1_3.index t a * S8x4096.size a + S8x4096.size a := by
  show i ∈ ((View.whole (Pipeline.arrRef spec1 3)).slice (win1_3.rect t)).set ↔ _
  rw [View.set_slice_whole, Rect.mem_set_unit]
  exact Iff.rfl

/-- The last point's block is the whole array. -/
private theorem cover0_3 (i : S8x4096.Idx) :
    ∃ t : Fin cfg1.N, (cfg1.win 3).flush t = true ∧ i ∈ ((cfg1.win 3).blk t).view.set := by
  have hN : cfg1.N = 64 := N_1
  have hi0 : (i 0).val < 8 := (i 0).isLt
  have hi1 : (i 1).val < 4096 := (i 1).isLt
  let t : Fin cfg1.N := ⟨63, by omega⟩
  obtain ⟨-, -, -, -, -, -, -, -, e0, e1⟩ := idx_facts0 t
  refine ⟨t, (flush1_3 t).mpr (by show 63 % 64 = 63; omega), ?_⟩
  rw [mem_blk1_3]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 4096 ≤ (i 1).val ∧ (i 1).val < win1_3.index t (1 : Fin 2) * 4096 + 4096; omega

/-- Entry (n, b) of the row-minimum array after the call: the least distance from point n of batch b to the
    reference cloud. -/
theorem rows1_apply (c : Dev nD) (n : Fin 4096) (b : Fin 8) :
    ((dat1 (F := Ideal) V c).arrAt 2 cfg1.N : S4096x8.Idx → EReal) (ix2 n b)
      = rowMin (cloud (V c main_v5 : S8x4096x3.Idx → EReal)) (cloud (V c main_arg4 : S8x4096x3.Idx → EReal)) b n := by
  refine (congrFun ((dat1 (F := Ideal) V c).arrAt_eq_of_cover 2 (rowsG0 V c) (fun t _ => flushed0_2 V c t) cover0_2) (ix2 n b)).trans ?_
  rfl

/-- Entry (b, j) of the column-minimum array after the call: the least distance from point j of the reference cloud
    to the cloud, in batch b. -/
theorem cols1_apply (c : Dev nD) (b : Fin 8) (j : Fin 4096) :
    ((dat1 (F := Ideal) V c).arrAt 3 cfg1.N : S8x4096.Idx → EReal) (ix2 b j)
      = colMin (cloud (V c main_v5 : S8x4096x3.Idx → EReal)) (cloud (V c main_arg4 : S8x4096x3.Idx → EReal)) b j := by
  refine (congrFun ((dat1 (F := Ideal) V c).arrAt_eq_of_cover 3 (colsG0 V c) (fun t hf => flushed0_3 V c t hf) cover0_3) (ix2 b j)).trans ?_
  rfl

end Region1

end Cert.KernelIdeal.Arrays

end
-- ==== Proof.RefValue.lean ====
/-
  The reference's stages read index by index over the extended reals: its clamped squared distances of the
  transposed cloud to the reference cloud are `Spec.dist`, and its two minimum-reductions (over the reference cloud's
  points, and over the cloud's own points) are `Spec.rowMin` and `Spec.colMin`: a host `reduce` with `minimum` from +∞
  over one axis is the fold of `min` over that axis's coordinates.
-/
import proofs.«158115_j85152021610990_1_alg».proof.Proof.Gen.ReferenceIdeal.Read
import proofs.«158115_j85152021610990_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Read Cert.Spec
open Idealize.ShloMosaic Idealize.ShloMosaic.TcCoe Idealize.ShloMosaic.ValueIdx

/-- A block of points as a cloud: batch, point, coordinate. -/
abbrev cloud {n : ℕ} (x : (⟨3, ![8, n, 3]⟩ : Shape).Idx → EReal) : Fin 8 → Fin n → Fin 3 → EReal :=
  fun b i k => x (ix3 b i k)

/-! ## The coarse cloud (1024 points) -/

/-- |p b n|² of the transposed coarse cloud, read at (b, n): the host sum's zero seed is the extended real 0. -/
private theorem sqP_coarse (x2 : Vec Ideal S8x3x1024 .f32) (b : Fin 8) (n : Fin 1024) :
    val_main_v6 (F := Ideal) x2 (ix2 b n) = sqNorm (cloud (val_main_v4 (F := Ideal) x2)) b n := by
  rw [val_main_v6_apply, val_main_cst_1_apply, Ideal.ofBits_def, Ideal.ofBits_zero_f32, zero_add]
  unfold sqNorm
  refine Finset.sum_congr rfl fun k _ => ?_
  rw [val_main_v5_apply, Ideal.mulf_def]
  have e : idx_main_v6 (ix2 b n) k = ix3 b n k :=
    funext fun a => Fin.ext (by match a with | ⟨0, _⟩ => rfl | ⟨1, _⟩ => rfl | ⟨2, _⟩ => rfl)
  rw [e]

/-- |q b j|² of the reference cloud, read at (b, j). -/
private theorem sqQ_coarse (x4 : Vec Ideal S8x4096x3 .f32) (b : Fin 8) (j : Fin 4096) :
    val_main_v8 (F := Ideal) x4 (ix2 b j) = sqNorm (cloud x4) b j := by
  rw [val_main_v8_apply, val_main_cst_2_apply, Ideal.ofBits_def, Ideal.ofBits_zero_f32, zero_add]
  unfold sqNorm
  refine Finset.sum_congr rfl fun k _ => ?_
  rw [val_main_v7_apply, Ideal.mulf_def]
  have e : idx_main_v8 (ix2 b j) k = ix3 b j k :=
    funext fun a => Fin.ext (by match a with | ⟨0, _⟩ => rfl | ⟨1, _⟩ => rfl | ⟨2, _⟩ => rfl)
  rw [e]

/-- ⟨p b n, q b j⟩ read at (b, n, j). -/
private theorem inner_coarse (x2 : Vec Ideal S8x3x1024 .f32) (x4 : Vec Ideal S8x4096x3 .f32) (b : Fin 8) (n : Fin 1024) (j : Fin 4096) :
    val_main_v9 (F := Ideal) x2 x4 (ix3 b n j) = Spec.inner (cloud (val_main_v4 (F := Ideal) x2)) (cloud x4) b n j := by
  rw [val_main_v9_apply]
  unfold Spec.inner
  refine Finset.sum_congr rfl fun k _ => ?_
  have el : lidx_main_v9 (ix3 b n j) k = ix3 b n k :=
    funext fun a => Fin.ext (by match a with | ⟨0, _⟩ => rfl | ⟨1, _⟩ => rfl | ⟨2, _⟩ => rfl)
  have er : ridx_main_v9 (ix3 b n j) k = ix3 b j k :=
    funext fun a => Fin.ext (by match a with | ⟨0, _⟩ => rfl | ⟨1, _⟩ => rfl | ⟨2, _⟩ => rfl)
  rw [el, er]

theorem dist_coarse (x2 : Vec Ideal S8x3x1024 .f32) (x4 : Vec Ideal S8x4096x3 .f32) (b : Fin 8) (n : Fin 1024) (j : Fin 4096) :
    val_main_v19 (F := Ideal) x2 x4 (ix3 b n j) = dist (cloud (val_main_v4 (F := Ideal) x2)) (cloud x4) b n j := by
  rw [val_main_v19_apply, val_main_v17_apply, val_main_v14_apply, val_main_v16_apply, val_main_v12_apply, val_main_v10_apply,
    val_main_v13_apply, val_main_v11_apply, val_main_v15_apply, val_main_v18_apply, val_main_cst_3_apply, val_main_cst_4_apply]
  have e1 : idx_main_v10 (idx_main_v12 (ix3 b n j)) = ix2 b n :=
    funext fun a => Fin.ext (by match a with | ⟨0, _⟩ => rfl | ⟨1, _⟩ => rfl)
  have e2 : idx_main_v11 (idx_main_v13 (ix3 b n j)) = ix2 b j :=
    funext fun a => Fin.ext (by match a with | ⟨0, _⟩ => rfl | ⟨1, _⟩ => rfl)
  rw [e1, e2, sqP_coarse, sqQ_coarse, inner_coarse]
  rfl

/-- The index (b, n) with the coordinate j put back on the last axis is (b, n, j). -/
private theorem lift_row_coarse (h : S8x1024x4096.Reduces [2] S8x1024) (b : Fin 8) (n : Fin 1024) (j : Fin 4096) :
    h.lift (ix2 b n) j = ix3 b n j :=
  funext fun a => Fin.ext (by match a with | ⟨0, _⟩ => rfl | ⟨1, _⟩ => rfl | ⟨2, _⟩ => rfl)

/-- The index (b, j) with the coordinate n put back on the middle axis is (b, n, j). -/
private theorem lift_col_coarse (h : S8x1024x4096.Reduces [1] S8x4096) (b : Fin 8) (n : Fin 1024) (j : Fin 4096) :
    h.lift (ix2 b j) n = ix3 b n j :=
  funext fun a => Fin.ext (by match a with | ⟨0, _⟩ => rfl | ⟨1, _⟩ => rfl | ⟨2, _⟩ => rfl)

theorem rowMin_coarse (x2 : Vec Ideal S8x3x1024 .f32) (x4 : Vec Ideal S8x4096x3 .f32) (b : Fin 8) (n : Fin 1024) :
    val_main_v20 (F := Ideal) x2 x4 (ix2 b n) = rowMin (cloud (val_main_v4 (F := Ideal) x2)) (cloud x4) b n := by
  have h : S8x1024x4096.Reduces [2] S8x1024 := by decide
  unfold val_main_v20
  rw [Host.reduce_eq_fold_single FloatOps.minimumf _ _ Facts₀.reducesTo_S8x1024x4096_S8x1024_d2 h Facts₀.h_S_, val_main_cst_5_apply]
  have hf : (val_main_v19 (F := Ideal) x2 x4 ∘ h.lift (ix2 b n))
      = fun j : Fin 4096 => dist (cloud (val_main_v4 (F := Ideal) x2)) (cloud x4) b n j :=
    funext fun (j : Fin 4096) =>
      (congrArg (val_main_v19 (F := Ideal) x2 x4) (lift_row_coarse h b n j)).trans (dist_coarse x2 x4 b n j)
  exact congrArg (fun f => Finset.fold min top f (Finset.univ : Finset (Fin 4096))) hf

theorem colMin_coarse (x2 : Vec Ideal S8x3x1024 .f32) (x4 : Vec Ideal S8x4096x3 .f32) (b : Fin 8) (j : Fin 4096) :
    val_main_v21 (F := Ideal) x2 x4 (ix2 b j) = colMin (cloud (val_main_v4 (F := Ideal) x2)) (cloud x4) b j := by
  have h : S8x1024x4096.Reduces [1] S8x4096 := by decide
  unfold val_main_v21
  rw [Host.reduce_eq_fold_single FloatOps.minimumf _ _ Facts₀.reducesTo_S8x1024x4096_S8x4096_d1 h Facts₀.h_S_, val_main_cst_6_apply]
  have hf : (val_main_v19 (F := Ideal) x2 x4 ∘ h.lift (ix2 b j))
      = fun n : Fin 1024 => dist (cloud (val_main_v4 (F := Ideal) x2)) (cloud x4) b n j :=
    funext fun (n : Fin 1024) =>
      (congrArg (val_main_v19 (F := Ideal) x2 x4) (lift_col_coarse h b n j)).trans (dist_coarse x2 x4 b n j)
  exact congrArg (fun f => Finset.fold min top f (Finset.univ : Finset (Fin 1024))) hf

/-! ## The fine cloud (4096 points) -/

/-- |p b n|² of the transposed fine cloud, read at (b, n): the host sum's zero seed is the extended real 0. -/
private theorem sqP_fine (x3 : Vec Ideal S8x3x4096 .f32) (b : Fin 8) (n : Fin 4096) :
    val_main_v24 (F := Ideal) x3 (ix2 b n) = sqNorm (cloud (val_main_v22 (F := Ideal) x3)) b n := by
  rw [val_main_v24_apply, val_main_cst_7_apply, Ideal.ofBits_def, Ideal.ofBits_zero_f32, zero_add]
  unfold sqNorm
  refine Finset.sum_congr rfl fun k _ => ?_
  rw [val_main_v23_apply, Ideal.mulf_def]
  have e : idx_main_v24 (ix2 b n) k = ix3 b n k :=
    funext fun a => Fin.ext (by match a with | ⟨0, _⟩ => rfl | ⟨1, _⟩ => rfl | ⟨2, _⟩ => rfl)
  rw [e]

/-- |q b j|² of the reference cloud, read at (b, j). -/
private theorem sqQ_fine (x4 : Vec Ideal S8x4096x3 .f32) (b : Fin 8) (j : Fin 4096) :
    val_main_v26 (F := Ideal) x4 (ix2 b j) = sqNorm (cloud x4) b j := by
  rw [val_main_v26_apply, val_main_cst_8_apply, Ideal.ofBits_def, Ideal.ofBits_zero_f32, zero_add]
  unfold sqNorm
  refine Finset.sum_congr rfl fun k _ => ?_
  rw [val_main_v25_apply, Ideal.mulf_def]
  have e : idx_main_v26 (ix2 b j) k = ix3 b j k :=
    funext fun a => Fin.ext (by match a with | ⟨0, _⟩ => rfl | ⟨1, _⟩ => rfl | ⟨2, _⟩ => rfl)
  rw [e]

/-- ⟨p b n, q b j⟩ read at (b, n, j). -/
private theorem inner_fine (x3 : Vec Ideal S8x3x4096 .f32) (x4 : Vec Ideal S8x4096x3 .f32) (b : Fin 8) (n : Fin 4096) (j : Fin 4096) :
    val_main_v27 (F := Ideal) x3 x4 (ix3 b n j) = Spec.inner (cloud (val_main_v22 (F := Ideal) x3)) (cloud x4) b n j := by
  rw [val_main_v27_apply]
  unfold Spec.inner
  refine Finset.sum_congr rfl fun k _ => ?_
  have el : lidx_main_v27 (ix3 b n j) k = ix3 b n k :=
    funext fun a => Fin.ext (by match a with | ⟨0, _⟩ => rfl | ⟨1, _⟩ => rfl | ⟨2, _⟩ => rfl)
  have er : ridx_main_v27 (ix3 b n j) k = ix3 b j k :=
    funext fun a => Fin.ext (by match a with | ⟨0, _⟩ => rfl | ⟨1, _⟩ => rfl | ⟨2, _⟩ => rfl)
  rw [el, er]

theorem dist_fine (x3 : Vec Ideal S8x3x4096 .f32) (x4 : Vec Ideal S8x4096x3 .f32) (b : Fin 8) (n : Fin 4096) (j : Fin 4096) :
    val_main_v37 (F := Ideal) x3 x4 (ix3 b n j) = dist (cloud (val_main_v22 (F := Ideal) x3)) (cloud x4) b n j := by
  rw [val_main_v37_apply, val_main_v35_apply, val_main_v32_apply, val_main_v34_apply, val_main_v30_apply, val_main_v28_apply,
    val_main_v31_apply, val_main_v29_apply, val_main_v33_apply, val_main_v36_apply, val_main_cst_9_apply, val_main_cst_10_apply]
  have e1 : idx_main_v28 (idx_main_v30 (ix3 b n j)) = ix2 b n :=
    funext fun a => Fin.ext (by match a with | ⟨0, _⟩ => rfl | ⟨1, _⟩ => rfl)
  have e2 : idx_main_v29 (idx_main_v31 (ix3 b n j)) = ix2 b j :=
    funext fun a => Fin.ext (by match a with | ⟨0, _⟩ => rfl | ⟨1, _⟩ => rfl)
  rw [e1, e2, sqP_fine, sqQ_fine, inner_fine]
  rfl

/-- The index (b, n) with the coordinate j put back on the last axis is (b, n, j). -/
private theorem lift_row_fine (h : S8x4096x4096.Reduces [2] S8x4096) (b : Fin 8) (n : Fin 4096) (j : Fin 4096) :
    h.lift (ix2 b n) j = ix3 b n j :=
  funext fun a => Fin.ext (by match a with | ⟨0, _⟩ => rfl | ⟨1, _⟩ => rfl | ⟨2, _⟩ => rfl)

/-- The index (b, j) with the coordinate n put back on the middle axis is (b, n, j). -/
private theorem lift_col_fine (h : S8x4096x4096.Reduces [1] S8x4096) (b : Fin 8) (n : Fin 4096) (j : Fin 4096) :
    h.lift (ix2 b j) n = ix3 b n j :=
  funext fun a => Fin.ext (by match a with | ⟨0, _⟩ => rfl | ⟨1, _⟩ => rfl | ⟨2, _⟩ => rfl)

theorem rowMin_fine (x3 : Vec Ideal S8x3x4096 .f32) (x4 : Vec Ideal S8x4096x3 .f32) (b : Fin 8) (n : Fin 4096) :
    val_main_v38 (F := Ideal) x3 x4 (ix2 b n) = rowMin (cloud (val_main_v22 (F := Ideal) x3)) (cloud x4) b n := by
  have h : S8x4096x4096.Reduces [2] S8x4096 := by decide
  unfold val_main_v38
  rw [Host.reduce_eq_fold_single FloatOps.minimumf _ _ Facts₀.reducesTo_S8x4096x4096_S8x4096_d2 h Facts₀.h_S_, val_main_cst_11_apply]
  have hf : (val_main_v37 (F := Ideal) x3 x4 ∘ h.lift (ix2 b n))
      = fun j : Fin 4096 => dist (cloud (val_main_v22 (F := Ideal) x3)) (cloud x4) b n j :=
    funext fun (j : Fin 4096) =>
      (congrArg (val_main_v37 (F := Ideal) x3 x4) (lift_row_fine h b n j)).trans (dist_fine x3 x4 b n j)
  exact congrArg (fun f => Finset.fold min top f (Finset.univ : Finset (Fin 4096))) hf

theorem colMin_fine (x3 : Vec Ideal S8x3x4096 .f32) (x4 : Vec Ideal S8x4096x3 .f32) (b : Fin 8) (j : Fin 4096) :
    val_main_v39 (F := Ideal) x3 x4 (ix2 b j) = colMin (cloud (val_main_v22 (F := Ideal) x3)) (cloud x4) b j := by
  have h : S8x4096x4096.Reduces [1] S8x4096 := by decide
  unfold val_main_v39
  rw [Host.reduce_eq_fold_single FloatOps.minimumf _ _ Facts₀.reducesTo_S8x4096x4096_S8x4096_d1 h Facts₀.h_S_, val_main_cst_12_apply]
  have hf : (val_main_v37 (F := Ideal) x3 x4 ∘ h.lift (ix2 b j))
      = fun n : Fin 4096 => dist (cloud (val_main_v22 (F := Ideal) x3)) (cloud x4) b n j :=
    funext fun (n : Fin 4096) =>
      (congrArg (val_main_v37 (F := Ideal) x3 x4) (lift_col_fine h b n j)).trans (dist_fine x3 x4 b n j)
  exact congrArg (fun f => Finset.fold min top f (Finset.univ : Finset (Fin 4096))) hf

end Cert.ReferenceIdeal.RefValue

end
-- ==== Proof.Bridge.lean ====
/-
  The two programs' results are the same extended real.

  Both programs end with the same chain of host operations: the mean of the squared differences of the first two
  arguments, plus for each cloud the mean of its row minima plus the mean of its column minima. The kernel program
  feeds that chain the arrays its two calls leave; the reference feeds it its own minimum-reductions. The column-minimum
  arrays are equal entry by entry (both are `Spec.colMin`). The row-minimum arrays hold the same entries
  (`Spec.rowMin`) laid out point-major in the kernel program and batch-major in the reference; their means are the
  sums of all entries divided by the same count, and a sum over all entries does not depend on the layout.
-/
import proofs.«158115_j85152021610990_1_alg».proof.Proof.KernelIdealLaunch
import proofs.«158115_j85152021610990_1_alg».proof.Proof.KernelIdealArrays0
import proofs.«158115_j85152021610990_1_alg».proof.Proof.KernelIdealArrays1
import proofs.«158115_j85152021610990_1_alg».proof.Proof.RefValue
import Idealize.ShloMosaic.Lib.StableHlo.Run
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx

/-! ## A sum over every entry does not depend on the layout -/

/-- The sum of all entries of a point-major 1024 × 8 array is the sum of all entries of the batch-major 8 × 1024 array
    holding the same entries. -/
private theorem sum_swap_coarse (r : Vec Ideal Cert.KernelIdeal.S1024x8 .f32) (v : Vec Ideal Cert.ReferenceIdeal.S8x1024 .f32)
    (h : ∀ (n : Fin 1024) (b : Fin 8), r (ix2 n b) = v (ix2 b n)) :
    Host.reduceAdd (F := Ideal) r (constant (F := Ideal) Cert.KernelIdeal.S_ .f32 0x00000000#32)
        Cert.KernelIdeal.Facts₀.reducesTo_S1024x8_S_d0_1 Cert.KernelIdeal.Facts₀.h_S_
      = Host.reduceAdd (F := Ideal) v (constant (F := Ideal) Cert.ReferenceIdeal.S_ .f32 0x00000000#32)
        Cert.ReferenceIdeal.Facts₀.reducesTo_S8x1024_S_d0_1 Cert.ReferenceIdeal.Facts₀.h_S_ := by
  funext i
  simp only [Host.reduceAdd, Ideal.hostReduceAdd_def]
  rw [Ideal.hostReduceAdd_total _ (fun b => b.elim0), Ideal.hostReduceAdd_total _ (fun b => b.elim0)]
  refine congrArg (_ + ·) ?_
  rw [sum_idx2, sum_idx2, Finset.sum_comm]
  exact Finset.sum_congr rfl fun b _ => Finset.sum_congr rfl fun n _ => h n b

/-- The same at 4096 points. -/
private theorem sum_swap_fine (r : Vec Ideal Cert.KernelIdeal.S4096x8 .f32) (v : Vec Ideal Cert.ReferenceIdeal.S8x4096 .f32)
    (h : ∀ (n : Fin 4096) (b : Fin 8), r (ix2 n b) = v (ix2 b n)) :
    Host.reduceAdd (F := Ideal) r (constant (F := Ideal) Cert.KernelIdeal.S_ .f32 0x00000000#32)
        Cert.KernelIdeal.Facts₀.reducesTo_S4096x8_S_d0_1 Cert.KernelIdeal.Facts₀.h_S_
      = Host.reduceAdd (F := Ideal) v (constant (F := Ideal) Cert.ReferenceIdeal.S_ .f32 0x00000000#32)
        Cert.ReferenceIdeal.Facts₀.reducesTo_S8x4096_S_d0_1 Cert.ReferenceIdeal.Facts₀.h_S_ := by
  funext i
  simp only [Host.reduceAdd, Ideal.hostReduceAdd_def]
  rw [Ideal.hostReduceAdd_total _ (fun b => b.elim0), Ideal.hostReduceAdd_total _ (fun b => b.elim0)]
  refine congrArg (_ + ·) ?_
  rw [sum_idx2, sum_idx2, Finset.sum_comm]
  exact Finset.sum_congr rfl fun b _ => Finset.sum_congr rfl fun n _ => h n b

/-- Equal arrays have equal sums (the two programs' shape facts are the same statements). -/
private theorem sum_same (r : Vec Ideal Cert.KernelIdeal.S8x4096 .f32) (v : Vec Ideal Cert.ReferenceIdeal.S8x4096 .f32)
    (h : ∀ (b : Fin 8) (j : Fin 4096), r (ix2 b j) = v (ix2 b j)) :
    Host.reduceAdd (F := Ideal) r (constant (F := Ideal) Cert.KernelIdeal.S_ .f32 0x00000000#32)
        Cert.KernelIdeal.Facts₀.reducesTo_S8x4096_S_d0_1 Cert.KernelIdeal.Facts₀.h_S_
      = Host.reduceAdd (F := Ideal) v (constant (F := Ideal) Cert.ReferenceIdeal.S_ .f32 0x00000000#32)
        Cert.ReferenceIdeal.Facts₀.reducesTo_S8x4096_S_d0_1 Cert.ReferenceIdeal.Facts₀.h_S_ := by
  have e : r = v := funext fun i => by rw [eq_ix2 i]; exact h (i 0) (i 1)
  rw [e]

section Pieces
open Cert.KernelIdeal Cert.KernelIdeal.Gen Cert.KernelIdeal.Region Idealize.ShloMosaic.StableHlo Cert.Spec
open Cert.ReferenceIdeal.Read (val_main_v3 val_main_v4 val_main_v22 val_main_v20 val_main_v21 val_main_v38 val_main_v39
  val_main_v40 val_main_v42 val_main_v45 val_main_v47 val_main_v51)

variable (m : (ℓ : Loc nD τ sig) → Buf (Elt Ideal) ℓ) (c : Dev nD)

set_option quotPrecheck false
local notation "A0" => (m ((c.tc : Thread nD τ).loc main_arg0))
local notation "A1" => (m ((c.tc : Thread nD τ).loc main_arg1))
local notation "A2" => (m ((c.tc : Thread nD τ).loc main_arg2))
local notation "A3" => (m ((c.tc : Thread nD τ).loc main_arg3))
local notation "A4" => (m ((c.tc : Thread nD τ).loc main_arg4))

/-! ## The host operations before the calls -/

/-- The first mean is the same term in both programs. -/
private theorem V1_v3 : Gen.V1 m c main_v3 = val_main_v3 (F := Ideal) A0 A1 := by
  show StableHlo.after hostOps0 _ (Proc.devRef .tc main_v3) = _
  after_results
  rfl

/-- The transposed coarse cloud. -/
private theorem V1_v4 : Gen.V1 m c main_v4 = val_main_v4 (F := Ideal) A2 := by
  show StableHlo.after hostOps0 _ (Proc.devRef .tc main_v4) = _
  after_results
  rfl

/-- The transposed fine cloud. -/
private theorem V1_v5 : Gen.V1 m c main_v5 = val_main_v22 (F := Ideal) A3 := by
  show StableHlo.after hostOps0 _ (Proc.devRef .tc main_v5) = _
  after_results
  rfl

/-- The reference cloud is as launched. -/
private theorem V1_arg4 : Gen.V1 m c main_arg4 = A4 :=
  Gen.V1_of m c main_arg4 (by decide)

/-! ## What the last host operations read -/

/-- The first mean is not written by either call. -/
private theorem V3_v3 : Gen.V3 m (outs m) c main_v3 = val_main_v3 (F := Ideal) A0 A1 := by
  rw [Gen.V3_of m (outs m) c main_v3 (by decide), Gen.V2_of m (outs m) c main_v3 (by decide)]
  exact V1_v3 m c

/-- The first call's row minima. -/
private theorem V3_v6_0 : Gen.V3 m (outs m) c main_v6_0 = rows0 m c := by
  rw [Gen.V3_of m (outs m) c main_v6_0 (by decide)]
  show Function.update (Function.update (Gen.V1 m c) main_v6_0 (outs m 2 main_v6_0 c)) main_v6_1 (outs m 2 main_v6_1 c) main_v6_0 = _
  rw [Function.update_of_ne (StableHlo.devRef_ne_of_ne (by decide)), Function.update_self, outs_v6_0]

/-- The first call's column minima. -/
private theorem V3_v6_1 : Gen.V3 m (outs m) c main_v6_1 = cols0 m c := by
  rw [Gen.V3_of m (outs m) c main_v6_1 (by decide)]
  show Function.update (Function.update (Gen.V1 m c) main_v6_0 (outs m 2 main_v6_0 c)) main_v6_1 (outs m 2 main_v6_1 c) main_v6_1 = _
  rw [Function.update_self, outs_v6_1]

/-- The second call's row minima. -/
private theorem V3_v7_0 : Gen.V3 m (outs m) c main_v7_0 = rows1 m c := by
  show Function.update (Function.update (Gen.V2 m (outs m) c) main_v7_0 (outs m 3 main_v7_0 c)) main_v7_1 (outs m 3 main_v7_1 c) main_v7_0 = _
  rw [Function.update_of_ne (StableHlo.devRef_ne_of_ne (by decide)), Function.update_self, outs_v7_0]

/-- The second call's column minima. -/
private theorem V3_v7_1 : Gen.V3 m (outs m) c main_v7_1 = cols1 m c := by
  show Function.update (Function.update (Gen.V2 m (outs m) c) main_v7_0 (outs m 3 main_v7_0 c)) main_v7_1 (outs m 3 main_v7_1 c) main_v7_1 = _
  rw [Function.update_self, outs_v7_1]

/-! ## The clouds the calls are entered with -/

private theorem VR1_v4 : (VR1 m c main_v4 : S8x1024x3.Idx → EReal) = val_main_v4 (F := Ideal) A2 := V1_v4 m c
private theorem VR1_arg4 : (VR1 m c main_arg4 : S8x4096x3.Idx → EReal) = A4 := V1_arg4 m c
private theorem VR2_v5 : (VR2 m c main_v5 : S8x4096x3.Idx → EReal) = val_main_v22 (F := Ideal) A3 :=
  (Gen.V2_of m (outsA m) c main_v5 (by decide)).trans (V1_v5 m c)
private theorem VR2_arg4 : (VR2 m c main_arg4 : S8x4096x3.Idx → EReal) = A4 :=
  (Gen.V2_of m (outsA m) c main_arg4 (by decide)).trans (V1_arg4 m c)

/-! ## The calls' arrays, entry by entry, are the reference's minimum-reductions -/

private theorem rows0_entry (n : Fin 1024) (b : Fin 8) :
    (rows0 m c : S1024x8.Idx → EReal) (ix2 n b) = val_main_v20 (F := Ideal) A2 A4 (ix2 b n) := by
  unfold rows0
  rw [Cert.KernelIdeal.Arrays.rows0_apply (VR1 m) c n b, VR1_v4 m c, VR1_arg4 m c]
  exact (Cert.ReferenceIdeal.RefValue.rowMin_coarse A2 A4 b n).symm

private theorem cols0_entry (b : Fin 8) (j : Fin 4096) :
    (cols0 m c : S8x4096.Idx → EReal) (ix2 b j) = val_main_v21 (F := Ideal) A2 A4 (ix2 b j) := by
  unfold cols0
  rw [Cert.KernelIdeal.Arrays.cols0_apply (VR1 m) c b j, VR1_v4 m c, VR1_arg4 m c]
  exact (Cert.ReferenceIdeal.RefValue.colMin_coarse A2 A4 b j).symm

private theorem rows1_entry (n : Fin 4096) (b : Fin 8) :
    (rows1 m c : S4096x8.Idx → EReal) (ix2 n b) = val_main_v38 (F := Ideal) A3 A4 (ix2 b n) := by
  unfold rows1
  rw [Cert.KernelIdeal.Arrays.rows1_apply (VR2 m) c n b, VR2_v5 m c, VR2_arg4 m c]
  exact (Cert.ReferenceIdeal.RefValue.rowMin_fine A3 A4 b n).symm

private theorem cols1_entry (b : Fin 8) (j : Fin 4096) :
    (cols1 m c : S8x4096.Idx → EReal) (ix2 b j) = val_main_v39 (F := Ideal) A3 A4 (ix2 b j) := by
  unfold cols1
  rw [Cert.KernelIdeal.Arrays.cols1_apply (VR2 m) c b j, VR2_v5 m c, VR2_arg4 m c]
  exact (Cert.ReferenceIdeal.RefValue.colMin_fine A3 A4 b j).symm

/-! ## The four sums the last host operations take -/

private theorem sum_rows0 :
    Host.reduceAdd (F := Ideal) (rows0 m c : Vec Ideal S1024x8 .f32) (constant (F := Ideal) S_ .f32 0x00000000#32)
        Facts₀.reducesTo_S1024x8_S_d0_1 Facts₀.h_S_ = val_main_v40 (F := Ideal) A2 A4 :=
  sum_swap_coarse _ _ (rows0_entry m c)

private theorem sum_cols0 :
    Host.reduceAdd (F := Ideal) (cols0 m c : Vec Ideal S8x4096 .f32) (constant (F := Ideal) S_ .f32 0x00000000#32)
        Facts₀.reducesTo_S8x4096_S_d0_1 Facts₀.h_S_ = val_main_v42 (F := Ideal) A2 A4 :=
  sum_same _ _ (cols0_entry m c)

private theorem sum_rows1 :
    Host.reduceAdd (F := Ideal) (rows1 m c : Vec Ideal S4096x8 .f32) (constant (F := Ideal) S_ .f32 0x00000000#32)
        Facts₀.reducesTo_S4096x8_S_d0_1 Facts₀.h_S_ = val_main_v45 (F := Ideal) A3 A4 :=
  sum_swap_fine _ _ (rows1_entry m c)

private theorem sum_cols1 :
    Host.reduceAdd (F := Ideal) (cols1 m c : Vec Ideal S8x4096 .f32) (constant (F := Ideal) S_ .f32 0x00000000#32)
        Facts₀.reducesTo_S8x4096_S_d0_1 Facts₀.h_S_ = val_main_v47 (F := Ideal) A3 A4 :=
  sum_same _ _ (cols1_entry m c)

/-- The kernel program's result buffer is the reference's result term. -/
private theorem result_core :
    Gen.V4 m (outs m) c main_v19 = val_main_v51 (F := Ideal) A0 A1 A2 A3 A4 := by
  show StableHlo.after hostOps2 _ (Proc.devRef .tc main_v19) = _
  after_results_simp
  rw [V3_v3 m c, V3_v6_0 m c, V3_v6_1 m c, V3_v7_0 m c, V3_v7_1 m c]
  rw [sum_rows0 m c, sum_cols0 m c, sum_rows1 m c, sum_cols1 m c]
  rfl

end Pieces

/-- The kernel program's result buffer after its run, on core `c`, is the reference's result term of the same five
    argument arrays. -/
theorem result_eq (m : (ℓ : Loc Cert.KernelIdeal.nD Cert.KernelIdeal.τ Cert.KernelIdeal.sig) → Buf (Elt Ideal) ℓ) (c : Dev Cert.KernelIdeal.nD) :
    Cert.KernelIdeal.Gen.V4 m (Cert.KernelIdeal.Region.outs m) c Cert.KernelIdeal.main_v19
      = Cert.ReferenceIdeal.Read.val_main_v51 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  exact result_core m c

end Cert.Bridge

end
-- ==== Proof.lean ====
/-
  The certificate: a bidirectional chamfer loss computed by two tiled kernel calls equals its plain reference over the
  extended reals.

  Both programs compute  mean((pred − target)²) + (mean rowMin + mean colMin)(coarse) + (mean rowMin + mean colMin)(fine),
  where for a cloud p and the reference cloud q, per batch, the clamped squared distance of point n of p to point j of q is
  max((|pₙ|² + |qⱼ|²) − 2⟨pₙ, qⱼ⟩, 0), rowMin is its minimum over j and colMin its minimum over n. The kernel program
  visits p in blocks of 64 points: each block's row minima are final at once; the column minima are a running minimum
  kept from block to block, started at +∞. Over the extended reals a minimum over a finite set is a fold of `min`, which
  does not depend on how the set is cut into blocks, a mean is a sum over all entries divided by their count, which does
  not depend on the order the array lays them out in, and the matrix unit's product into a zero accumulator is the
  same three-term sum as the reference's contraction: so the two results are one extended real, with no finiteness
  needed of the inputs.

  The three frames: each kernel program runs as host operations, the two calls, host operations, over the library's
  several-regions launch with the calls' proof data (the running minimum carried in the invariant), and no item writes
  an argument; the reference's is its generated run. The idealization rewrote nothing, so it preserves trivially.
-/
import proofs.«158115_j85152021610990_1_alg».proof.Defs
import proofs.«158115_j85152021610990_1_alg».proof.Proof.Gen.Kernel
import proofs.«158115_j85152021610990_1_alg».proof.Proof.Gen.KernelIdeal
import proofs.«158115_j85152021610990_1_alg».proof.Proof.Gen.ReferenceIdeal
import proofs.«158115_j85152021610990_1_alg».proof.Proof.Gen.Pre_finite_inputs
import proofs.«158115_j85152021610990_1_alg».proof.Proof.Gen.ReferenceIdeal.Run
import proofs.«158115_j85152021610990_1_alg».proof.Proof.Gen.ReferenceIdeal.Read
import proofs.«158115_j85152021610990_1_alg».proof.Proof.KernelLaunch
import proofs.«158115_j85152021610990_1_alg».proof.Proof.KernelIdealLaunch
import proofs.«158115_j85152021610990_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ =>
  (θ_run Cert.Kernel.defs _ _).mono (fun _ h c => (h c).2) (Cert.Kernel.Region.run_main (F := Bits) m ρ)

/-- So does its idealization. -/
theorem frame_kernelIdeal : Cert.frame_KernelIdeal := fun m ρ _ =>
  (θ_run Cert.KernelIdeal.defs _ _).mono (fun _ h c => (h c).2) (Cert.KernelIdeal.Region.run_main (F := Ideal) m ρ)

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments the two idealized programs end with the same result: the kernel
    program's is the last valuation's value, the reference's its result term, and those are one extended real. -/
theorem algebraic : Cert.algebraic_KernelIdeal_ReferenceIdeal := by
  intro m ρ m' ρ' _ hagree
  refine ⟨fun c => Cert.KernelIdeal.Gen.V4 m (Cert.KernelIdeal.Region.outs m) c Cert.KernelIdeal.main_v19,
    Cert.KernelIdeal.Region.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2.1, (hagree c).2.2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
